-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S4096x256 : Shape := ⟨2, ![4096, 256]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg7 : FVec F S4096x256 .f32) (main_v33 : IVec S_ 1) : IVec S_ 1 :=
  let main_v34 : FVec F S4096x256 .f32 := Host.absf main_arg7
  let main_cst_12 : FVec F S_ .f32 := constant S_ .f32 0x7F800000#32
  let main_v35 : FVec F S4096x256 .f32 := broadcastInDim S4096x256 ![] bcast_S_S4096x256 main_cst_12
  let main_v36 : IVec S4096x256 1 := cmpf .olt main_v34 main_v35
  let main_c_13 : IVec S_ 1 := constantI S_ 1 1#1
  let main_v37 : IVec S_ 1 := (fun x v => Host.reduce IntOp.andi x v reducesTo_S4096x256_S_d0_1 h_S_) main_v36 main_c_13
  let main_v38 : IVec S_ 1 := andi main_v33 main_v37
  main_v38

def fn_part1 {F : FTy → Type} [FloatOps F] (main_arg4 : FVec F S4096x256 .f32) (main_arg5 : FVec F S4096x256 .f32) (main_arg6 : FVec F S4096x256 .f32) (main_arg7 : FVec F S4096x256 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg7 main_v33

def fn {F : FTy → Type} [FloatOps F] (main_arg0 : FVec F S4096x1000 .f32) (main_arg1 : FVec F S4096x1000 .f32) (main_arg2 : FVec F S4096x256 .f32) (main_arg3 : FVec F S4096x256 .f32) (main_arg4 : FVec F S4096x256 .f32) (main_arg5 : FVec F S4096x256 .f32) (main_arg6 : FVec F S4096x256 .f32) (main_arg7 : FVec F S4096x256 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_v13 main_v16
-- ==== Kernel.lean ====
abbrev S4096x1000 : Shape := ⟨2, ![4096, 1000]⟩
abbrev S4096x256 : Shape := ⟨2, ![4096, 256]⟩
abbrev S1x1 : Shape := ⟨2, ![1, 1]⟩
abbrev S512x1000 : Shape := ⟨2, ![512, 1000]⟩
abbrev S512 : Shape := ⟨1, ![512]⟩
abbrev S512x1 : Shape := ⟨2, ![512, 1]⟩
abbrev S1 : Shape := ⟨1, ![1]⟩
abbrev S_ : Shape := ⟨0, ![]⟩
abbrev S1x4096x256 : Shape := ⟨3, ![1, 4096, 256]⟩
abbrev S3x4096x256 : Shape := ⟨3, ![3, 4096, 256]⟩
abbrev S1x128x256 : Shape := ⟨3, ![1, 128, 256]⟩
abbrev S128x256 : Shape := ⟨2, ![128, 256]⟩
abbrev S4096 : Shape := ⟨1, ![4096]⟩
abbrev S4096x1 : Shape := ⟨2, ![4096, 1]⟩
abbrev S1x4096 : Shape := ⟨2, ![1, 4096]⟩
abbrev S128 : Shape := ⟨1, ![128]⟩
abbrev S128x1 : Shape := ⟨2, ![128, 1]⟩
abbrev S256x4096 : Shape := ⟨2, ![256, 4096]⟩
abbrev S128x4096 : Shape := ⟨2, ![128, 4096]⟩

abbrev nBuf : Space → Nat
  | .hbm => 29
  | .vmem => 10
  | .smem => 0
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x4096x256, .f32⟩
  | .hbm, ⟨13, _⟩ => ⟨S1x4096x256, .f32⟩
  | .hbm, ⟨14, _⟩ => ⟨S1x4096x256, .f32⟩
  | .hbm, ⟨15, _⟩ => ⟨S3x4096x256, .f32⟩
  | .hbm, ⟨16, _⟩ => ⟨S1x4096x256, .f32⟩
  | .hbm, ⟨17, _⟩ => ⟨S1x4096x256, .f32⟩
  | .hbm, ⟨18, _⟩ => ⟨S1x4096x256, .f32⟩
  | .hbm, ⟨19, _⟩ => ⟨S3x4096x256, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S1x1, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S1x4096x256, .f32⟩
  | .local _ .vmem, ⟨9, _⟩ => ⟨S1x1, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![3, 32], ![false, false]⟩

def k1_mult1 (i : grid1.Coords) : BitVec 32 :=
  let arg1 : BitVec 32 := BitVec.ofNat 32 (i 1).val
  let c128_i32 : BitVec 32 := 128#32
  let v0 : BitVec 32 := Scalar.muli arg1 c128_i32
  v0
def k1_off1 (i : grid1.Coords) : Fin 3 → Nat :=
  let c0_5 : Index := 0#32
  let arg1 : BitVec 32 := BitVec.ofNat 32 (i 1).val
  let c128_i32 : BitVec 32 := 128#32
  let v0 : BitVec 32 := Scalar.muli arg1 c128_i32
  let v1 : BitVec 32 := v0
  let v6 : Index := Scalar.indexCast v1
  let c0_6 : Index := 0#32
  ![0, v6.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  bcast_S4096x256_S1x4096x256_1_2 : S4096x256.BroadcastsInDim S1x4096x256 (![1, 2] : Fin 2 → Fin S1x4096x256.rank)
  concatenates_S1x4096x256_S1x4096x256_S1x4096x256_S3x4096x256_d0 : Shape.Concatenates [S1x4096x256, S1x4096x256, S1x4096x256] S3x4096x256 0
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  h_S1x128x256 : 0 < S1x128x256.numel
  shapeCasts_S1x128x256_S128x256 : S1x128x256.ShapeCasts S128x256
  reduces_S4096x256_S4096 : S4096x256.Reduces [1] S4096
  shapeCasts_S4096_S4096x1 : S4096.ShapeCasts S4096x1
  transposes_S4096x1_p1_0_S1x4096 : S4096x1.Transposes [1, 0] S1x4096
  reduces_S128x256_S128 : S128x256.Reduces [1] S128
  shapeCasts_S128_S128x1 : S128.ShapeCasts S128x1
  bitsLt_bf16_f32 : FTy.bits .bf16 < FTy.bits .f32
  transposes_S4096x256_p1_0_S256x4096 : S4096x256.Transposes [1, 0] S256x4096
  broadcasts_S128x1_S128x4096 : S128x1.Broadcasts S128x4096
  broadcasts_S1x4096_S128x4096 : S1x4096.Broadcasts S128x4096
  reduces_S128x4096_S128 : S128x4096.Reduces [1] S128
  reduces_S128x1_S1 : S128x1.Reduces [0] S1
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S4096x1000.size a
  hwx0_1 : ∀ i : grid0.Coords, EltTy.bits .f32 = 32 ∨ (Rect.block (s := S4096x1000) S512x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x128x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S3x4096x256.size a
  hwx1_0 : ∀ i : grid1.Coords, EltTy.bits .f32 = 32 ∨ (Rect.block (s := S3x4096x256) S1x4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S3x4096x256.size a
  hwx1_1 : ∀ i : grid1.Coords, EltTy.bits .f32 = 32 ∨ (Rect.block (s := S3x4096x256) S1x4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1000 : Shape := ⟨2, ![4096, 1000]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 217
  | .vmem => 0
  | .smem => 0
  | _ => 0

abbrev hbmTy0_0 (i : Nat) : BufTy := match i % 128 with
  | 0 => ⟨S4096x1000, .f32⟩
  | 1 => ⟨S4096x1000, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x1000, .f32⟩
  | 9 => ⟨S4096x1000, .f32⟩
  | 10 => ⟨S_, .f32⟩
  | 11 => ⟨S_, .f32⟩
  | 12 => ⟨S_, .f32⟩
  | 13 => ⟨S_, .f32⟩
  | 14 => ⟨S4096x256, .f32⟩
  | 15 => ⟨S_, .f32⟩
  | 16 => ⟨S4096, .f32⟩
  | 17 => ⟨S4096x1, .f32⟩
  | 18 => ⟨S1x4096, .f32⟩
  | 19 => ⟨S4096x4096, .f32⟩
  | 20 => ⟨S4096x4096, .f32⟩
  | 21 => ⟨S4096x4096, .f32⟩
  | 22 => ⟨S256x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .i1⟩
  | 34 => ⟨S_, .f32⟩
  | 35 => ⟨S_, .f32⟩
  | 36 => ⟨S4096x4096, .f32⟩
  | 37 => ⟨S4096x4096, .f32⟩
  | 38 => ⟨S4096x4096, .f32⟩
  | 39 => ⟨S_, .f32⟩
  | 40 => ⟨S_, .f32⟩
  | 41 => ⟨S4096x4096, .f32⟩
  | 42 => ⟨S4096x4096, .f32⟩
  | 43 => ⟨S4096x256, .f32⟩
  | 44 => ⟨S_, .f32⟩
  | 45 => ⟨S4096, .f32⟩
  | 46 => ⟨S4096x1, .f32⟩
  | 47 => ⟨S1x4096, .f32⟩
  | 48 => ⟨S4096x4096, .f32⟩
  | 49 => ⟨S4096x4096, .f32⟩
  | 50 => ⟨S4096x4096, .f32⟩
  | 51 => ⟨S256x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .i1⟩
  | 63 => ⟨S_, .f32⟩
  | 64 => ⟨S_, .f32⟩
  | 65 => ⟨S4096x4096, .f32⟩
  | 66 => ⟨S4096x4096, .f32⟩
  | 67 => ⟨S4096x4096, .f32⟩
  | 68 => ⟨S_, .f32⟩
  | 69 => ⟨S_, .f32⟩
  | 70 => ⟨S4096x4096, .f32⟩
  | 71 => ⟨S4096x4096, .f32⟩
  | 72 => ⟨S4096x4096, .f32⟩
  | 73 => ⟨S4096x4096, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096x256, .f32⟩
  | 81 => ⟨S_, .f32⟩
  | 82 => ⟨S4096, .f32⟩
  | 83 => ⟨S4096x1, .f32⟩
  | 84 => ⟨S1x4096, .f32⟩
  | 85 => ⟨S4096x4096, .f32⟩
  | 86 => ⟨S4096x4096, .f32⟩
  | 87 => ⟨S4096x4096, .f32⟩
  | 88 => ⟨S256x4096, .f32⟩
  | 89 => ⟨S4096x4096, .f32⟩
  | 90 => ⟨S_, .f32⟩
  | 91 => ⟨S4096x4096, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S_, .f32⟩
  | 98 => ⟨S4096x4096, .f32⟩
  | 99 => ⟨S4096x4096, .i1⟩
  | 100 => ⟨S_, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S_, .f32⟩
  | 107 => ⟨S4096x4096, .f32⟩
  | 108 => ⟨S4096x4096, .f32⟩
  | 109 => ⟨S4096x256, .f32⟩
  | 110 => ⟨S_, .f32⟩
  | 111 => ⟨S4096, .f32⟩
  | 112 => ⟨S4096x1, .f32⟩
  | 113 => ⟨S1x4096, .f32⟩
  | 114 => ⟨S4096x4096, .f32⟩
  | 115 => ⟨S4096x4096, .f32⟩
  | 116 => ⟨S4096x4096, .f32⟩
  | 117 => ⟨S256x4096, .f32⟩
  | 118 => ⟨S4096x4096, .f32⟩
  | 119 => ⟨S_, .f32⟩
  | 120 => ⟨S4096x4096, .f32⟩
  | 121 => ⟨S4096x4096, .f32⟩
  | 122 => ⟨S4096x4096, .f32⟩
  | 123 => ⟨S_, .f32⟩
  | 124 => ⟨S4096x4096, .f32⟩
  | 125 => ⟨S4096x4096, .f32⟩
  | 126 => ⟨S_, .f32⟩
  | 127 => ⟨S4096x4096, .f32⟩
  | _ => ⟨S4096x1000, .f32⟩

abbrev hbmTy0_1 (i : Nat) : BufTy := match i % 128 with
  | 0 => ⟨S4096x4096, .i1⟩
  | 1 => ⟨S_, .f32⟩
  | 2 => ⟨S_, .f32⟩
  | 3 => ⟨S4096x4096, .f32⟩
  | 4 => ⟨S4096x4096, .f32⟩
  | 5 => ⟨S4096x4096, .f32⟩
  | 6 => ⟨S_, .f32⟩
  | 7 => ⟨S_, .f32⟩
  | 8 => ⟨S4096x4096, .f32⟩
  | 9 => ⟨S4096x4096, .f32⟩
  | 10 => ⟨S4096x4096, .f32⟩
  | 11 => ⟨S4096x4096, .f32⟩
  | 12 => ⟨S_, .f32⟩
  | 13 => ⟨S_, .f32⟩
  | 14 => ⟨S_, .f32⟩
  | 15 => ⟨S_, .f32⟩
  | 16 => ⟨S_, .f32⟩
  | 17 => ⟨S4096x256, .f32⟩
  | 18 => ⟨S_, .f32⟩
  | 19 => ⟨S4096, .f32⟩
  | 20 => ⟨S4096x1, .f32⟩
  | 21 => ⟨S1x4096, .f32⟩
  | 22 => ⟨S4096x4096, .f32⟩
  | 23 => ⟨S4096x4096, .f32⟩
  | 24 => ⟨S4096x4096, .f32⟩
  | 25 => ⟨S256x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S_, .f32⟩
  | 35 => ⟨S4096x4096, .f32⟩
  | 36 => ⟨S4096x4096, .i1⟩
  | 37 => ⟨S_, .f32⟩
  | 38 => ⟨S_, .f32⟩
  | 39 => ⟨S4096x4096, .f32⟩
  | 40 => ⟨S4096x4096, .f32⟩
  | 41 => ⟨S4096x4096, .f32⟩
  | 42 => ⟨S_, .f32⟩
  | 43 => ⟨S_, .f32⟩
  | 44 => ⟨S4096x4096, .f32⟩
  | 45 => ⟨S4096x4096, .f32⟩
  | 46 => ⟨S4096x256, .f32⟩
  | 47 => ⟨S_, .f32⟩
  | 48 => ⟨S4096, .f32⟩
  | 49 => ⟨S4096x1, .f32⟩
  | 50 => ⟨S1x4096, .f32⟩
  | 51 => ⟨S4096x4096, .f32⟩
  | 52 => ⟨S4096x4096, .f32⟩
  | 53 => ⟨S4096x4096, .f32⟩
  | 54 => ⟨S256x4096, .f32⟩
  | 55 => ⟨S4096x4096, .f32⟩
  | 56 => ⟨S_, .f32⟩
  | 57 => ⟨S4096x4096, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S_, .f32⟩
  | 64 => ⟨S4096x4096, .f32⟩
  | 65 => ⟨S4096x4096, .i1⟩
  | 66 => ⟨S_, .f32⟩
  | 67 => ⟨S_, .f32⟩
  | 68 => ⟨S4096x4096, .f32⟩
  | 69 => ⟨S4096x4096, .f32⟩
  | 70 => ⟨S4096x4096, .f32⟩
  | 71 => ⟨S_, .f32⟩
  | 72 => ⟨S_, .f32⟩
  | 73 => ⟨S4096x4096, .f32⟩
  | 74 => ⟨S4096x4096, .f32⟩
  | 75 => ⟨S4096x4096, .f32⟩
  | 76 => ⟨S4096x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | _ => ⟨S4096x1000, .f32⟩

abbrev hbmTy (i : Nat) : BufTy := match i / 128 with
  | 0 => hbmTy0_0 i
  | 1 => hbmTy0_1 i
  | _ => ⟨S4096x1000, .f32⟩

abbrev bufTy : (tb : Table) → Fin (tcTables nBuf tb) → BufTy
  | .hbm, ⟨i, _⟩ => hbmTy i
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_call3_v0 : Ref sig .tc := ⟨.hbm, 69, rfl⟩
abbrev main_call3_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_cst_15 : Ref sig .tc := ⟨.hbm, 78, rfl⟩
abbrev main_v46 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_17 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_18 : Ref sig .tc := ⟨.hbm, 94, rfl⟩
abbrev main_v59 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_cst_20 : Ref sig .tc := ⟨.hbm, 100, rfl⟩
abbrev main_call4_v0 : Ref sig .tc := ⟨.hbm, 101, rfl⟩
abbrev main_call4_v1 : Ref sig .tc := ⟨.hbm, 102, rfl⟩
abbrev main_v63 : Ref sig .tc := ⟨.hbm, 103, rfl⟩
abbrev main_v64 : Ref sig .tc := ⟨.hbm, 104, rfl⟩
abbrev main_cst_21 : Ref sig .tc := ⟨.hbm, 105, rfl⟩
abbrev main_call5_v0 : Ref sig .tc := ⟨.hbm, 106, rfl⟩
abbrev main_call5_v1 : Ref sig .tc := ⟨.hbm, 107, rfl⟩
abbrev main_v65 : Ref sig .tc := ⟨.hbm, 108, rfl⟩
abbrev main_v66 : Ref sig .tc := ⟨.hbm, 109, rfl⟩
abbrev main_cst_22 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_23 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_24 : Ref sig .tc := ⟨.hbm, 123, rfl⟩
abbrev main_v78 : Ref sig .tc := ⟨.hbm, 124, rfl⟩
abbrev main_v79 : Ref sig .tc := ⟨.hbm, 125, rfl⟩
abbrev main_cst_25 : Ref sig .tc := ⟨.hbm, 126, rfl⟩
abbrev main_v80 : Ref sig .tc := ⟨.hbm, 127, rfl⟩
abbrev main_v81 : Ref sig .tc := ⟨.hbm, 128, rfl⟩
abbrev main_cst_26 : Ref sig .tc := ⟨.hbm, 129, rfl⟩
abbrev main_call6_v0 : Ref sig .tc := ⟨.hbm, 130, rfl⟩
abbrev main_call6_v1 : Ref sig .tc := ⟨.hbm, 131, rfl⟩
abbrev main_v82 : Ref sig .tc := ⟨.hbm, 132, rfl⟩
abbrev main_v83 : Ref sig .tc := ⟨.hbm, 133, rfl⟩
abbrev main_cst_27 : Ref sig .tc := ⟨.hbm, 134, rfl⟩
abbrev main_call7_v0 : Ref sig .tc := ⟨.hbm, 135, rfl⟩
abbrev main_call7_v1 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_28 : Ref sig .tc := ⟨.hbm, 140, rfl⟩
abbrev main_v87 : Ref sig .tc := ⟨.hbm, 141, rfl⟩
abbrev main_cst_29 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_30 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_31 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_32 : Ref sig .tc := ⟨.hbm, 159, rfl⟩
abbrev main_v102 : Ref sig .tc := ⟨.hbm, 160, rfl⟩
abbrev main_v103 : Ref sig .tc := ⟨.hbm, 161, rfl⟩
abbrev main_cst_33 : Ref sig .tc := ⟨.hbm, 162, rfl⟩
abbrev main_v104 : Ref sig .tc := ⟨.hbm, 163, rfl⟩
abbrev main_v105 : Ref sig .tc := ⟨.hbm, 164, rfl⟩
abbrev main_cst_34 : Ref sig .tc := ⟨.hbm, 165, rfl⟩
abbrev main_call8_v0 : Ref sig .tc := ⟨.hbm, 166, rfl⟩
abbrev main_call8_v1 : Ref sig .tc := ⟨.hbm, 167, rfl⟩
abbrev main_v106 : Ref sig .tc := ⟨.hbm, 168, rfl⟩
abbrev main_v107 : Ref sig .tc := ⟨.hbm, 169, rfl⟩
abbrev main_cst_35 : Ref sig .tc := ⟨.hbm, 170, rfl⟩
abbrev main_call9_v0 : Ref sig .tc := ⟨.hbm, 171, rfl⟩
abbrev main_call9_v1 : Ref sig .tc := ⟨.hbm, 172, rfl⟩
abbrev main_v108 : Ref sig .tc := ⟨.hbm, 173, rfl⟩
abbrev main_v109 : Ref sig .tc := ⟨.hbm, 174, rfl⟩
abbrev main_cst_36 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_37 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_38 : Ref sig .tc := ⟨.hbm, 188, rfl⟩
abbrev main_v121 : Ref sig .tc := ⟨.hbm, 189, rfl⟩
abbrev main_v122 : Ref sig .tc := ⟨.hbm, 190, rfl⟩
abbrev main_cst_39 : Ref sig .tc := ⟨.hbm, 191, rfl⟩
abbrev main_v123 : Ref sig .tc := ⟨.hbm, 192, rfl⟩
abbrev main_v124 : Ref sig .tc := ⟨.hbm, 193, rfl⟩
abbrev main_cst_40 : Ref sig .tc := ⟨.hbm, 194, rfl⟩
abbrev main_call10_v0 : Ref sig .tc := ⟨.hbm, 195, rfl⟩
abbrev main_call10_v1 : Ref sig .tc := ⟨.hbm, 196, rfl⟩
abbrev main_v125 : Ref sig .tc := ⟨.hbm, 197, rfl⟩
abbrev main_v126 : Ref sig .tc := ⟨.hbm, 198, rfl⟩
abbrev main_cst_41 : Ref sig .tc := ⟨.hbm, 199, rfl⟩
abbrev main_call11_v0 : Ref sig .tc := ⟨.hbm, 200, rfl⟩
abbrev main_call11_v1 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_42 : Ref sig .tc := ⟨.hbm, 205, rfl⟩
abbrev main_v130 : Ref sig .tc := ⟨.hbm, 206, rfl⟩
abbrev main_cst_43 : Ref sig .tc := ⟨.hbm, 207, rfl⟩
abbrev main_v131 : Ref sig .tc := ⟨.hbm, 208, rfl⟩
abbrev main_v132 : Ref sig .tc := ⟨.hbm, 209, rfl⟩
abbrev main_cst_44 : Ref sig .tc := ⟨.hbm, 210, rfl⟩
abbrev main_v133 : Ref sig .tc := ⟨.hbm, 211, rfl⟩
abbrev main_cst_45 : Ref sig .tc := ⟨.hbm, 212, rfl⟩
abbrev main_v134 : Ref sig .tc := ⟨.hbm, 213, rfl⟩
abbrev main_cst_46 : Ref sig .tc := ⟨.hbm, 214, rfl⟩
abbrev main_v135 : Ref sig .tc := ⟨.hbm, 215, rfl⟩
abbrev main_v136 : Ref sig .tc := ⟨.hbm, 216, rfl⟩

abbrev nD : Nat := 1
abbrev τ : Topo := Topo.v7x

variable {F : FTy → Type} [FloatOps F]

class Facts₀ : Prop where
  reducesTo_S4096x1000_S_d0_1 : S4096x1000.ReducesTo [0, 1] S_
  h_S_ : 0 < S_.numel
  reducesTo_S4096x256_S4096_d1 : S4096x256.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.LabelRun.lean ====
/-
  The label kernel (the first pallas_call: the sum of squared differences of two 4096 x 1000 arrays,
  taken 512 rows at a grid point and accumulated in a 1 x 1 output block that stays resident over the
  eight points) run on whole staging buffers, once for each way its one conditional can go.
  At the first point the body stores a zero into the output block and then adds the block's sum to
  what it reads back; at every later point it adds the block's sum to what the point before left.
  Each run states what the output buffer is left holding as the list of pieces the stores wrote.
-/
import proofs.«109064_j34256659153337_1_alg».proof.Proof.Gen.KernelIdeal.Launch
import proofs.«109064_j34256659153337_1_alg».proof.Proof.Gen.KernelIdeal.Skeleton
import proofs.«109064_j34256659153337_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional, as a proposition about the grid coordinates: "this is row block 0". -/
abbrev labelFirst (i : grid0.Coords) : Prop :=
  (Scalar.cmpi .ne (Scalar.extui (Scalar.cmpi .eq (BitVec.ofNat 32 (i 0).val) 0#32)) 0#32) = 1#1

/-- Over the eight points it holds exactly at the first. -/
theorem labelFirst_iff : ∀ t : Fin cfg0.N, labelFirst (grid0.coords t) ↔ t.val % 8 = 0 :=
  (by decide +kernel : ∀ t : Fin grid0.N, labelFirst (grid0.coords t) ↔ t.val % 8 = 0)

/-- One staging buffer of the output window, through which its contents are stated. -/
abbrev labelOutView : View sig .tc .vmem S1x1 .f32 := (Memref.whole cc0_stg2_0 : Memref sig .tc .vmem S1x1 .f32).view

/-- The windows' current staging memrefs at a point, as the pipeline passes them, and their wholeness. -/
abbrev lms0 (t : Fin cfg0.N) : Memref sig .tc .vmem S512x1000 .f32 := win0_0.stage (cfg0.slots t 0)
abbrev lhs0 (t : Fin cfg0.N) : (lms0 t).IsWhole := hstage0_0 ((cfg0.slots t 0).cast nbuf0_0)
abbrev lms1 (t : Fin cfg0.N) : Memref sig .tc .vmem S512x1000 .f32 := win0_1.stage (cfg0.slots t 1)
abbrev lhs1 (t : Fin cfg0.N) : (lms1 t).IsWhole := hstage0_1 ((cfg0.slots t 1).cast nbuf0_1)
abbrev lms2 (t : Fin cfg0.N) : Memref sig .tc .vmem S1x1 .f32 := win0_2.stage (cfg0.slots t 2)
abbrev lhs2 (t : Fin cfg0.N) : (lms2 t).IsWhole := hstage0_2 ((cfg0.slots t 2).cast nbuf0_2)

set_option maxHeartbeats 1000000 in
/-- The first point: the output buffer may hold anything; the body zeroes it and adds the block's sum. -/
noncomputable def labelRunFirst (c : Dev nD) (i : grid0.Coords)
    (arg1 : Memref sig .tc .vmem S512x1000 .f32) (harg1 : arg1.IsWhole)
    (arg2 : Memref sig .tc .vmem S512x1000 .f32) (harg2 : arg2.IsWhole)
    (arg3 : Memref sig .tc .vmem S1x1 .f32) (harg3 : arg3.IsWhole) (hc0 : labelFirst i)
    (x0 : Vec F S512x1000 .f32) (x1 : Vec F S512x1000 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__label_kernel i arg1 harg1 arg2 harg2 arg3 harg3) K } := by
  refine ⟨?_, fun E K => ?run⟩
  case run =>
    simp only [cc0__label_kernel_eq_skeleton]; unfold cc0__label_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A later point: the output buffer holds the running sum `xo`; the body adds the block's sum to it. -/
noncomputable def labelRunLater (c : Dev nD) (i : grid0.Coords)
    (arg1 : Memref sig .tc .vmem S512x1000 .f32) (harg1 : arg1.IsWhole)
    (arg2 : Memref sig .tc .vmem S512x1000 .f32) (harg2 : arg2.IsWhole)
    (arg3 : Memref sig .tc .vmem S1x1 .f32) (harg3 : arg3.IsWhole) (hc0 : ¬labelFirst i)
    (x0 : Vec F S512x1000 .f32) (x1 : Vec F S512x1000 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__label_kernel i arg1 harg1 arg2 harg2 arg3 harg3) K } := by
  refine ⟨?_, fun E K => ?run⟩
  case run =>
    simp only [cc0__label_kernel_eq_skeleton]; unfold cc0__label_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Run

end
-- ==== Proof.LabelRegion.lean ====
/-
  The label kernel as one region of the program: at any contents `V` the region may be entered from,
  the proof data of its pipeline. The two input windows hold their 512-row blocks at every point; the
  1 x 1 output block is resident over the eight points, so what its staging buffer holds after point
  `n` is defined by recursion on `n` from the two cases' runs; and the body meets its obligation at
  every point by a case split on "is this the first point".
-/
import proofs.«109064_j34256659153337_1_alg».proof.Proof.LabelRun
import Idealize.ShloMosaic.Lib.Pipeline.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def lblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not
    (unfetched, the block index has not moved), for any proof data whose array is `V`'s and whose
    body leaves the block in place. -/
theorem lbefore0_of {c : Dev nD} (dat : Dat τ (Elt F) Unit ℕ (UR sig nD τ) ℕ cfg0 c) (hA : dat.A 0 = V c (Pipeline.arrRef spec0 0))
    (hafter : ∀ t, dat.after 0 t = lblk V c 0 t) (t : Fin cfg0.N) (d) : dat.before 0 t d = lblk V c 0 t :=
  (dat.before_in_eq_fetched 0 rfl (fun _ => rfl) (fun _ _ _ => rfl) (fun t => by rw [hafter]; unfold Dat.blockOf lblk; rw [hA]; try rfl) t d).trans
    (by unfold Dat.fetched Dat.blockOf lblk; rw [hA]; try rfl)
theorem lbefore1_of {c : Dev nD} (dat : Dat τ (Elt F) Unit ℕ (UR sig nD τ) ℕ cfg0 c) (hA : dat.A 1 = V c (Pipeline.arrRef spec0 1))
    (hafter : ∀ t, dat.after 1 t = lblk V c 1 t) (t : Fin cfg0.N) (d) : dat.before 1 t d = lblk V c 1 t :=
  (dat.before_in_eq_fetched 1 rfl (fun _ => rfl) (fun _ _ _ => rfl) (fun t => by rw [hafter]; unfold Dat.blockOf lblk; rw [hA]; try rfl) t d).trans
    (by unfold Dat.fetched Dat.blockOf lblk; rw [hA]; try rfl)
end

/-! ## What each case leaves in the output's staging buffer -/

/-- The first point's stores (the zero, then the sum) tile the 1 x 1 block, so they cover it. -/
theorem lcoverFirst (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : labelFirst i)
    (x0 x1 : Vec F S512x1000 .f32) (y : S1x1.Idx) :
    ∃ pc ∈ (labelRunFirst c i a0 h0 a1 h1 a2 h2 hc x0 x1).1, y ∈ pc.1.set :=
  View.cover_of_tiledL (labelRunFirst c i a0 h0 a1 h1 a2 h2 hc x0 x1).1 S1x1.size (by sl_kernel_rfl) y

/-- What the first point leaves in the output's staging buffer: its pieces read back. -/
def loutFirst (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : labelFirst i)
    (x0 x1 : Vec F S512x1000 .f32) : Vec F S1x1 .f32 :=
  labelOutView.read (Elt F) (labelOutView.writes (Elt F) labelOutView.junk (labelRunFirst c i a0 h0 a1 h1 a2 h2 hc x0 x1).1)

/-- A later point's one store tiles the 1 x 1 block, so it covers it. -/
theorem lcoverLater (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : ¬labelFirst i)
    (x0 x1 : Vec F S512x1000 .f32) (xo : Vec F S1x1 .f32) (y : S1x1.Idx) :
    ∃ pc ∈ (labelRunLater c i a0 h0 a1 h1 a2 h2 hc x0 x1 xo).1, y ∈ pc.1.set :=
  View.cover_of_tiledL (labelRunLater c i a0 h0 a1 h1 a2 h2 hc x0 x1 xo).1 S1x1.size (by sl_kernel_rfl) y

/-- What a later point leaves in the output's staging buffer, over the running contents `xo`. -/
def loutLater (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : ¬labelFirst i)
    (x0 x1 : Vec F S512x1000 .f32) (xo : Vec F S1x1 .f32) : Vec F S1x1 .f32 :=
  labelOutView.read (Elt F) (labelOutView.writes (Elt F) labelOutView.junk (labelRunLater c i a0 h0 a1 h1 a2 h2 hc x0 x1 xo).1)

section
variable (V : (c : Dev nD) → (b : Ref sig .tc) → Buf (Elt F) ((c : Thread nD τ).loc b))

/-! ## The accumulation over the points -/

/-- What the output's staging buffer holds after the body at position `n`: the first point's contents at
    `n = 0`, afterwards the later case over what position `n - 1` left (the buffer is not written back between). -/
def lacc (c : Dev nD) : (n : ℕ) → n < cfg0.N → Vec F S1x1 .f32
  | 0, hn => loutFirst c (grid0.coords ⟨0, hn⟩) (lms0 ⟨0, hn⟩) (lhs0 ⟨0, hn⟩) (lms1 ⟨0, hn⟩) (lhs1 ⟨0, hn⟩) (lms2 ⟨0, hn⟩) (lhs2 ⟨0, hn⟩)
      ((labelFirst_iff ⟨0, hn⟩).mpr (Nat.zero_mod _)) (lblk V c 0 ⟨0, hn⟩) (lblk V c 1 ⟨0, hn⟩)
  | n + 1, hn =>
    if h0 : (n + 1) % 8 = 0 then
      loutFirst c (grid0.coords ⟨n + 1, hn⟩) (lms0 ⟨n + 1, hn⟩) (lhs0 ⟨n + 1, hn⟩) (lms1 ⟨n + 1, hn⟩) (lhs1 ⟨n + 1, hn⟩) (lms2 ⟨n + 1, hn⟩) (lhs2 ⟨n + 1, hn⟩)
        ((labelFirst_iff ⟨n + 1, hn⟩).mpr h0) (lblk V c 0 ⟨n + 1, hn⟩) (lblk V c 1 ⟨n + 1, hn⟩)
    else
      loutLater c (grid0.coords ⟨n + 1, hn⟩) (lms0 ⟨n + 1, hn⟩) (lhs0 ⟨n + 1, hn⟩) (lms1 ⟨n + 1, hn⟩) (lhs1 ⟨n + 1, hn⟩) (lms2 ⟨n + 1, hn⟩) (lhs2 ⟨n + 1, hn⟩)
        (fun h => h0 ((labelFirst_iff ⟨n + 1, hn⟩).mp h)) (lblk V c 0 ⟨n + 1, hn⟩) (lblk V c 1 ⟨n + 1, hn⟩) (lacc c n (Nat.lt_of_succ_lt hn))

/-- At the first point. -/
theorem lacc_first (c : Dev nD) (t : Fin cfg0.N) (h0 : t.val % 8 = 0) :
    lacc V c t.val t.isLt = loutFirst c (grid0.coords t) (lms0 t) (lhs0 t) (lms1 t) (lhs1 t) (lms2 t) (lhs2 t)
      ((labelFirst_iff t).mpr h0) (lblk V c 0 t) (lblk V c 1 t) := by
  obtain ⟨n, hn⟩ := t
  cases n with
  | zero => exact rfl
  | succ n => exact (dif_pos h0).trans rfl

/-- At a later point: over what the point before left. -/
theorem lacc_later (c : Dev nD) (t : Fin cfg0.N) (h0 : ¬t.val % 8 = 0) :
    lacc V c t.val t.isLt = loutLater c (grid0.coords t) (lms0 t) (lhs0 t) (lms1 t) (lhs1 t) (lms2 t) (lhs2 t)
      (fun h => h0 ((labelFirst_iff t).mp h)) (lblk V c 0 t) (lblk V c 1 t)
      (lacc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and
    the output's at the accumulation; the invariant the scoped rest and the generator register;
    nothing owed; full shares. -/
def ldat (c : Dev nD) : Dat τ (Elt F) Unit ℕ (UR sig nD τ) ℕ cfg0 c where
  A w := V c (Pipeline.arrRef spec0 w)
  after w t := match w with
    | ⟨0, _⟩ => lblk V c 0 t
    | ⟨1, _⟩ => lblk V c 1 t
    | ⟨2, _⟩ => lacc V c t.val t.isLt
  Φ _ := Pipeline.ΦA spec0 c
  q _ := fullShare
  owed _ := 0

theorem lA_eq (c : Dev nD) (w : Fin cfg0.W) : (ldat V c).A w = V c (Pipeline.arrRef spec0 w) := by
  dsimp only [ldat]

theorem lafter0 (c : Dev nD) (t : Fin cfg0.N) : (ldat V c).after 0 t = lblk V c 0 t := by dsimp only [ldat]
theorem lafter1 (c : Dev nD) (t : Fin cfg0.N) : (ldat V c).after 1 t = lblk V c 1 t := by dsimp only [ldat]
theorem lafter2 (c : Dev nD) (t : Fin cfg0.N) : (ldat V c).after 2 t = lacc V c t.val t.isLt := by dsimp only [ldat]

theorem lbefore0 (c : Dev nD) (t : Fin cfg0.N) (d) : (ldat V c).before 0 t d = lblk V c 0 t :=
  lbefore0_of V (ldat V c) (lA_eq V c 0) (lafter0 V c) t d
theorem lbefore1 (c : Dev nD) (t : Fin cfg0.N) (d) : (ldat V c).before 1 t d = lblk V c 1 t :=
  lbefore1_of V (ldat V c) (lA_eq V c 1) (lafter1 V c) t d
/-- At a later point the output's staging buffer holds what the body left at the point before: the buffer
    was not written back between, the window is live and uncut. -/
theorem lbefore2_later (c : Dev nD) (t : Fin cfg0.N) (h0 : ¬t.val % 8 = 0) (d) :
    (ldat V c).before 2 t d = lacc V c (t.val - 1) (Nat.lt_of_le_of_lt (Nat.sub_le _ _) t.isLt) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [ldat]

/-! ## The body obligation, at a generic point -/

def lbodyPre (c : Dev nD) (t : Fin cfg0.N) : sProp 𝕄 :=
  iprop((ldat V c).Φ t.castSucc ∗ (ldat V c).owesAt () t.castSucc
    ∗ (∃ d, owns (c : Thread nD τ) (st0_0 t) fullShare ((ldat V c).before 0 t d))
    ∗ (∃ d, owns (c : Thread nD τ) (st0_1 t) fullShare ((ldat V c).before 1 t d))
    ∗ (∃ d, owns (c : Thread nD τ) (st0_2 t) fullShare ((ldat V c).before 2 t d)))

def lbodyPost (c : Dev nD) (t : Fin cfg0.N) : sProp 𝕄 :=
  iprop((ldat V c).Φ t.succ ∗ (ldat V c).owesAt () t.succ
    ∗ owns (c : Thread nD τ) (st0_0 t) fullShare ((ldat V c).after 0 t)
    ∗ owns (c : Thread nD τ) (st0_1 t) fullShare ((ldat V c).after 1 t)
    ∗ owns (c : Thread nD τ) (st0_2 t) fullShare ((ldat V c).after 2 t))

set_option maxHeartbeats 1600000 in
/-- The body at any point: the inputs' memrefs hold their blocks; the closed form of the conditional says which
    case the point is in; at a later point the output's buffer holds what the point before left; so the
    case's run applies; the invariant passes through unread; the core owes nothing throughout. -/
theorem lsound_body (c : Dev nD) (t : Fin cfg0.N) :
    lbodyPre V c t ⊢ wp frame (wpE (defs₀ (F := F)) Variants.none c none) Set.univ (bodyAt0 t) (fun _ => lbodyPost V c t) := by
  unfold lbodyPre lbodyPost bodyAt0
  simp only [lbefore0, lbefore1]
  rw [show (ldat V c).Φ t.succ = (ldat V c).Φ t.castSucc from rfl,
    show (ldat V c).owesAt () t.succ = (ldat V c).owesAt () t.castSucc from rfl,
    lafter0, lafter1, lafter2]
  have hN : t.val < 8 := lt_of_lt_of_eq t.isLt (show cfg0.N = 8 from N_0)
  by_cases h0 : t.val % 8 = 0
  · rw [lacc_first V c t h0]
    unfold loutFirst
    iintro ⟨HΦ, Ho, ⟨%d0, H0⟩, ⟨%d1, H1⟩, ⟨%d2, H2⟩⟩
    iapply ((labelRunFirst c (grid0.coords t) _ _ _ _ _ _ ((labelFirst_iff t).mpr h0) (lblk V c 0 t) (lblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (lcoverFirst c _ _ _ _ _ _ _ _ _ _)
  · rw [lacc_later V c t h0]
    simp only [lbefore2_later V c t h0]
    unfold loutLater
    iintro ⟨HΦ, Ho, ⟨%d0, H0⟩, ⟨%d1, H1⟩, ⟨%d2, H2⟩⟩
    iapply ((labelRunLater c (grid0.coords t) _ _ _ _ _ _ (fun h => h0 ((labelFirst_iff t).mp h)) (lblk V c 0 t) (lblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (lcoverLater c _ _ _ _ _ _ _ _ _ _ _)

/-- The library's body obligation, at every point. -/
theorem lbody_obligation (c : Dev nD) : BodyObligation (ldat (F := F) V c) (defs₀ (F := F)) Variants.none () Set.univ := fun t => by
  rw [bigSep_W0, bigSep_W0]
  exact lsound_body V c t

end

end Cert.KernelIdeal.Run

end
-- ==== Proof.FeatRun.lean ====
/-
  The feature kernel (the second pallas_call: for each of three feature pairs, the sum over all
  4096 x 4096 index pairs of the squared difference of the two pairwise-distance matrices, taken
  128 rows at a grid point and accumulated in a 1 x 1 output block that stays resident over the
  3 x 32 points) run on whole staging buffers, once for each way its one conditional can go.
  At the very first point the body stores a zero into the output block and then adds the block's
  sum to what it reads back; at every later point it adds to what the point before left.
  Each run states what the output buffer is left holding as the list of pieces the stores wrote.
-/
import proofs.«109064_j34256659153337_1_alg».proof.Proof.Gen.KernelIdeal.Launch
import proofs.«109064_j34256659153337_1_alg».proof.Proof.Gen.KernelIdeal.Skeleton
import proofs.«109064_j34256659153337_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional, as a proposition about the grid coordinates: "feature 0 and row block 0". -/
abbrev featFirst (i : grid1.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- Over the 96 points it holds exactly at the first. -/
theorem featFirst_iff : ∀ t : Fin cfg1.N, featFirst (grid1.coords t) ↔ t.val % 96 = 0 :=
  (by decide +kernel : ∀ t : Fin grid1.N, featFirst (grid1.coords t) ↔ t.val % 96 = 0)

/-- One staging buffer of the output window, through which its contents are stated. -/
abbrev featOutView : View sig .tc .vmem S1x1 .f32 := (Memref.whole cc1_stg2_0 : Memref sig .tc .vmem S1x1 .f32).view

/-- The windows' current staging memrefs at a point, as the pipeline passes them, and their wholeness. -/
abbrev fms0 (t : Fin cfg1.N) : Memref sig .tc .vmem S1x4096x256 .f32 := win1_0.stage (cfg1.slots t 0)
abbrev fhs0 (t : Fin cfg1.N) : (fms0 t).IsWhole := hstage1_0 ((cfg1.slots t 0).cast nbuf1_0)
abbrev fms1 (t : Fin cfg1.N) : Memref sig .tc .vmem S1x4096x256 .f32 := win1_1.stage (cfg1.slots t 1)
abbrev fhs1 (t : Fin cfg1.N) : (fms1 t).IsWhole := hstage1_1 ((cfg1.slots t 1).cast nbuf1_1)
abbrev fms2 (t : Fin cfg1.N) : Memref sig .tc .vmem S1x1 .f32 := win1_2.stage (cfg1.slots t 2)
abbrev fhs2 (t : Fin cfg1.N) : (fms2 t).IsWhole := hstage1_2 ((cfg1.slots t 2).cast nbuf1_2)

set_option maxHeartbeats 2000000 in
/-- The first point: the output buffer may hold anything; the body zeroes it and adds the block's sum. -/
noncomputable def featRunFirst (c : Dev nD) (i : grid1.Coords)
    (arg2 : Memref sig .tc .vmem S1x4096x256 .f32) (harg2 : arg2.IsWhole)
    (arg3 : Memref sig .tc .vmem S1x4096x256 .f32) (harg3 : arg3.IsWhole)
    (arg4 : Memref sig .tc .vmem S1x1 .f32) (harg4 : arg4.IsWhole) (hc0 : featFirst i)
    (x0 : Vec F S1x4096x256 .f32) (x1 : Vec F S1x4096x256 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__feat_kernel i arg2 harg2 arg3 harg3 arg4 harg4) K } := by
  refine ⟨?_, fun E K => ?run⟩
  case run =>
    simp only [cc1__feat_kernel_eq_skeleton]; unfold cc1__feat_kernel_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 2000000 in
/-- A later point: the output buffer holds the running sum `xo`; the body adds the block's sum to it. -/
noncomputable def featRunLater (c : Dev nD) (i : grid1.Coords)
    (arg2 : Memref sig .tc .vmem S1x4096x256 .f32) (harg2 : arg2.IsWhole)
    (arg3 : Memref sig .tc .vmem S1x4096x256 .f32) (harg3 : arg3.IsWhole)
    (arg4 : Memref sig .tc .vmem S1x1 .f32) (harg4 : arg4.IsWhole) (hc0 : ¬featFirst i)
    (x0 : Vec F S1x4096x256 .f32) (x1 : Vec F S1x4096x256 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__feat_kernel i arg2 harg2 arg3 harg3 arg4 harg4) K } := by
  refine ⟨?_, fun E K => ?run⟩
  case run =>
    simp only [cc1__feat_kernel_eq_skeleton]; unfold cc1__feat_kernel_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Run

end
-- ==== Proof.FeatRegion.lean ====
/- The feature kernel as one region of the program: at any contents the region may be entered from, the proof data of its
   pipeline. The two input windows hold one feature's whole 4096 x 256 array at every point (fetched when the feature
   changes); the 1 x 1 output block is resident over the 3 x 32 points, so what its staging buffer holds after point n is
   defined by recursion on n from the two cases' runs; the body meets its obligation at every point by a case split on
   whether this is the first point. -/
import proofs.«109064_j34256659153337_1_alg».proof.Proof.FeatRun
import Idealize.ShloMosaic.Lib.Pipeline.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def fblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not
    (unfetched, the block index has not moved), for any proof data whose array is `V`'s and whose
    body leaves the block in place. -/
theorem fbefore0_of {c : Dev nD} (dat : Dat τ (Elt F) Unit ℕ (UR sig nD τ) ℕ cfg1 c) (hA : dat.A 0 = V c (Pipeline.arrRef spec1 0))
    (hafter : ∀ t, dat.after 0 t = fblk V c 0 t) (t : Fin cfg1.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)
theorem fbefore1_of {c : Dev nD} (dat : Dat τ (Elt F) Unit ℕ (UR sig nD τ) ℕ cfg1 c) (hA : dat.A 1 = V c (Pipeline.arrRef spec1 1))
    (hafter : ∀ t, dat.after 1 t = fblk V c 1 t) (t : Fin cfg1.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)
end

/-! ## What each case leaves in the output's staging buffer -/

/-- The first point's stores (the zero, then the sum) tile the 1 x 1 block, so they cover it. -/
theorem fcoverFirst (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : featFirst i)
    (x0 x1 : Vec F S1x4096x256 .f32) (y : S1x1.Idx) :
    ∃ pc ∈ (featRunFirst c i a0 h0 a1 h1 a2 h2 hc x0 x1).1, y ∈ pc.1.set :=
  View.cover_of_tiledL (featRunFirst c i a0 h0 a1 h1 a2 h2 hc x0 x1).1 S1x1.size (by sl_kernel_rfl) y

/-- What the first point leaves in the output's staging buffer: its pieces read back. -/
def foutFirst (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : featFirst i)
    (x0 x1 : Vec F S1x4096x256 .f32) : Vec F S1x1 .f32 :=
  featOutView.read (Elt F) (featOutView.writes (Elt F) featOutView.junk (featRunFirst c i a0 h0 a1 h1 a2 h2 hc x0 x1).1)

/-- A later point's one store tiles the 1 x 1 block, so it covers it. -/
theorem fcoverLater (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : ¬featFirst i)
    (x0 x1 : Vec F S1x4096x256 .f32) (xo : Vec F S1x1 .f32) (y : S1x1.Idx) :
    ∃ pc ∈ (featRunLater c i a0 h0 a1 h1 a2 h2 hc x0 x1 xo).1, y ∈ pc.1.set :=
  View.cover_of_tiledL (featRunLater c i a0 h0 a1 h1 a2 h2 hc x0 x1 xo).1 S1x1.size (by sl_kernel_rfl) y

/-- What a later point leaves in the output's staging buffer, over the running contents `xo`. -/
def foutLater (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : ¬featFirst i)
    (x0 x1 : Vec F S1x4096x256 .f32) (xo : Vec F S1x1 .f32) : Vec F S1x1 .f32 :=
  featOutView.read (Elt F) (featOutView.writes (Elt F) featOutView.junk (featRunLater c i a0 h0 a1 h1 a2 h2 hc x0 x1 xo).1)

section
variable (V : (c : Dev nD) → (b : Ref sig .tc) → Buf (Elt F) ((c : Thread nD τ).loc b))

/-! ## The accumulation over the points -/

/-- What the output's staging buffer holds after the body at position `n`: the first point's contents at
    `n = 0`, afterwards the later case over what position `n - 1` left (the buffer is not written back between). -/
def facc (c : Dev nD) : (n : ℕ) → n < cfg1.N → Vec F S1x1 .f32
  | 0, hn => foutFirst c (grid1.coords ⟨0, hn⟩) (fms0 ⟨0, hn⟩) (fhs0 ⟨0, hn⟩) (fms1 ⟨0, hn⟩) (fhs1 ⟨0, hn⟩) (fms2 ⟨0, hn⟩) (fhs2 ⟨0, hn⟩)
      ((featFirst_iff ⟨0, hn⟩).mpr (Nat.zero_mod _)) (fblk V c 0 ⟨0, hn⟩) (fblk V c 1 ⟨0, hn⟩)
  | n + 1, hn =>
    if h0 : (n + 1) % 96 = 0 then
      foutFirst c (grid1.coords ⟨n + 1, hn⟩) (fms0 ⟨n + 1, hn⟩) (fhs0 ⟨n + 1, hn⟩) (fms1 ⟨n + 1, hn⟩) (fhs1 ⟨n + 1, hn⟩) (fms2 ⟨n + 1, hn⟩) (fhs2 ⟨n + 1, hn⟩)
        ((featFirst_iff ⟨n + 1, hn⟩).mpr h0) (fblk V c 0 ⟨n + 1, hn⟩) (fblk V c 1 ⟨n + 1, hn⟩)
    else
      foutLater c (grid1.coords ⟨n + 1, hn⟩) (fms0 ⟨n + 1, hn⟩) (fhs0 ⟨n + 1, hn⟩) (fms1 ⟨n + 1, hn⟩) (fhs1 ⟨n + 1, hn⟩) (fms2 ⟨n + 1, hn⟩) (fhs2 ⟨n + 1, hn⟩)
        (fun h => h0 ((featFirst_iff ⟨n + 1, hn⟩).mp h)) (fblk V c 0 ⟨n + 1, hn⟩) (fblk V c 1 ⟨n + 1, hn⟩) (facc c n (Nat.lt_of_succ_lt hn))

/-- At the first point. -/
theorem facc_first (c : Dev nD) (t : Fin cfg1.N) (h0 : t.val % 96 = 0) :
    facc V c t.val t.isLt = foutFirst c (grid1.coords t) (fms0 t) (fhs0 t) (fms1 t) (fhs1 t) (fms2 t) (fhs2 t)
      ((featFirst_iff t).mpr h0) (fblk V c 0 t) (fblk V c 1 t) := by
  obtain ⟨n, hn⟩ := t
  cases n with
  | zero => exact rfl
  | succ n => exact (dif_pos h0).trans rfl

/-- At a later point: over what the point before left. -/
theorem facc_later (c : Dev nD) (t : Fin cfg1.N) (h0 : ¬t.val % 96 = 0) :
    facc V c t.val t.isLt = foutLater c (grid1.coords t) (fms0 t) (fhs0 t) (fms1 t) (fhs1 t) (fms2 t) (fhs2 t)
      (fun h => h0 ((featFirst_iff t).mp h)) (fblk V c 0 t) (fblk V c 1 t)
      (facc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and
    the output's at the accumulation; the invariant the scoped rest and the generator register;
    nothing owed; full shares. -/
def fdat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => facc V c t.val t.isLt
  Φ _ := Pipeline.ΦA spec1 c
  q _ := fullShare
  owed _ := 0

theorem fA_eq (c : Dev nD) (w : Fin cfg1.W) : (fdat V c).A w = V c (Pipeline.arrRef spec1 w) := by
  dsimp only [fdat]

theorem fafter0 (c : Dev nD) (t : Fin cfg1.N) : (fdat V c).after 0 t = fblk V c 0 t := by dsimp only [fdat]
theorem fafter1 (c : Dev nD) (t : Fin cfg1.N) : (fdat V c).after 1 t = fblk V c 1 t := by dsimp only [fdat]
theorem fafter2 (c : Dev nD) (t : Fin cfg1.N) : (fdat V c).after 2 t = facc V c t.val t.isLt := by dsimp only [fdat]

theorem fbefore0 (c : Dev nD) (t : Fin cfg1.N) (d) : (fdat V c).before 0 t d = fblk V c 0 t :=
  fbefore0_of V (fdat V c) (fA_eq V c 0) (fafter0 V c) t d
theorem fbefore1 (c : Dev nD) (t : Fin cfg1.N) (d) : (fdat V c).before 1 t d = fblk V c 1 t :=
  fbefore1_of V (fdat V c) (fA_eq V c 1) (fafter1 V c) t d
/-- At a later point the output's staging buffer holds what the body left at the point before: the buffer
    was not written back between, the window is live and uncut. -/
theorem fbefore2_later (c : Dev nD) (t : Fin cfg1.N) (h0 : ¬t.val % 96 = 0) (d) :
    (fdat V c).before 2 t d = facc V c (t.val - 1) (Nat.lt_of_le_of_lt (Nat.sub_le _ _) t.isLt) := by
  have hN : t.val < 96 := lt_of_lt_of_eq t.isLt (show cfg1.N = 96 from N_1)
  rw [Dat.before_out_kept _ 2 rfl t (by omega) (Bool.eq_false_iff.mpr fun h => by have := (flush1_2 _).mp h; dsimp only at this; omega)
    (fun _ => rfl) (fun _ _ => rfl)]
  dsimp only [fdat]

/-! ## The body obligation, at a generic point -/

def fbodyPre (c : Dev nD) (t : Fin cfg1.N) : sProp 𝕄 :=
  iprop((fdat V c).Φ t.castSucc ∗ (fdat V c).owesAt () t.castSucc
    ∗ (∃ d, owns (c : Thread nD τ) (st1_0 t) fullShare ((fdat V c).before 0 t d))
    ∗ (∃ d, owns (c : Thread nD τ) (st1_1 t) fullShare ((fdat V c).before 1 t d))
    ∗ (∃ d, owns (c : Thread nD τ) (st1_2 t) fullShare ((fdat V c).before 2 t d)))

def fbodyPost (c : Dev nD) (t : Fin cfg1.N) : sProp 𝕄 :=
  iprop((fdat V c).Φ t.succ ∗ (fdat V c).owesAt () t.succ
    ∗ owns (c : Thread nD τ) (st1_0 t) fullShare ((fdat V c).after 0 t)
    ∗ owns (c : Thread nD τ) (st1_1 t) fullShare ((fdat V c).after 1 t)
    ∗ owns (c : Thread nD τ) (st1_2 t) fullShare ((fdat V c).after 2 t))

set_option maxHeartbeats 1600000 in
/-- The body at any point: the inputs' memrefs hold their blocks; the closed form of the conditional says which
    case the point is in; at a later point the output's buffer holds what the point before left; so the
    case's run applies; the invariant passes through unread; the core owes nothing throughout. -/
theorem fsound_body (c : Dev nD) (t : Fin cfg1.N) :
    fbodyPre V c t ⊢ wp frame (wpE (defs₀ (F := F)) Variants.none c none) Set.univ (bodyAt1 t) (fun _ => fbodyPost V c t) := by
  unfold fbodyPre fbodyPost bodyAt1
  simp only [fbefore0, fbefore1]
  rw [show (fdat V c).Φ t.succ = (fdat V c).Φ t.castSucc from rfl,
    show (fdat V c).owesAt () t.succ = (fdat V c).owesAt () t.castSucc from rfl,
    fafter0, fafter1, fafter2]
  have hN : t.val < 96 := lt_of_lt_of_eq t.isLt (show cfg1.N = 96 from N_1)
  by_cases h0 : t.val % 96 = 0
  · rw [facc_first V c t h0]
    unfold foutFirst
    iintro ⟨HΦ, Ho, ⟨%d0, H0⟩, ⟨%d1, H1⟩, ⟨%d2, H2⟩⟩
    iapply ((featRunFirst c (grid1.coords t) _ _ _ _ _ _ ((featFirst_iff t).mpr h0) (fblk V c 0 t) (fblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (fcoverFirst c _ _ _ _ _ _ _ _ _ _)
  · rw [facc_later V c t h0]
    simp only [fbefore2_later V c t h0]
    unfold foutLater
    iintro ⟨HΦ, Ho, ⟨%d0, H0⟩, ⟨%d1, H1⟩, ⟨%d2, H2⟩⟩
    iapply ((featRunLater c (grid1.coords t) _ _ _ _ _ _ (fun h => h0 ((featFirst_iff t).mp h)) (fblk V c 0 t) (fblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (fcoverLater c _ _ _ _ _ _ _ _ _ _ _)

/-- The library's body obligation, at every point. -/
theorem fbody_obligation (c : Dev nD) : BodyObligation (fdat (F := F) V c) (defs₀ (F := F)) Variants.none () Set.univ := fun t => by
  rw [bigSep_W1, bigSep_W1]
  exact fsound_body V c t

end

end Cert.KernelIdeal.Run

end
-- ==== Proof.MainRun.lean ====
/-
  The whole program's run: the first region (the label sum), a stretch of host operations (the label mean;
  the three feature arrays of each side stacked into one 3 x 4096 x 256 array), the second region (the
  feature sum), and the closing host operations (the feature mean and the weighted sum of the two).
  The contents of every unscoped buffer at each of the five boundaries are named by a fold from the launch
  memory: a host stretch applies its operations, a region leaves its arrays at what its write-backs leave
  and every other buffer as it found it. Each region is entered with every unscoped buffer held at its
  boundary's contents and left the same way, so the run ends with every unscoped buffer at the last
  boundary's contents: the arguments as launched, the result at the closing operations' value.
-/
import proofs.«109064_j34256659153337_1_alg».proof.Proof.LabelRegion
import proofs.«109064_j34256659153337_1_alg».proof.Proof.FeatRegion
import proofs.«109064_j34256659153337_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev bnd0 : Dev nD → Valuation τ sig (Elt F) := fun c b => (s₀ m ρ).mem ((c : Dev nD), b)
/-- The same read at the TensorCore's references (what the first region's proof data take). -/
abbrev at0 : (c : Dev nD) → (b : Ref sig .tc) → Buf (Elt F) ((c : Thread nD τ).loc b) := fun c b => bnd0 m ρ c b
/-- After the first region: its arrays at what the pipeline leaves, every other buffer as entered. -/
def bnd1 (c : Dev nD) : Valuation τ sig (Elt F) :=
  Pipeline.withArrays spec0 c (bnd0 m ρ c) fun w => (ldat (at0 m ρ) c).arrAt w cfg0.N
theorem bnd1_arr (c : Dev nD) (w : Fin cfg0.W) :
    bnd1 m ρ c (Proc.devRef .tc (Pipeline.arrRef spec0 w)) = (ldat (at0 m ρ) c).arrAt w cfg0.N := by
  unfold bnd1; exact Pipeline.withArrays_arr spec0 launch0.win.arr_inj c _ _ w
theorem bnd1_of_ne (c : Dev nD) (b : Ref sig .tc) (hb : ∀ w, Pipeline.arrRef spec0 w ≠ b) :
    bnd1 m ρ c (Proc.devRef .tc b) = bnd0 m ρ c (Proc.devRef .tc b) := by
  unfold bnd1; exact Pipeline.withArrays_of_ne spec0 c _ _ b hb
abbrev at1 : (c : Dev nD) → (b : Ref sig .tc) → Buf (Elt F) ((c : Thread nD τ).loc b) := fun c b => bnd1 m ρ c b
theorem hF0 (c : Dev nD) (w : Fin cfg0.W) : (ldat (at0 m ρ) c).arrAt w cfg0.N = at1 m ρ c (Pipeline.arrRef spec0 w) :=
  (bnd1_arr m ρ c w).symm
theorem hrest0 (c : Dev nD) : ∀ b, b ∉ Finset.univ.image (Pipeline.arrRef spec0) → at1 m ρ c b = at0 m ρ c b :=
  fun b hb => bnd1_of_ne m ρ c b fun w e => hb (Finset.mem_image.mpr ⟨w, Finset.mem_univ _, e⟩)

/-- After the first host stretch (the second region's entry). -/
abbrev bnd2 : Dev nD → Valuation τ sig (Elt F) := fun c => StableHlo.after hostOps1 (bnd1 m ρ c)
abbrev at2 : (c : Dev nD) → (b : Ref sig .tc) → Buf (Elt F) ((c : Thread nD τ).loc b) := fun c b => bnd2 m ρ c b
/-- After the second region. -/
def bnd3 (c : Dev nD) : Valuation τ sig (Elt F) :=
  Pipeline.withArrays spec1 c (bnd2 m ρ c) fun w => (fdat (at2 m ρ) c).arrAt w cfg1.N
theorem bnd3_arr (c : Dev nD) (w : Fin cfg1.W) :
    bnd3 m ρ c (Proc.devRef .tc (Pipeline.arrRef spec1 w)) = (fdat (at2 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
abbrev at3 : (c : Dev nD) → (b : Ref sig .tc) → Buf (Elt F) ((c : Thread nD τ).loc b) := fun c b => bnd3 m ρ c b
theorem hF1 (c : Dev nD) (w : Fin cfg1.W) : (fdat (at2 m ρ) c).arrAt w cfg1.N = at3 m ρ c (Pipeline.arrRef spec1 w) :=
  (bnd3_arr m ρ c w).symm
theorem hrest1 (c : Dev nD) : ∀ b, b ∉ Finset.univ.image (Pipeline.arrRef spec1) → at3 m ρ c b = at2 m ρ c b :=
  fun b hb => bnd3_of_ne m ρ c b fun w e => hb (Finset.mem_image.mpr ⟨w, Finset.mem_univ _, e⟩)
/-- After the closing host stretch: the end. -/
abbrev bnd4 : Dev nD → Valuation τ sig (Elt F) := fun c => StableHlo.after hostOps2 (bnd3 m ρ c)

/-! ## The arguments end as launched -/

/-- `main_arg0` ends as launched: no host operation writes it and no region changes it. -/
theorem bnd4_main_arg0 (c : Dev nD) : bnd4 m ρ c (Proc.devRef .tc main_arg0) = m ((c : Thread nD τ).loc main_arg0) :=
  (StableHlo.after_of_writes_sub hostOps2 _ hostOps2_writes (r := main_arg0) (by decide)).trans <|
  (bnd3_of_ne m ρ c main_arg0 (by decide)).trans <|
  (StableHlo.after_of_writes_sub hostOps1 _ hostOps1_writes (r := main_arg0) (by decide)).trans <|
  ((bnd1_arr m ρ c 0).trans (((ldat (at0 m ρ) c).arrAt_in 0 rfl _).trans (lA_eq (at0 m ρ) c 0))).trans rfl
/-- `main_arg1` ends as launched: no host operation writes it and no region changes it. -/
theorem bnd4_main_arg1 (c : Dev nD) : bnd4 m ρ c (Proc.devRef .tc main_arg1) = m ((c : Thread nD τ).loc main_arg1) :=
  (StableHlo.after_of_writes_sub hostOps2 _ hostOps2_writes (r := main_arg1) (by decide)).trans <|
  (bnd3_of_ne m ρ c main_arg1 (by decide)).trans <|
  (StableHlo.after_of_writes_sub hostOps1 _ hostOps1_writes (r := main_arg1) (by decide)).trans <|
  ((bnd1_arr m ρ c 1).trans (((ldat (at0 m ρ) c).arrAt_in 1 rfl _).trans (lA_eq (at0 m ρ) c 1))).trans rfl
/-- `main_arg2` ends as launched: no host operation writes it and no region changes it. -/
theorem bnd4_main_arg2 (c : Dev nD) : bnd4 m ρ c (Proc.devRef .tc main_arg2) = m ((c : Thread nD τ).loc main_arg2) :=
  (StableHlo.after_of_writes_sub hostOps2 _ hostOps2_writes (r := main_arg2) (by decide)).trans <|
  (bnd3_of_ne m ρ c main_arg2 (by decide)).trans <|
  (StableHlo.after_of_writes_sub hostOps1 _ hostOps1_writes (r := main_arg2) (by decide)).trans <|
  (bnd1_of_ne m ρ c main_arg2 (by decide)).trans rfl
/-- `main_arg3` ends as launched: no host operation writes it and no region changes it. -/
theorem bnd4_main_arg3 (c : Dev nD) : bnd4 m ρ c (Proc.devRef .tc main_arg3) = m ((c : Thread nD τ).loc main_arg3) :=
  (StableHlo.after_of_writes_sub hostOps2 _ hostOps2_writes (r := main_arg3) (by decide)).trans <|
  (bnd3_of_ne m ρ c main_arg3 (by decide)).trans <|
  (StableHlo.after_of_writes_sub hostOps1 _ hostOps1_writes (r := main_arg3) (by decide)).trans <|
  (bnd1_of_ne m ρ c main_arg3 (by decide)).trans rfl
/-- `main_arg4` ends as launched: no host operation writes it and no region changes it. -/
theorem bnd4_main_arg4 (c : Dev nD) : bnd4 m ρ c (Proc.devRef .tc main_arg4) = m ((c : Thread nD τ).loc main_arg4) :=
  (StableHlo.after_of_writes_sub hostOps2 _ hostOps2_writes (r := main_arg4) (by decide)).trans <|
  (bnd3_of_ne m ρ c main_arg4 (by decide)).trans <|
  (StableHlo.after_of_writes_sub hostOps1 _ hostOps1_writes (r := main_arg4) (by decide)).trans <|
  (bnd1_of_ne m ρ c main_arg4 (by decide)).trans rfl
/-- `main_arg5` ends as launched: no host operation writes it and no region changes it. -/
theorem bnd4_main_arg5 (c : Dev nD) : bnd4 m ρ c (Proc.devRef .tc main_arg5) = m ((c : Thread nD τ).loc main_arg5) :=
  (StableHlo.after_of_writes_sub hostOps2 _ hostOps2_writes (r := main_arg5) (by decide)).trans <|
  (bnd3_of_ne m ρ c main_arg5 (by decide)).trans <|
  (StableHlo.after_of_writes_sub hostOps1 _ hostOps1_writes (r := main_arg5) (by decide)).trans <|
  (bnd1_of_ne m ρ c main_arg5 (by decide)).trans rfl
/-- `main_arg6` ends as launched: no host operation writes it and no region changes it. -/
theorem bnd4_main_arg6 (c : Dev nD) : bnd4 m ρ c (Proc.devRef .tc main_arg6) = m ((c : Thread nD τ).loc main_arg6) :=
  (StableHlo.after_of_writes_sub hostOps2 _ hostOps2_writes (r := main_arg6) (by decide)).trans <|
  (bnd3_of_ne m ρ c main_arg6 (by decide)).trans <|
  (StableHlo.after_of_writes_sub hostOps1 _ hostOps1_writes (r := main_arg6) (by decide)).trans <|
  (bnd1_of_ne m ρ c main_arg6 (by decide)).trans rfl
/-- `main_arg7` ends as launched: no host operation writes it and no region changes it. -/
theorem bnd4_main_arg7 (c : Dev nD) : bnd4 m ρ c (Proc.devRef .tc main_arg7) = m ((c : Thread nD τ).loc main_arg7) :=
  (StableHlo.after_of_writes_sub hostOps2 _ hostOps2_writes (r := main_arg7) (by decide)).trans <|
  (bnd3_of_ne m ρ c main_arg7 (by decide)).trans <|
  (StableHlo.after_of_writes_sub hostOps1 _ hostOps1_writes (r := main_arg7) (by decide)).trans <|
  (bnd1_of_ne m ρ c main_arg7 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => ldat (at0 m ρ) c
  | ⟨1, _⟩ => fun c => fdat (at2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (bnd4 m ρ c) ∗ ∃ r, prngReg c r)

/-! ## The regions as segments -/

-- a library lemma stated over the pinned configuration unifies with the printed one only when unification may unfold
-- plain definitions in a metavariable's type
set_option backward.isDefEq.respectTransparency.types false in
/-- The first region: entered from every unscoped buffer at the launch contents, left at `bnd1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (lbody_obligation (at0 m ρ) c).loose
  hwaits := Pipeline.hwaits_of_owed_zero _ _ _ _ L lv 0 fun _ _ => rfl
  pre c := iprop(StableHlo.held (c : Thread nD τ) (Pipeline.ucRefs τ sig) (bnd0 m ρ c) ∗ R c)
  post c := iprop(StableHlo.held (c : Thread nD τ) (Pipeline.ucRefs τ sig) (bnd1 m ρ c) ∗ R c)
  X c := iprop(∃ r, prngReg c r)
  Y c := iprop(∃ r, prngReg c r)
  Z c := Pipeline.unscopedRest (Ix := Unit) (Name := ℕ) (U := UR sig nD τ) (Lvl := ℕ) spec0 c (at0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (at0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (at0 m ρ c) (at1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second region: entered from every unscoped buffer at `bnd2`, left at `bnd3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (fbody_obligation (at2 m ρ) c).loose
  hwaits := Pipeline.hwaits_of_owed_zero _ _ _ _ L lv 1 fun _ _ => rfl
  pre c := iprop(StableHlo.held (c : Thread nD τ) (Pipeline.ucRefs τ sig) (bnd2 m ρ c) ∗ R c)
  post c := iprop(StableHlo.held (c : Thread nD τ) (Pipeline.ucRefs τ sig) (bnd3 m ρ c) ∗ R c)
  X c := iprop(∃ r, prngReg c r)
  Y c := iprop(∃ r, prngReg c r)
  Z c := Pipeline.unscopedRest (Ix := Unit) (Name := ℕ) (U := UR sig nD τ) (Lvl := ℕ) spec1 c (at2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (at2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (at2 m ρ c) (at3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m ρ) () defs₀ 𝒱₀ L lv) :=
  [ .region (reg0 m ρ),
    .host (hseg hostOps1 hostOps1_sub hostOps1_fresh (bnd1 m ρ)),
    .region (reg1 m ρ),
    .host (hseg hostOps2 hostOps2_sub hostOps2_fresh (bnd3 m ρ)) ]
theorem main_run (c : Dev nD) : main (F := F) c = Pipeline.Seg.run (mainSegs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (bnd4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun _ h => h)

/-- The frame: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c),
     (h c _ (mem_uc main_arg7 (by decide))).trans (bnd4_main_arg7 m ρ c)⟩) (run_all m ρ)

end Cert.KernelIdeal.Run

end
-- ==== Proof.Bits.LabelRun.lean ====
/-
  The label kernel (the first pallas_call: the sum of squared differences of two 4096 x 1000 arrays,
  taken 512 rows at a grid point and accumulated in a 1 x 1 output block that stays resident over the
  eight points) run on whole staging buffers, once for each way its one conditional can go.
  At the first point the body stores a zero into the output block and then adds the block's sum to
  what it reads back; at every later point it adds the block's sum to what the point before left.
  Each run states what the output buffer is left holding as the list of pieces the stores wrote.
-/
import proofs.«109064_j34256659153337_1_alg».proof.Proof.Gen.Kernel.Launch
import proofs.«109064_j34256659153337_1_alg».proof.Proof.Gen.Kernel.Skeleton
import proofs.«109064_j34256659153337_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional, as a proposition about the grid coordinates: "this is row block 0". -/
abbrev labelFirst (i : grid0.Coords) : Prop :=
  (Scalar.cmpi .ne (Scalar.extui (Scalar.cmpi .eq (BitVec.ofNat 32 (i 0).val) 0#32)) 0#32) = 1#1

/-- Over the eight points it holds exactly at the first. -/
theorem labelFirst_iff : ∀ t : Fin cfg0.N, labelFirst (grid0.coords t) ↔ t.val % 8 = 0 :=
  (by decide +kernel : ∀ t : Fin grid0.N, labelFirst (grid0.coords t) ↔ t.val % 8 = 0)

/-- One staging buffer of the output window, through which its contents are stated. -/
abbrev labelOutView : View sig .tc .vmem S1x1 .f32 := (Memref.whole cc0_stg2_0 : Memref sig .tc .vmem S1x1 .f32).view

/-- The windows' current staging memrefs at a point, as the pipeline passes them, and their wholeness. -/
abbrev lms0 (t : Fin cfg0.N) : Memref sig .tc .vmem S512x1000 .f32 := win0_0.stage (cfg0.slots t 0)
abbrev lhs0 (t : Fin cfg0.N) : (lms0 t).IsWhole := hstage0_0 ((cfg0.slots t 0).cast nbuf0_0)
abbrev lms1 (t : Fin cfg0.N) : Memref sig .tc .vmem S512x1000 .f32 := win0_1.stage (cfg0.slots t 1)
abbrev lhs1 (t : Fin cfg0.N) : (lms1 t).IsWhole := hstage0_1 ((cfg0.slots t 1).cast nbuf0_1)
abbrev lms2 (t : Fin cfg0.N) : Memref sig .tc .vmem S1x1 .f32 := win0_2.stage (cfg0.slots t 2)
abbrev lhs2 (t : Fin cfg0.N) : (lms2 t).IsWhole := hstage0_2 ((cfg0.slots t 2).cast nbuf0_2)

set_option maxHeartbeats 1000000 in
/-- The first point: the output buffer may hold anything; the body zeroes it and adds the block's sum. -/
noncomputable def labelRunFirst (c : Dev nD) (i : grid0.Coords)
    (arg1 : Memref sig .tc .vmem S512x1000 .f32) (harg1 : arg1.IsWhole)
    (arg2 : Memref sig .tc .vmem S512x1000 .f32) (harg2 : arg2.IsWhole)
    (arg3 : Memref sig .tc .vmem S1x1 .f32) (harg3 : arg3.IsWhole) (hc0 : labelFirst i)
    (x0 : Vec F S512x1000 .f32) (x1 : Vec F S512x1000 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__label_kernel i arg1 harg1 arg2 harg2 arg3 harg3) K } := by
  refine ⟨?_, fun E K => ?run⟩
  case run =>
    simp only [cc0__label_kernel_eq_skeleton]; unfold cc0__label_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A later point: the output buffer holds the running sum `xo`; the body adds the block's sum to it. -/
noncomputable def labelRunLater (c : Dev nD) (i : grid0.Coords)
    (arg1 : Memref sig .tc .vmem S512x1000 .f32) (harg1 : arg1.IsWhole)
    (arg2 : Memref sig .tc .vmem S512x1000 .f32) (harg2 : arg2.IsWhole)
    (arg3 : Memref sig .tc .vmem S1x1 .f32) (harg3 : arg3.IsWhole) (hc0 : ¬labelFirst i)
    (x0 : Vec F S512x1000 .f32) (x1 : Vec F S512x1000 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__label_kernel i arg1 harg1 arg2 harg2 arg3 harg3) K } := by
  refine ⟨?_, fun E K => ?run⟩
  case run =>
    simp only [cc0__label_kernel_eq_skeleton]; unfold cc0__label_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Run

end
-- ==== Proof.Bits.LabelRegion.lean ====
/-
  The label kernel as one region of the program: at any contents `V` the region may be entered from,
  the proof data of its pipeline. The two input windows hold their 512-row blocks at every point; the
  1 x 1 output block is resident over the eight points, so what its staging buffer holds after point
  `n` is defined by recursion on `n` from the two cases' runs; and the body meets its obligation at
  every point by a case split on "is this the first point".
-/
import proofs.«109064_j34256659153337_1_alg».proof.Proof.Bits.LabelRun
import Idealize.ShloMosaic.Lib.Pipeline.Frame

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def lblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not
    (unfetched, the block index has not moved), for any proof data whose array is `V`'s and whose
    body leaves the block in place. -/
theorem lbefore0_of {c : Dev nD} (dat : Dat τ (Elt F) Unit ℕ (UR sig nD τ) ℕ cfg0 c) (hA : dat.A 0 = V c (Pipeline.arrRef spec0 0))
    (hafter : ∀ t, dat.after 0 t = lblk V c 0 t) (t : Fin cfg0.N) (d) : dat.before 0 t d = lblk V c 0 t :=
  (dat.before_in_eq_fetched 0 rfl (fun _ => rfl) (fun _ _ _ => rfl) (fun t => by rw [hafter]; unfold Dat.blockOf lblk; rw [hA]; try rfl) t d).trans
    (by unfold Dat.fetched Dat.blockOf lblk; rw [hA]; try rfl)
theorem lbefore1_of {c : Dev nD} (dat : Dat τ (Elt F) Unit ℕ (UR sig nD τ) ℕ cfg0 c) (hA : dat.A 1 = V c (Pipeline.arrRef spec0 1))
    (hafter : ∀ t, dat.after 1 t = lblk V c 1 t) (t : Fin cfg0.N) (d) : dat.before 1 t d = lblk V c 1 t :=
  (dat.before_in_eq_fetched 1 rfl (fun _ => rfl) (fun _ _ _ => rfl) (fun t => by rw [hafter]; unfold Dat.blockOf lblk; rw [hA]; try rfl) t d).trans
    (by unfold Dat.fetched Dat.blockOf lblk; rw [hA]; try rfl)
end

/-! ## What each case leaves in the output's staging buffer -/

/-- The first point's stores (the zero, then the sum) tile the 1 x 1 block, so they cover it. -/
theorem lcoverFirst (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : labelFirst i)
    (x0 x1 : Vec F S512x1000 .f32) (y : S1x1.Idx) :
    ∃ pc ∈ (labelRunFirst c i a0 h0 a1 h1 a2 h2 hc x0 x1).1, y ∈ pc.1.set :=
  View.cover_of_tiledL (labelRunFirst c i a0 h0 a1 h1 a2 h2 hc x0 x1).1 S1x1.size (by sl_kernel_rfl) y

/-- What the first point leaves in the output's staging buffer: its pieces read back. -/
def loutFirst (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : labelFirst i)
    (x0 x1 : Vec F S512x1000 .f32) : Vec F S1x1 .f32 :=
  labelOutView.read (Elt F) (labelOutView.writes (Elt F) labelOutView.junk (labelRunFirst c i a0 h0 a1 h1 a2 h2 hc x0 x1).1)

/-- A later point's one store tiles the 1 x 1 block, so it covers it. -/
theorem lcoverLater (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : ¬labelFirst i)
    (x0 x1 : Vec F S512x1000 .f32) (xo : Vec F S1x1 .f32) (y : S1x1.Idx) :
    ∃ pc ∈ (labelRunLater c i a0 h0 a1 h1 a2 h2 hc x0 x1 xo).1, y ∈ pc.1.set :=
  View.cover_of_tiledL (labelRunLater c i a0 h0 a1 h1 a2 h2 hc x0 x1 xo).1 S1x1.size (by sl_kernel_rfl) y

/-- What a later point leaves in the output's staging buffer, over the running contents `xo`. -/
def loutLater (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : ¬labelFirst i)
    (x0 x1 : Vec F S512x1000 .f32) (xo : Vec F S1x1 .f32) : Vec F S1x1 .f32 :=
  labelOutView.read (Elt F) (labelOutView.writes (Elt F) labelOutView.junk (labelRunLater c i a0 h0 a1 h1 a2 h2 hc x0 x1 xo).1)

section
variable (V : (c : Dev nD) → (b : Ref sig .tc) → Buf (Elt F) ((c : Thread nD τ).loc b))

/-! ## The accumulation over the points -/

/-- What the output's staging buffer holds after the body at position `n`: the first point's contents at
    `n = 0`, afterwards the later case over what position `n - 1` left (the buffer is not written back between). -/
def lacc (c : Dev nD) : (n : ℕ) → n < cfg0.N → Vec F S1x1 .f32
  | 0, hn => loutFirst c (grid0.coords ⟨0, hn⟩) (lms0 ⟨0, hn⟩) (lhs0 ⟨0, hn⟩) (lms1 ⟨0, hn⟩) (lhs1 ⟨0, hn⟩) (lms2 ⟨0, hn⟩) (lhs2 ⟨0, hn⟩)
      ((labelFirst_iff ⟨0, hn⟩).mpr (Nat.zero_mod _)) (lblk V c 0 ⟨0, hn⟩) (lblk V c 1 ⟨0, hn⟩)
  | n + 1, hn =>
    if h0 : (n + 1) % 8 = 0 then
      loutFirst c (grid0.coords ⟨n + 1, hn⟩) (lms0 ⟨n + 1, hn⟩) (lhs0 ⟨n + 1, hn⟩) (lms1 ⟨n + 1, hn⟩) (lhs1 ⟨n + 1, hn⟩) (lms2 ⟨n + 1, hn⟩) (lhs2 ⟨n + 1, hn⟩)
        ((labelFirst_iff ⟨n + 1, hn⟩).mpr h0) (lblk V c 0 ⟨n + 1, hn⟩) (lblk V c 1 ⟨n + 1, hn⟩)
    else
      loutLater c (grid0.coords ⟨n + 1, hn⟩) (lms0 ⟨n + 1, hn⟩) (lhs0 ⟨n + 1, hn⟩) (lms1 ⟨n + 1, hn⟩) (lhs1 ⟨n + 1, hn⟩) (lms2 ⟨n + 1, hn⟩) (lhs2 ⟨n + 1, hn⟩)
        (fun h => h0 ((labelFirst_iff ⟨n + 1, hn⟩).mp h)) (lblk V c 0 ⟨n + 1, hn⟩) (lblk V c 1 ⟨n + 1, hn⟩) (lacc c n (Nat.lt_of_succ_lt hn))

/-- At the first point. -/
theorem lacc_first (c : Dev nD) (t : Fin cfg0.N) (h0 : t.val % 8 = 0) :
    lacc V c t.val t.isLt = loutFirst c (grid0.coords t) (lms0 t) (lhs0 t) (lms1 t) (lhs1 t) (lms2 t) (lhs2 t)
      ((labelFirst_iff t).mpr h0) (lblk V c 0 t) (lblk V c 1 t) := by
  obtain ⟨n, hn⟩ := t
  cases n with
  | zero => exact rfl
  | succ n => exact (dif_pos h0).trans rfl

/-- At a later point: over what the point before left. -/
theorem lacc_later (c : Dev nD) (t : Fin cfg0.N) (h0 : ¬t.val % 8 = 0) :
    lacc V c t.val t.isLt = loutLater c (grid0.coords t) (lms0 t) (lhs0 t) (lms1 t) (lhs1 t) (lms2 t) (lhs2 t)
      (fun h => h0 ((labelFirst_iff t).mp h)) (lblk V c 0 t) (lblk V c 1 t)
      (lacc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and
    the output's at the accumulation; the invariant the scoped rest and the generator register;
    nothing owed; full shares. -/
def ldat (c : Dev nD) : Dat τ (Elt F) Unit ℕ (UR sig nD τ) ℕ cfg0 c where
  A w := V c (Pipeline.arrRef spec0 w)
  after w t := match w with
    | ⟨0, _⟩ => lblk V c 0 t
    | ⟨1, _⟩ => lblk V c 1 t
    | ⟨2, _⟩ => lacc V c t.val t.isLt
  Φ _ := Pipeline.ΦA spec0 c
  q _ := fullShare
  owed _ := 0

theorem lA_eq (c : Dev nD) (w : Fin cfg0.W) : (ldat V c).A w = V c (Pipeline.arrRef spec0 w) := by
  dsimp only [ldat]

theorem lafter0 (c : Dev nD) (t : Fin cfg0.N) : (ldat V c).after 0 t = lblk V c 0 t := by dsimp only [ldat]
theorem lafter1 (c : Dev nD) (t : Fin cfg0.N) : (ldat V c).after 1 t = lblk V c 1 t := by dsimp only [ldat]
theorem lafter2 (c : Dev nD) (t : Fin cfg0.N) : (ldat V c).after 2 t = lacc V c t.val t.isLt := by dsimp only [ldat]

theorem lbefore0 (c : Dev nD) (t : Fin cfg0.N) (d) : (ldat V c).before 0 t d = lblk V c 0 t :=
  lbefore0_of V (ldat V c) (lA_eq V c 0) (lafter0 V c) t d
theorem lbefore1 (c : Dev nD) (t : Fin cfg0.N) (d) : (ldat V c).before 1 t d = lblk V c 1 t :=
  lbefore1_of V (ldat V c) (lA_eq V c 1) (lafter1 V c) t d
/-- At a later point the output's staging buffer holds what the body left at the point before: the buffer
    was not written back between, the window is live and uncut. -/
theorem lbefore2_later (c : Dev nD) (t : Fin cfg0.N) (h0 : ¬t.val % 8 = 0) (d) :
    (ldat V c).before 2 t d = lacc V c (t.val - 1) (Nat.lt_of_le_of_lt (Nat.sub_le _ _) t.isLt) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [ldat]

/-! ## The body obligation, at a generic point -/

def lbodyPre (c : Dev nD) (t : Fin cfg0.N) : sProp 𝕄 :=
  iprop((ldat V c).Φ t.castSucc ∗ (ldat V c).owesAt () t.castSucc
    ∗ (∃ d, owns (c : Thread nD τ) (st0_0 t) fullShare ((ldat V c).before 0 t d))
    ∗ (∃ d, owns (c : Thread nD τ) (st0_1 t) fullShare ((ldat V c).before 1 t d))
    ∗ (∃ d, owns (c : Thread nD τ) (st0_2 t) fullShare ((ldat V c).before 2 t d)))

def lbodyPost (c : Dev nD) (t : Fin cfg0.N) : sProp 𝕄 :=
  iprop((ldat V c).Φ t.succ ∗ (ldat V c).owesAt () t.succ
    ∗ owns (c : Thread nD τ) (st0_0 t) fullShare ((ldat V c).after 0 t)
    ∗ owns (c : Thread nD τ) (st0_1 t) fullShare ((ldat V c).after 1 t)
    ∗ owns (c : Thread nD τ) (st0_2 t) fullShare ((ldat V c).after 2 t))

set_option maxHeartbeats 1600000 in
/-- The body at any point: the inputs' memrefs hold their blocks; the closed form of the conditional says which
    case the point is in; at a later point the output's buffer holds what the point before left; so the
    case's run applies; the invariant passes through unread; the core owes nothing throughout. -/
theorem lsound_body (c : Dev nD) (t : Fin cfg0.N) :
    lbodyPre V c t ⊢ wp frame (wpE (defs₀ (F := F)) Variants.none c none) Set.univ (bodyAt0 t) (fun _ => lbodyPost V c t) := by
  unfold lbodyPre lbodyPost bodyAt0
  simp only [lbefore0, lbefore1]
  rw [show (ldat V c).Φ t.succ = (ldat V c).Φ t.castSucc from rfl,
    show (ldat V c).owesAt () t.succ = (ldat V c).owesAt () t.castSucc from rfl,
    lafter0, lafter1, lafter2]
  have hN : t.val < 8 := lt_of_lt_of_eq t.isLt (show cfg0.N = 8 from N_0)
  by_cases h0 : t.val % 8 = 0
  · rw [lacc_first V c t h0]
    unfold loutFirst
    iintro ⟨HΦ, Ho, ⟨%d0, H0⟩, ⟨%d1, H1⟩, ⟨%d2, H2⟩⟩
    iapply ((labelRunFirst c (grid0.coords t) _ _ _ _ _ _ ((labelFirst_iff t).mpr h0) (lblk V c 0 t) (lblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (lcoverFirst c _ _ _ _ _ _ _ _ _ _)
  · rw [lacc_later V c t h0]
    simp only [lbefore2_later V c t h0]
    unfold loutLater
    iintro ⟨HΦ, Ho, ⟨%d0, H0⟩, ⟨%d1, H1⟩, ⟨%d2, H2⟩⟩
    iapply ((labelRunLater c (grid0.coords t) _ _ _ _ _ _ (fun h => h0 ((labelFirst_iff t).mp h)) (lblk V c 0 t) (lblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (lcoverLater c _ _ _ _ _ _ _ _ _ _ _)

/-- The library's body obligation, at every point. -/
theorem lbody_obligation (c : Dev nD) : BodyObligation (ldat (F := F) V c) (defs₀ (F := F)) Variants.none () Set.univ := fun t => by
  rw [bigSep_W0, bigSep_W0]
  exact lsound_body V c t

end

end Cert.Kernel.Run

end
-- ==== Proof.Bits.FeatRun.lean ====
/-
  The feature kernel (the second pallas_call: for each of three feature pairs, the sum over all
  4096 x 4096 index pairs of the squared difference of the two pairwise-distance matrices, taken
  128 rows at a grid point and accumulated in a 1 x 1 output block that stays resident over the
  3 x 32 points) run on whole staging buffers, once for each way its one conditional can go.
  At the very first point the body stores a zero into the output block and then adds the block's
  sum to what it reads back; at every later point it adds to what the point before left.
  Each run states what the output buffer is left holding as the list of pieces the stores wrote.
-/
import proofs.«109064_j34256659153337_1_alg».proof.Proof.Gen.Kernel.Launch
import proofs.«109064_j34256659153337_1_alg».proof.Proof.Gen.Kernel.Skeleton
import proofs.«109064_j34256659153337_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional, as a proposition about the grid coordinates: "feature 0 and row block 0". -/
abbrev featFirst (i : grid1.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- Over the 96 points it holds exactly at the first. -/
theorem featFirst_iff : ∀ t : Fin cfg1.N, featFirst (grid1.coords t) ↔ t.val % 96 = 0 :=
  (by decide +kernel : ∀ t : Fin grid1.N, featFirst (grid1.coords t) ↔ t.val % 96 = 0)

/-- One staging buffer of the output window, through which its contents are stated. -/
abbrev featOutView : View sig .tc .vmem S1x1 .f32 := (Memref.whole cc1_stg2_0 : Memref sig .tc .vmem S1x1 .f32).view

/-- The windows' current staging memrefs at a point, as the pipeline passes them, and their wholeness. -/
abbrev fms0 (t : Fin cfg1.N) : Memref sig .tc .vmem S1x4096x256 .f32 := win1_0.stage (cfg1.slots t 0)
abbrev fhs0 (t : Fin cfg1.N) : (fms0 t).IsWhole := hstage1_0 ((cfg1.slots t 0).cast nbuf1_0)
abbrev fms1 (t : Fin cfg1.N) : Memref sig .tc .vmem S1x4096x256 .f32 := win1_1.stage (cfg1.slots t 1)
abbrev fhs1 (t : Fin cfg1.N) : (fms1 t).IsWhole := hstage1_1 ((cfg1.slots t 1).cast nbuf1_1)
abbrev fms2 (t : Fin cfg1.N) : Memref sig .tc .vmem S1x1 .f32 := win1_2.stage (cfg1.slots t 2)
abbrev fhs2 (t : Fin cfg1.N) : (fms2 t).IsWhole := hstage1_2 ((cfg1.slots t 2).cast nbuf1_2)

set_option maxHeartbeats 2000000 in
/-- The first point: the output buffer may hold anything; the body zeroes it and adds the block's sum. -/
noncomputable def featRunFirst (c : Dev nD) (i : grid1.Coords)
    (arg2 : Memref sig .tc .vmem S1x4096x256 .f32) (harg2 : arg2.IsWhole)
    (arg3 : Memref sig .tc .vmem S1x4096x256 .f32) (harg3 : arg3.IsWhole)
    (arg4 : Memref sig .tc .vmem S1x1 .f32) (harg4 : arg4.IsWhole) (hc0 : featFirst i)
    (x0 : Vec F S1x4096x256 .f32) (x1 : Vec F S1x4096x256 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__feat_kernel i arg2 harg2 arg3 harg3 arg4 harg4) K } := by
  refine ⟨?_, fun E K => ?run⟩
  case run =>
    simp only [cc1__feat_kernel_eq_skeleton]; unfold cc1__feat_kernel_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 2000000 in
/-- A later point: the output buffer holds the running sum `xo`; the body adds the block's sum to it. -/
noncomputable def featRunLater (c : Dev nD) (i : grid1.Coords)
    (arg2 : Memref sig .tc .vmem S1x4096x256 .f32) (harg2 : arg2.IsWhole)
    (arg3 : Memref sig .tc .vmem S1x4096x256 .f32) (harg3 : arg3.IsWhole)
    (arg4 : Memref sig .tc .vmem S1x1 .f32) (harg4 : arg4.IsWhole) (hc0 : ¬featFirst i)
    (x0 : Vec F S1x4096x256 .f32) (x1 : Vec F S1x4096x256 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__feat_kernel i arg2 harg2 arg3 harg3 arg4 harg4) K } := by
  refine ⟨?_, fun E K => ?run⟩
  case run =>
    simp only [cc1__feat_kernel_eq_skeleton]; unfold cc1__feat_kernel_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Run

end
-- ==== Proof.Bits.FeatRegion.lean ====
/- The feature kernel as one region of the program: at any contents the region may be entered from, the proof data of its
   pipeline. The two input windows hold one feature's whole 4096 x 256 array at every point (fetched when the feature
   changes); the 1 x 1 output block is resident over the 3 x 32 points, so what its staging buffer holds after point n is
   defined by recursion on n from the two cases' runs; the body meets its obligation at every point by a case split on
   whether this is the first point. -/
import proofs.«109064_j34256659153337_1_alg».proof.Proof.Bits.FeatRun
import Idealize.ShloMosaic.Lib.Pipeline.Frame

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def fblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not
    (unfetched, the block index has not moved), for any proof data whose array is `V`'s and whose
    body leaves the block in place. -/
theorem fbefore0_of {c : Dev nD} (dat : Dat τ (Elt F) Unit ℕ (UR sig nD τ) ℕ cfg1 c) (hA : dat.A 0 = V c (Pipeline.arrRef spec1 0))
    (hafter : ∀ t, dat.after 0 t = fblk V c 0 t) (t : Fin cfg1.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)
theorem fbefore1_of {c : Dev nD} (dat : Dat τ (Elt F) Unit ℕ (UR sig nD τ) ℕ cfg1 c) (hA : dat.A 1 = V c (Pipeline.arrRef spec1 1))
    (hafter : ∀ t, dat.after 1 t = fblk V c 1 t) (t : Fin cfg1.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)
end

/-! ## What each case leaves in the output's staging buffer -/

/-- The first point's stores (the zero, then the sum) tile the 1 x 1 block, so they cover it. -/
theorem fcoverFirst (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : featFirst i)
    (x0 x1 : Vec F S1x4096x256 .f32) (y : S1x1.Idx) :
    ∃ pc ∈ (featRunFirst c i a0 h0 a1 h1 a2 h2 hc x0 x1).1, y ∈ pc.1.set :=
  View.cover_of_tiledL (featRunFirst c i a0 h0 a1 h1 a2 h2 hc x0 x1).1 S1x1.size (by sl_kernel_rfl) y

/-- What the first point leaves in the output's staging buffer: its pieces read back. -/
def foutFirst (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : featFirst i)
    (x0 x1 : Vec F S1x4096x256 .f32) : Vec F S1x1 .f32 :=
  featOutView.read (Elt F) (featOutView.writes (Elt F) featOutView.junk (featRunFirst c i a0 h0 a1 h1 a2 h2 hc x0 x1).1)

/-- A later point's one store tiles the 1 x 1 block, so it covers it. -/
theorem fcoverLater (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : ¬featFirst i)
    (x0 x1 : Vec F S1x4096x256 .f32) (xo : Vec F S1x1 .f32) (y : S1x1.Idx) :
    ∃ pc ∈ (featRunLater c i a0 h0 a1 h1 a2 h2 hc x0 x1 xo).1, y ∈ pc.1.set :=
  View.cover_of_tiledL (featRunLater c i a0 h0 a1 h1 a2 h2 hc x0 x1 xo).1 S1x1.size (by sl_kernel_rfl) y

/-- What a later point leaves in the output's staging buffer, over the running contents `xo`. -/
def foutLater (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : ¬featFirst i)
    (x0 x1 : Vec F S1x4096x256 .f32) (xo : Vec F S1x1 .f32) : Vec F S1x1 .f32 :=
  featOutView.read (Elt F) (featOutView.writes (Elt F) featOutView.junk (featRunLater c i a0 h0 a1 h1 a2 h2 hc x0 x1 xo).1)

section
variable (V : (c : Dev nD) → (b : Ref sig .tc) → Buf (Elt F) ((c : Thread nD τ).loc b))

/-! ## The accumulation over the points -/

/-- What the output's staging buffer holds after the body at position `n`: the first point's contents at
    `n = 0`, afterwards the later case over what position `n - 1` left (the buffer is not written back between). -/
def facc (c : Dev nD) : (n : ℕ) → n < cfg1.N → Vec F S1x1 .f32
  | 0, hn => foutFirst c (grid1.coords ⟨0, hn⟩) (fms0 ⟨0, hn⟩) (fhs0 ⟨0, hn⟩) (fms1 ⟨0, hn⟩) (fhs1 ⟨0, hn⟩) (fms2 ⟨0, hn⟩) (fhs2 ⟨0, hn⟩)
      ((featFirst_iff ⟨0, hn⟩).mpr (Nat.zero_mod _)) (fblk V c 0 ⟨0, hn⟩) (fblk V c 1 ⟨0, hn⟩)
  | n + 1, hn =>
    if h0 : (n + 1) % 96 = 0 then
      foutFirst c (grid1.coords ⟨n + 1, hn⟩) (fms0 ⟨n + 1, hn⟩) (fhs0 ⟨n + 1, hn⟩) (fms1 ⟨n + 1, hn⟩) (fhs1 ⟨n + 1, hn⟩) (fms2 ⟨n + 1, hn⟩) (fhs2 ⟨n + 1, hn⟩)
        ((featFirst_iff ⟨n + 1, hn⟩).mpr h0) (fblk V c 0 ⟨n + 1, hn⟩) (fblk V c 1 ⟨n + 1, hn⟩)
    else
      foutLater c (grid1.coords ⟨n + 1, hn⟩) (fms0 ⟨n + 1, hn⟩) (fhs0 ⟨n + 1, hn⟩) (fms1 ⟨n + 1, hn⟩) (fhs1 ⟨n + 1, hn⟩) (fms2 ⟨n + 1, hn⟩) (fhs2 ⟨n + 1, hn⟩)
        (fun h => h0 ((featFirst_iff ⟨n + 1, hn⟩).mp h)) (fblk V c 0 ⟨n + 1, hn⟩) (fblk V c 1 ⟨n + 1, hn⟩) (facc c n (Nat.lt_of_succ_lt hn))

/-- At the first point. -/
theorem facc_first (c : Dev nD) (t : Fin cfg1.N) (h0 : t.val % 96 = 0) :
    facc V c t.val t.isLt = foutFirst c (grid1.coords t) (fms0 t) (fhs0 t) (fms1 t) (fhs1 t) (fms2 t) (fhs2 t)
      ((featFirst_iff t).mpr h0) (fblk V c 0 t) (fblk V c 1 t) := by
  obtain ⟨n, hn⟩ := t
  cases n with
  | zero => exact rfl
  | succ n => exact (dif_pos h0).trans rfl

/-- At a later point: over what the point before left. -/
theorem facc_later (c : Dev nD) (t : Fin cfg1.N) (h0 : ¬t.val % 96 = 0) :
    facc V c t.val t.isLt = foutLater c (grid1.coords t) (fms0 t) (fhs0 t) (fms1 t) (fhs1 t) (fms2 t) (fhs2 t)
      (fun h => h0 ((featFirst_iff t).mp h)) (fblk V c 0 t) (fblk V c 1 t)
      (facc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and
    the output's at the accumulation; the invariant the scoped rest and the generator register;
    nothing owed; full shares. -/
def fdat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => facc V c t.val t.isLt
  Φ _ := Pipeline.ΦA spec1 c
  q _ := fullShare
  owed _ := 0

theorem fA_eq (c : Dev nD) (w : Fin cfg1.W) : (fdat V c).A w = V c (Pipeline.arrRef spec1 w) := by
  dsimp only [fdat]

theorem fafter0 (c : Dev nD) (t : Fin cfg1.N) : (fdat V c).after 0 t = fblk V c 0 t := by dsimp only [fdat]
theorem fafter1 (c : Dev nD) (t : Fin cfg1.N) : (fdat V c).after 1 t = fblk V c 1 t := by dsimp only [fdat]
theorem fafter2 (c : Dev nD) (t : Fin cfg1.N) : (fdat V c).after 2 t = facc V c t.val t.isLt := by dsimp only [fdat]

theorem fbefore0 (c : Dev nD) (t : Fin cfg1.N) (d) : (fdat V c).before 0 t d = fblk V c 0 t :=
  fbefore0_of V (fdat V c) (fA_eq V c 0) (fafter0 V c) t d
theorem fbefore1 (c : Dev nD) (t : Fin cfg1.N) (d) : (fdat V c).before 1 t d = fblk V c 1 t :=
  fbefore1_of V (fdat V c) (fA_eq V c 1) (fafter1 V c) t d
/-- At a later point the output's staging buffer holds what the body left at the point before: the buffer
    was not written back between, the window is live and uncut. -/
theorem fbefore2_later (c : Dev nD) (t : Fin cfg1.N) (h0 : ¬t.val % 96 = 0) (d) :
    (fdat V c).before 2 t d = facc V c (t.val - 1) (Nat.lt_of_le_of_lt (Nat.sub_le _ _) t.isLt) := by
  have hN : t.val < 96 := lt_of_lt_of_eq t.isLt (show cfg1.N = 96 from N_1)
  rw [Dat.before_out_kept _ 2 rfl t (by omega) (Bool.eq_false_iff.mpr fun h => by have := (flush1_2 _).mp h; dsimp only at this; omega)
    (fun _ => rfl) (fun _ _ => rfl)]
  dsimp only [fdat]

/-! ## The body obligation, at a generic point -/

def fbodyPre (c : Dev nD) (t : Fin cfg1.N) : sProp 𝕄 :=
  iprop((fdat V c).Φ t.castSucc ∗ (fdat V c).owesAt () t.castSucc
    ∗ (∃ d, owns (c : Thread nD τ) (st1_0 t) fullShare ((fdat V c).before 0 t d))
    ∗ (∃ d, owns (c : Thread nD τ) (st1_1 t) fullShare ((fdat V c).before 1 t d))
    ∗ (∃ d, owns (c : Thread nD τ) (st1_2 t) fullShare ((fdat V c).before 2 t d)))

def fbodyPost (c : Dev nD) (t : Fin cfg1.N) : sProp 𝕄 :=
  iprop((fdat V c).Φ t.succ ∗ (fdat V c).owesAt () t.succ
    ∗ owns (c : Thread nD τ) (st1_0 t) fullShare ((fdat V c).after 0 t)
    ∗ owns (c : Thread nD τ) (st1_1 t) fullShare ((fdat V c).after 1 t)
    ∗ owns (c : Thread nD τ) (st1_2 t) fullShare ((fdat V c).after 2 t))

set_option maxHeartbeats 1600000 in
/-- The body at any point: the inputs' memrefs hold their blocks; the closed form of the conditional says which
    case the point is in; at a later point the output's buffer holds what the point before left; so the
    case's run applies; the invariant passes through unread; the core owes nothing throughout. -/
theorem fsound_body (c : Dev nD) (t : Fin cfg1.N) :
    fbodyPre V c t ⊢ wp frame (wpE (defs₀ (F := F)) Variants.none c none) Set.univ (bodyAt1 t) (fun _ => fbodyPost V c t) := by
  unfold fbodyPre fbodyPost bodyAt1
  simp only [fbefore0, fbefore1]
  rw [show (fdat V c).Φ t.succ = (fdat V c).Φ t.castSucc from rfl,
    show (fdat V c).owesAt () t.succ = (fdat V c).owesAt () t.castSucc from rfl,
    fafter0, fafter1, fafter2]
  have hN : t.val < 96 := lt_of_lt_of_eq t.isLt (show cfg1.N = 96 from N_1)
  by_cases h0 : t.val % 96 = 0
  · rw [facc_first V c t h0]
    unfold foutFirst
    iintro ⟨HΦ, Ho, ⟨%d0, H0⟩, ⟨%d1, H1⟩, ⟨%d2, H2⟩⟩
    iapply ((featRunFirst c (grid1.coords t) _ _ _ _ _ _ ((featFirst_iff t).mpr h0) (fblk V c 0 t) (fblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (fcoverFirst c _ _ _ _ _ _ _ _ _ _)
  · rw [facc_later V c t h0]
    simp only [fbefore2_later V c t h0]
    unfold foutLater
    iintro ⟨HΦ, Ho, ⟨%d0, H0⟩, ⟨%d1, H1⟩, ⟨%d2, H2⟩⟩
    iapply ((featRunLater c (grid1.coords t) _ _ _ _ _ _ (fun h => h0 ((featFirst_iff t).mp h)) (fblk V c 0 t) (fblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (fcoverLater c _ _ _ _ _ _ _ _ _ _ _)

/-- The library's body obligation, at every point. -/
theorem fbody_obligation (c : Dev nD) : BodyObligation (fdat (F := F) V c) (defs₀ (F := F)) Variants.none () Set.univ := fun t => by
  rw [bigSep_W1, bigSep_W1]
  exact fsound_body V c t

end

end Cert.Kernel.Run

end
-- ==== Proof.Bits.MainRun.lean ====
/-
  The whole program's run: the first region (the label sum), a stretch of host operations (the label mean;
  the three feature arrays of each side stacked into one 3 x 4096 x 256 array), the second region (the
  feature sum), and the closing host operations (the feature mean and the weighted sum of the two).
  The contents of every unscoped buffer at each of the five boundaries are named by a fold from the launch
  memory: a host stretch applies its operations, a region leaves its arrays at what its write-backs leave
  and every other buffer as it found it. Each region is entered with every unscoped buffer held at its
  boundary's contents and left the same way, so the run ends with every unscoped buffer at the last
  boundary's contents: the arguments as launched, the result at the closing operations' value.
-/
import proofs.«109064_j34256659153337_1_alg».proof.Proof.Bits.LabelRegion
import proofs.«109064_j34256659153337_1_alg».proof.Proof.Bits.FeatRegion
import proofs.«109064_j34256659153337_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev bnd0 : Dev nD → Valuation τ sig (Elt F) := fun c b => (s₀ m ρ).mem ((c : Dev nD), b)
/-- The same read at the TensorCore's references (what the first region's proof data take). -/
abbrev at0 : (c : Dev nD) → (b : Ref sig .tc) → Buf (Elt F) ((c : Thread nD τ).loc b) := fun c b => bnd0 m ρ c b
/-- After the first region: its arrays at what the pipeline leaves, every other buffer as entered. -/
def bnd1 (c : Dev nD) : Valuation τ sig (Elt F) :=
  Pipeline.withArrays spec0 c (bnd0 m ρ c) fun w => (ldat (at0 m ρ) c).arrAt w cfg0.N
theorem bnd1_arr (c : Dev nD) (w : Fin cfg0.W) :
    bnd1 m ρ c (Proc.devRef .tc (Pipeline.arrRef spec0 w)) = (ldat (at0 m ρ) c).arrAt w cfg0.N := by
  unfold bnd1; exact Pipeline.withArrays_arr spec0 launch0.win.arr_inj c _ _ w
theorem bnd1_of_ne (c : Dev nD) (b : Ref sig .tc) (hb : ∀ w, Pipeline.arrRef spec0 w ≠ b) :
    bnd1 m ρ c (Proc.devRef .tc b) = bnd0 m ρ c (Proc.devRef .tc b) := by
  unfold bnd1; exact Pipeline.withArrays_of_ne spec0 c _ _ b hb
abbrev at1 : (c : Dev nD) → (b : Ref sig .tc) → Buf (Elt F) ((c : Thread nD τ).loc b) := fun c b => bnd1 m ρ c b
theorem hF0 (c : Dev nD) (w : Fin cfg0.W) : (ldat (at0 m ρ) c).arrAt w cfg0.N = at1 m ρ c (Pipeline.arrRef spec0 w) :=
  (bnd1_arr m ρ c w).symm
theorem hrest0 (c : Dev nD) : ∀ b, b ∉ Finset.univ.image (Pipeline.arrRef spec0) → at1 m ρ c b = at0 m ρ c b :=
  fun b hb => bnd1_of_ne m ρ c b fun w e => hb (Finset.mem_image.mpr ⟨w, Finset.mem_univ _, e⟩)

/-- After the first host stretch (the second region's entry). -/
abbrev bnd2 : Dev nD → Valuation τ sig (Elt F) := fun c => StableHlo.after hostOps1 (bnd1 m ρ c)
abbrev at2 : (c : Dev nD) → (b : Ref sig .tc) → Buf (Elt F) ((c : Thread nD τ).loc b) := fun c b => bnd2 m ρ c b
/-- After the second region. -/
def bnd3 (c : Dev nD) : Valuation τ sig (Elt F) :=
  Pipeline.withArrays spec1 c (bnd2 m ρ c) fun w => (fdat (at2 m ρ) c).arrAt w cfg1.N
theorem bnd3_arr (c : Dev nD) (w : Fin cfg1.W) :
    bnd3 m ρ c (Proc.devRef .tc (Pipeline.arrRef spec1 w)) = (fdat (at2 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
abbrev at3 : (c : Dev nD) → (b : Ref sig .tc) → Buf (Elt F) ((c : Thread nD τ).loc b) := fun c b => bnd3 m ρ c b
theorem hF1 (c : Dev nD) (w : Fin cfg1.W) : (fdat (at2 m ρ) c).arrAt w cfg1.N = at3 m ρ c (Pipeline.arrRef spec1 w) :=
  (bnd3_arr m ρ c w).symm
theorem hrest1 (c : Dev nD) : ∀ b, b ∉ Finset.univ.image (Pipeline.arrRef spec1) → at3 m ρ c b = at2 m ρ c b :=
  fun b hb => bnd3_of_ne m ρ c b fun w e => hb (Finset.mem_image.mpr ⟨w, Finset.mem_univ _, e⟩)
/-- After the closing host stretch: the end. -/
abbrev bnd4 : Dev nD → Valuation τ sig (Elt F) := fun c => StableHlo.after hostOps2 (bnd3 m ρ c)

/-! ## The arguments end as launched -/

/-- `main_arg0` ends as launched: no host operation writes it and no region changes it. -/
theorem bnd4_main_arg0 (c : Dev nD) : bnd4 m ρ c (Proc.devRef .tc main_arg0) = m ((c : Thread nD τ).loc main_arg0) :=
  (StableHlo.after_of_writes_sub hostOps2 _ hostOps2_writes (r := main_arg0) (by decide)).trans <|
  (bnd3_of_ne m ρ c main_arg0 (by decide)).trans <|
  (StableHlo.after_of_writes_sub hostOps1 _ hostOps1_writes (r := main_arg0) (by decide)).trans <|
  ((bnd1_arr m ρ c 0).trans (((ldat (at0 m ρ) c).arrAt_in 0 rfl _).trans (lA_eq (at0 m ρ) c 0))).trans rfl
/-- `main_arg1` ends as launched: no host operation writes it and no region changes it. -/
theorem bnd4_main_arg1 (c : Dev nD) : bnd4 m ρ c (Proc.devRef .tc main_arg1) = m ((c : Thread nD τ).loc main_arg1) :=
  (StableHlo.after_of_writes_sub hostOps2 _ hostOps2_writes (r := main_arg1) (by decide)).trans <|
  (bnd3_of_ne m ρ c main_arg1 (by decide)).trans <|
  (StableHlo.after_of_writes_sub hostOps1 _ hostOps1_writes (r := main_arg1) (by decide)).trans <|
  ((bnd1_arr m ρ c 1).trans (((ldat (at0 m ρ) c).arrAt_in 1 rfl _).trans (lA_eq (at0 m ρ) c 1))).trans rfl
/-- `main_arg2` ends as launched: no host operation writes it and no region changes it. -/
theorem bnd4_main_arg2 (c : Dev nD) : bnd4 m ρ c (Proc.devRef .tc main_arg2) = m ((c : Thread nD τ).loc main_arg2) :=
  (StableHlo.after_of_writes_sub hostOps2 _ hostOps2_writes (r := main_arg2) (by decide)).trans <|
  (bnd3_of_ne m ρ c main_arg2 (by decide)).trans <|
  (StableHlo.after_of_writes_sub hostOps1 _ hostOps1_writes (r := main_arg2) (by decide)).trans <|
  (bnd1_of_ne m ρ c main_arg2 (by decide)).trans rfl
/-- `main_arg3` ends as launched: no host operation writes it and no region changes it. -/
theorem bnd4_main_arg3 (c : Dev nD) : bnd4 m ρ c (Proc.devRef .tc main_arg3) = m ((c : Thread nD τ).loc main_arg3) :=
  (StableHlo.after_of_writes_sub hostOps2 _ hostOps2_writes (r := main_arg3) (by decide)).trans <|
  (bnd3_of_ne m ρ c main_arg3 (by decide)).trans <|
  (StableHlo.after_of_writes_sub hostOps1 _ hostOps1_writes (r := main_arg3) (by decide)).trans <|
  (bnd1_of_ne m ρ c main_arg3 (by decide)).trans rfl
/-- `main_arg4` ends as launched: no host operation writes it and no region changes it. -/
theorem bnd4_main_arg4 (c : Dev nD) : bnd4 m ρ c (Proc.devRef .tc main_arg4) = m ((c : Thread nD τ).loc main_arg4) :=
  (StableHlo.after_of_writes_sub hostOps2 _ hostOps2_writes (r := main_arg4) (by decide)).trans <|
  (bnd3_of_ne m ρ c main_arg4 (by decide)).trans <|
  (StableHlo.after_of_writes_sub hostOps1 _ hostOps1_writes (r := main_arg4) (by decide)).trans <|
  (bnd1_of_ne m ρ c main_arg4 (by decide)).trans rfl
/-- `main_arg5` ends as launched: no host operation writes it and no region changes it. -/
theorem bnd4_main_arg5 (c : Dev nD) : bnd4 m ρ c (Proc.devRef .tc main_arg5) = m ((c : Thread nD τ).loc main_arg5) :=
  (StableHlo.after_of_writes_sub hostOps2 _ hostOps2_writes (r := main_arg5) (by decide)).trans <|
  (bnd3_of_ne m ρ c main_arg5 (by decide)).trans <|
  (StableHlo.after_of_writes_sub hostOps1 _ hostOps1_writes (r := main_arg5) (by decide)).trans <|
  (bnd1_of_ne m ρ c main_arg5 (by decide)).trans rfl
/-- `main_arg6` ends as launched: no host operation writes it and no region changes it. -/
theorem bnd4_main_arg6 (c : Dev nD) : bnd4 m ρ c (Proc.devRef .tc main_arg6) = m ((c : Thread nD τ).loc main_arg6) :=
  (StableHlo.after_of_writes_sub hostOps2 _ hostOps2_writes (r := main_arg6) (by decide)).trans <|
  (bnd3_of_ne m ρ c main_arg6 (by decide)).trans <|
  (StableHlo.after_of_writes_sub hostOps1 _ hostOps1_writes (r := main_arg6) (by decide)).trans <|
  (bnd1_of_ne m ρ c main_arg6 (by decide)).trans rfl
/-- `main_arg7` ends as launched: no host operation writes it and no region changes it. -/
theorem bnd4_main_arg7 (c : Dev nD) : bnd4 m ρ c (Proc.devRef .tc main_arg7) = m ((c : Thread nD τ).loc main_arg7) :=
  (StableHlo.after_of_writes_sub hostOps2 _ hostOps2_writes (r := main_arg7) (by decide)).trans <|
  (bnd3_of_ne m ρ c main_arg7 (by decide)).trans <|
  (StableHlo.after_of_writes_sub hostOps1 _ hostOps1_writes (r := main_arg7) (by decide)).trans <|
  (bnd1_of_ne m ρ c main_arg7 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => ldat (at0 m ρ) c
  | ⟨1, _⟩ => fun c => fdat (at2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (bnd4 m ρ c) ∗ ∃ r, prngReg c r)

/-! ## The regions as segments -/

-- a library lemma stated over the pinned configuration unifies with the printed one only when unification may unfold
-- plain definitions in a metavariable's type
set_option backward.isDefEq.respectTransparency.types false in
/-- The first region: entered from every unscoped buffer at the launch contents, left at `bnd1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (lbody_obligation (at0 m ρ) c).loose
  hwaits := Pipeline.hwaits_of_owed_zero _ _ _ _ L lv 0 fun _ _ => rfl
  pre c := iprop(StableHlo.held (c : Thread nD τ) (Pipeline.ucRefs τ sig) (bnd0 m ρ c) ∗ R c)
  post c := iprop(StableHlo.held (c : Thread nD τ) (Pipeline.ucRefs τ sig) (bnd1 m ρ c) ∗ R c)
  X c := iprop(∃ r, prngReg c r)
  Y c := iprop(∃ r, prngReg c r)
  Z c := Pipeline.unscopedRest (Ix := Unit) (Name := ℕ) (U := UR sig nD τ) (Lvl := ℕ) spec0 c (at0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (at0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (at0 m ρ c) (at1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second region: entered from every unscoped buffer at `bnd2`, left at `bnd3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (fbody_obligation (at2 m ρ) c).loose
  hwaits := Pipeline.hwaits_of_owed_zero _ _ _ _ L lv 1 fun _ _ => rfl
  pre c := iprop(StableHlo.held (c : Thread nD τ) (Pipeline.ucRefs τ sig) (bnd2 m ρ c) ∗ R c)
  post c := iprop(StableHlo.held (c : Thread nD τ) (Pipeline.ucRefs τ sig) (bnd3 m ρ c) ∗ R c)
  X c := iprop(∃ r, prngReg c r)
  Y c := iprop(∃ r, prngReg c r)
  Z c := Pipeline.unscopedRest (Ix := Unit) (Name := ℕ) (U := UR sig nD τ) (Lvl := ℕ) spec1 c (at2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (at2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (at2 m ρ c) (at3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m ρ) () defs₀ 𝒱₀ L lv) :=
  [ .region (reg0 m ρ),
    .host (hseg hostOps1 hostOps1_sub hostOps1_fresh (bnd1 m ρ)),
    .region (reg1 m ρ),
    .host (hseg hostOps2 hostOps2_sub hostOps2_fresh (bnd3 m ρ)) ]
theorem main_run (c : Dev nD) : main (F := F) c = Pipeline.Seg.run (mainSegs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (bnd4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun _ h => h)

/-- The frame: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c),
     (h c _ (mem_uc main_arg7 (by decide))).trans (bnd4_main_arg7 m ρ c)⟩) (run_all m ρ)

end Cert.Kernel.Run

end
-- ==== Proof.Spec.lean ====
/-
  The mathematics both programs compute, over the extended reals, stated once and free of either
  program's text.

  Inputs: two 4096 x 1000 arrays `P`, `T` (the labels) and three pairs of 4096 x 256 arrays
  `pf k`, `tf k` (the features), `k = 0, 1, 2`.

  * the label term is the sum over all entries of `(P - T)^2`;
  * for one 4096 x 256 array `f` the squared distance of rows `i` and `j` is computed as
    `max (|f_i|^2 + |f_j|^2 - 2 <f_i, f_j>) 0`, and the distance is its square root;
  * the feature term of a pair `(p, t)` is the sum over all index pairs `(i, j)` of the squared
    difference of the two distances.

  The kernel takes each sum a block of rows at a time (512 rows of the labels at each of 8 grid
  points; 128 rows of one feature pair at each of 3 * 32 grid points, the feature the slow axis) and
  divides the total of the three feature terms by `3 * 4096^2` once; the reference sums each
  array whole, divides each feature term by `4096^2`, adds the three and divides by `3`.
-/
import Idealize.ShloMosaic.PureOps.Ideal

noncomputable section

namespace Cert.Spec

open Idealize.ShloMosaic

/-! ## The literals the two programs share, as the words they print -/

/-- `2.0` -/
abbrev two : EReal := Ideal.ofBits .f32 0x40000000#32
/-- `0.0` -/
abbrev zero : EReal := Ideal.ofBits .f32 0x00000000#32
/-- `1.0 - 0.8` rounded to f32: the weight of the label term. -/
abbrev wLabel : EReal := Ideal.ofBits .f32 0x3E4CCCCD#32
/-- `0.8` rounded to f32: the weight of the feature term. -/
abbrev wFeat : EReal := Ideal.ofBits .f32 0x3F4CCCCD#32
/-- `4096 * 1000` -/
abbrev nLabel : EReal := Ideal.ofBits .f32 0x4A7A0000#32
/-- `3 * 4096^2`: the kernel's one divisor of the feature total. -/
abbrev nFeatAll : EReal := Ideal.ofBits .f32 0x4C400000#32
/-- `4096^2`: the reference's divisor of each feature term. -/
abbrev nFeatOne : EReal := Ideal.ofBits .f32 0x4B800000#32
/-- `3.0`: the reference's last divisor. -/
abbrev three : EReal := Ideal.ofBits .f32 0x40400000#32
/-- `1.0`: the reference's stand-in under the square root where the squared distance is not positive. -/
abbrev one : EReal := Ideal.ofBits .f32 0x3F800000#32

/-! ## The label term -/

/-- One entry's squared difference. -/
def sqDiff (P T : Fin 4096 → Fin 1000 → EReal) (i : Fin 4096) (j : Fin 1000) : EReal :=
  (P i j - T i j) * (P i j - T i j)

/-- The label term, every entry summed (rows, then columns within a row). -/
def labelTotal (P T : Fin 4096 → Fin 1000 → EReal) : EReal :=
  ∑ i : Fin 4096, ∑ j : Fin 1000, sqDiff P T i j

/-- Row `r` of row block `t`, for blocks of `b` rows, `n` of them. -/
def rowOf {n b : ℕ} (t : Fin n) (r : Fin b) : Fin (n * b) :=
  ⟨b * t.val + r.val, by
    have ht := t.isLt; have hr := r.isLt
    calc b * t.val + r.val < b * t.val + b := Nat.add_lt_add_left hr _
      _ = b * (t.val + 1) := by ring
      _ ≤ b * n := Nat.mul_le_mul_left _ ht
      _ = n * b := Nat.mul_comm _ _⟩

/-- The label term as the kernel takes it: 8 blocks of 512 rows. -/
def labelBlocks (P T : Fin 4096 → Fin 1000 → EReal) : EReal :=
  ∑ t : Fin 8, ∑ r : Fin 512, ∑ j : Fin 1000, sqDiff P T (rowOf (n := 8) (b := 512) t r) j

/-! ## The feature term -/

/-- A row's squared norm. -/
def sqNorm (f : Fin 4096 → Fin 256 → EReal) (i : Fin 4096) : EReal := ∑ k : Fin 256, f i k * f i k

/-- Two rows' inner product. -/
def inner (f : Fin 4096 → Fin 256 → EReal) (i j : Fin 4096) : EReal := ∑ k : Fin 256, f i k * f j k

/-- The squared distance of rows `i` and `j`, as both programs compute it (clamped at zero). -/
def sqDist (f : Fin 4096 → Fin 256 → EReal) (i j : Fin 4096) : EReal :=
  max ((sqNorm f i + sqNorm f j) - two * inner f i j) zero

/-- The distance. -/
def dist (f : Fin 4096 → Fin 256 → EReal) (i j : Fin 4096) : EReal := Ideal.sqrt (sqDist f i j)

/-- One index pair's squared difference of the two distances. -/
def pairTerm (p t : Fin 4096 → Fin 256 → EReal) (i j : Fin 4096) : EReal :=
  (dist p i j - dist t i j) * (dist p i j - dist t i j)

/-- The feature term of one pair of arrays, every index pair summed. -/
def featTotal (p t : Fin 4096 → Fin 256 → EReal) : EReal :=
  ∑ i : Fin 4096, ∑ j : Fin 4096, pairTerm p t i j

/-- The three feature terms as the kernel takes them: 3 features x 32 blocks of 128 rows. -/
def featBlocks (pf tf : Fin 3 → Fin 4096 → Fin 256 → EReal) : EReal :=
  ∑ k : Fin 3, ∑ b : Fin 32, ∑ r : Fin 128, ∑ j : Fin 4096, pairTerm (pf k) (tf k) (rowOf (n := 32) (b := 128) b r) j

/-! ## The two results -/

/-- What the kernel's program returns. -/
def kernelResult (P T : Fin 4096 → Fin 1000 → EReal) (pf tf : Fin 3 → Fin 4096 → Fin 256 → EReal) : EReal :=
  wLabel * Ideal.div (labelBlocks P T) nLabel + wFeat * Ideal.div (featBlocks pf tf) nFeatAll

/-- What the reference returns. -/
def referenceResult (P T : Fin 4096 → Fin 1000 → EReal) (pf tf : Fin 3 → Fin 4096 → Fin 256 → EReal) : EReal :=
  wLabel * Ideal.div (labelTotal P T) nLabel
    + Ideal.div (wFeat * (((zero + Ideal.div (featTotal (pf 0) (tf 0)) nFeatOne)
        + Ideal.div (featTotal (pf 1) (tf 1)) nFeatOne)
        + Ideal.div (featTotal (pf 2) (tf 2)) nFeatOne)) three

end Cert.Spec

end
-- ==== Proof.LabelValue.lean ====
/-
  The label kernel's value. Over the extended reals the 1 x 1 result array of the first region ends
  holding the label term taken by blocks: the sum over the eight row blocks, over the 512 rows of a
  block and over the 1000 columns of a row, of the squared difference of the two label arrays' entries.

  Each case of the body leaves in the output's buffer what it held (the zero block, at the first
  point) plus the sum of squared differences of the two 512 x 1000 blocks it reads: the rows' sums,
  then the sum of those. The block a window reads at point `t` is rows `512 t .. 512 t + 511` of its
  array. So after point `n` the buffer holds the sum of row blocks `0 .. n`, by induction on `n`; the
  one write-back, after point 7, writes block (0, 0) of the 1 x 1 array, which is the whole array.
-/
import proofs.«109064_j34256659153337_1_alg».proof.Proof.LabelRegion
import proofs.«109064_j34256659153337_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Generic
variable {F : FTy → Type} [FloatOps F]

theorem lhz : (![0, 0] : Fin 2 → Nat) = fun _ => 0 := funext fun a => by fin_cases a <;> rfl

/-- A later point leaves the running contents plus the block's sum. -/
theorem loutLater_eq (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : ¬labelFirst i)
    (x0 x1 : Vec F S512x1000 .f32) (xo : Vec F S1x1 .f32) :
    loutLater c i a0 h0 a1 h1 a2 h2 hc x0 x1 xo = k0_pay2 x0 x1 xo := by
  unfold loutLater
  rw [View.read_writes_eq_canon _ _ _ (lcoverLater c i a0 h0 a1 h1 a2 h2 hc x0 x1 xo)]
  unfold labelRunLater
  dsimp only
  rw [View.canon_unit_zero lhz]
  simp only [View.readAt_eq_ld, h0.read_unread, h1.read_unread, h2.read_unread,
    View.ld_unit_zero (S := S512x1000) lhz, View.ld_unit_zero (S := S1x1) lhz]

/-- The first point leaves the zero block plus the block's sum. -/
theorem loutFirst_eq (c : Dev nD) (i : grid0.Coords)
    (a0 : Memref sig .tc .vmem S512x1000 .f32) (h0 : a0.IsWhole) (a1 : Memref sig .tc .vmem S512x1000 .f32) (h1 : a1.IsWhole)
    (a2 : Memref sig .tc .vmem S1x1 .f32) (h2 : a2.IsWhole) (hc : labelFirst i)
    (x0 x1 : Vec F S512x1000 .f32) :
    loutFirst c i a0 h0 a1 h1 a2 h2 hc x0 x1 = k0_pay2 x0 x1 k0_pay1 := by
  unfold loutFirst
  rw [View.read_writes_eq_canon _ _ _ (lcoverFirst c i a0 h0 a1 h1 a2 h2 hc x0 x1)]
  unfold labelRunFirst
  dsimp only
  sl_unfold_words
  rw [View.canon_cons_unit_zero (S := S1x1) lhz, View.readCov_unit_zero (S := S1x1) _ lhz]
  simp only [View.readAt_eq_ld, h0.read_unread, h1.read_unread,
    View.ld_unit_zero (S := S512x1000) lhz]
end Generic

section AtIdeal

/-- The 1 x 1 block has one index. -/
theorem idx1x1_eq (y : S1x1.Idx) : y = ix2 (0 : Fin 1) (0 : Fin 1) := by
  funext a
  match a with
  | ⟨0, _⟩ => exact Fin.ext (Nat.lt_one_iff.mp (y 0).isLt)
  | ⟨1, _⟩ => exact Fin.ext (Nat.lt_one_iff.mp (y 1).isLt)

/-- A row's sum: the reduction over the columns, at row `r`. -/
theorem labelRowSum_apply (v : FVec Ideal S512x1000 .f32) (hφ : FKind.Formats .f32)
    (hacc : (0x00000000#32 : BitVec 32) = FKind.add.neutral .f32 hφ) (r : Fin 512) :
    multiReduction .add [1] S512 v 0x00000000#32 reduces_S512x1000_S512 hφ hacc (ix1 r) = ∑ j : Fin 1000, v (ix2 r j) := by
  rw [Ideal.multiReduction_add_single]
  refine Finset.sum_congr rfl fun j _ => congrArg v ?_
  funext a
  match a with
  | ⟨0, _⟩ => rfl
  | ⟨1, _⟩ => rfl

/-- The column of row sums, summed: the reduction over the rows. -/
theorem labelColSum_apply (v : FVec Ideal S512x1 .f32) (hφ : FKind.Formats .f32)
    (hacc : (0x00000000#32 : BitVec 32) = FKind.add.neutral .f32 hφ) :
    multiReduction .add [0] S1 v 0x00000000#32 reduces_S512x1_S1 hφ hacc (ix1 0) = ∑ r : Fin 512, v (ix2 r 0) := by
  rw [Ideal.multiReduction_add_single]
  refine Finset.sum_congr rfl fun r _ => congrArg v ?_
  funext a
  match a with
  | ⟨0, _⟩ => rfl
  | ⟨1, _⟩ => rfl

/-- The body's payload at the one index: the running contents plus the block's sum of squared differences. -/
theorem pay2_apply (x0 x1 : Vec Ideal S512x1000 .f32) (xo : Vec Ideal S1x1 .f32) (y : S1x1.Idx) :
    k0_pay2 (F := Ideal) x0 x1 xo y
      = xo (ix2 0 0) + ∑ r : Fin 512, ∑ j : Fin 1000, (x0 (ix2 r j) - x1 (ix2 r j)) * (x0 (ix2 r j) - x1 (ix2 r j)) := by
  obtain rfl := idx1x1_eq y
  unfold k0_pay2
  simp only [shapeCast_self]
  rw [addf_apply]
  congr 1
  rw [shapeCast_apply _ shapeCasts_S1_S1x1 (ix2 0 0) (ix1 0) (by rw [Shape.rowMajor_val_one, Shape.rowMajor_val_two]; rfl)]
  refine (labelColSum_apply _ _ _).trans ?_
  refine Finset.sum_congr rfl fun r _ => ?_
  rw [shapeCast_apply _ shapeCasts_S512_S512x1 (ix2 r 0) (ix1 r) (by rw [Shape.rowMajor_val_one, Shape.rowMajor_val_two]; show r.val = r.val * 1 + 0; omega)]
  exact labelRowSum_apply _ _ _ r

end AtIdeal

section Blocks
variable {F : FTy → Type} [FloatOps F]
variable (V : (c : Dev nD) → (b : Ref sig .tc) → Buf (Elt F) ((c : Thread nD τ).loc b))

/-- A grid point as a row block's number. -/
abbrev lpt (t : Fin cfg0.N) : Fin 8 := ⟨t.val, lt_of_lt_of_eq t.isLt N_0⟩

/-- Both input windows' block index at point `t` is `(t, 0)`. -/
theorem lindex0 : ∀ t : Fin cfg0.N, win0_0.index t 0 = t.val ∧ win0_0.index t 1 = 0 :=
  (by decide +kernel : ∀ t : Fin grid0.N, win0_0.index t 0 = t.val ∧ win0_0.index t 1 = 0)
theorem lindex1 : ∀ t : Fin cfg0.N, win0_1.index t 0 = t.val ∧ win0_1.index t 1 = 0 :=
  (by decide +kernel : ∀ t : Fin grid0.N, win0_1.index t 0 = t.val ∧ win0_1.index t 1 = 0)

/-- The first window's block at point `t` is rows `512 t ..` of the first array. -/
theorem lblk0_apply (c : Dev nD) (t : Fin cfg0.N) (r : Fin 512) (j : Fin 1000) :
    (lblk V c 0 t : Vec F S512x1000 .f32) (ix2 r j)
      = V c main_arg0 (ix2 (Cert.Spec.rowOf (n := 8) (b := 512) (lpt t) r) j) := by
  have hi := lindex0 t
  unfold lblk
  rw [View.read_apply]
  show V c main_arg0 _ = V c main_arg0 _
  congr 1
  funext a
  apply Fin.ext
  match a with
  | ⟨0, _⟩ => show win0_0.index t 0 * 512 + 1 * r.val = 512 * t.val + r.val; rw [hi.1]; omega
  | ⟨1, _⟩ => show win0_0.index t 1 * 1000 + 1 * j.val = j.val; rw [hi.2]; omega

/-- The second window's block at point `t` is the same rows of the second array. -/
theorem lblk1_apply (c : Dev nD) (t : Fin cfg0.N) (r : Fin 512) (j : Fin 1000) :
    (lblk V c 1 t : Vec F S512x1000 .f32) (ix2 r j)
      = V c main_arg1 (ix2 (Cert.Spec.rowOf (n := 8) (b := 512) (lpt t) r) j) := by
  have hi := lindex1 t
  unfold lblk
  rw [View.read_apply]
  show V c main_arg1 _ = V c main_arg1 _
  congr 1
  funext a
  apply Fin.ext
  match a with
  | ⟨0, _⟩ => show win0_1.index t 0 * 512 + 1 * r.val = 512 * t.val + r.val; rw [hi.1]; omega
  | ⟨1, _⟩ => show win0_1.index t 1 * 1000 + 1 * j.val = j.val; rw [hi.2]; omega
end Blocks

section Acc
variable (V : (c : Dev nD) → (b : Ref sig .tc) → Buf (Elt Ideal) ((c : Thread nD τ).loc b))

/-- The two label arrays as the region finds them, by coordinates. -/
abbrev lP (c : Dev nD) : Fin 4096 → Fin 1000 → EReal := fun i j => V c main_arg0 (ix2 i j)
abbrev lT (c : Dev nD) : Fin 4096 → Fin 1000 → EReal := fun i j => V c main_arg1 (ix2 i j)

/-- Row block `s`'s sum of squared differences (zero past the eight blocks). -/
def lterm (c : Dev nD) (s : ℕ) : EReal :=
  if hs : s < 8 then ∑ r : Fin 512, ∑ j : Fin 1000, Cert.Spec.sqDiff (lP V c) (lT V c) (Cert.Spec.rowOf (n := 8) (b := 512) ⟨s, hs⟩ r) j else 0

/-- The sum the body takes of the blocks it reads at point `t` is row block `t`'s. -/
theorem lblockSum_eq (c : Dev nD) (t : Fin cfg0.N) (x0 x1 : Vec Ideal S512x1000 .f32)
    (h0 : x0 = lblk V c 0 t) (h1 : x1 = lblk V c 1 t) :
    (∑ r : Fin 512, ∑ j : Fin 1000, (x0 (ix2 r j) - x1 (ix2 r j)) * (x0 (ix2 r j) - x1 (ix2 r j)))
      = lterm V c t.val := by
  unfold lterm
  rw [dif_pos (lt_of_lt_of_eq t.isLt N_0)]
  refine Finset.sum_congr rfl fun r _ => Finset.sum_congr rfl fun j _ => ?_
  rw [h0, h1, lblk0_apply, lblk1_apply]
  rfl

/-- The zero block at its index. -/
theorem pay1_apply (y : S1x1.Idx) : k0_pay1 (F := Ideal) y = 0 := Ideal.ofBits_zero_f32

/-- After point `n` the output's buffer holds the sum of row blocks `0 .. n`. -/
theorem lacc_apply (c : Dev nD) : ∀ (n : ℕ) (h : n < cfg0.N) (y : S1x1.Idx),
    lacc (F := Ideal) V c n h y = ∑ s ∈ Finset.range (n + 1), lterm V c s
  | 0, h, y => by
    rw [lacc_first V c ⟨0, h⟩ rfl, loutFirst_eq, pay2_apply, Finset.sum_range_one, pay1_apply, zero_add]
    exact lblockSum_eq V c ⟨0, h⟩ _ _ rfl rfl
  | n + 1, h, y => by
    have hN : cfg0.N = 8 := N_0
    have hB : ¬(⟨n + 1, h⟩ : Fin cfg0.N).val % 8 = 0 := by dsimp only; omega
    rw [lacc_later V c ⟨n + 1, h⟩ hB, loutLater_eq, pay2_apply, Finset.sum_range_succ]
    congr 1
    · exact lacc_apply c n _ _
    · exact lblockSum_eq V c ⟨n + 1, h⟩ _ _ rfl rfl
end Acc

section Final
variable (V : (c : Dev nD) → (b : Ref sig .tc) → Buf (Elt Ideal) ((c : Thread nD τ).loc b))

/-- The result: the label term taken by blocks, at the one index of the 1 x 1 result array. -/
abbrev lresult (c : Dev nD) : Buf (Elt Ideal) ((c : Thread nD τ).loc main_v0) :=
  fun _ => Cert.Spec.labelBlocks (lP V c) (lT V c)

/-- After the last point the output's buffer holds all eight blocks' sum. -/
theorem lacc_last (c : Dev nD) (h : 7 < cfg0.N) (y : S1x1.Idx) :
    lacc (F := Ideal) V c 7 h y = Cert.Spec.labelBlocks (lP V c) (lT V c) := by
  rw [lacc_apply]
  show ∑ s ∈ Finset.range 8, lterm V c s = _
  unfold Cert.Spec.labelBlocks
  rw [← Fin.sum_univ_eq_sum_range (fun s => lterm V c s) 8]
  refine Finset.sum_congr rfl fun t _ => ?_
  unfold lterm
  rw [dif_pos t.isLt]

/-- The one write-back, at point 7, writes it: block (0, 0) of the 1 x 1 array is the array. -/
theorem lflushed_eq (c : Dev nD) (t : Fin cfg0.N) (hf : (cfg0.win 2).flush t = true) :
    (ldat V c).flushed 2 t = ((cfg0.win 2).blk t).view.read (Elt Ideal) (lresult V c) := by
  have hN : cfg0.N = 8 := N_0
  have h7 : t.val = 7 := by have := (flush0_2 t).mp hf; have := t.isLt; omega
  obtain rfl : t = t0_7 := Fin.ext h7
  show (cfg0.win 2).cut (grid0.coords t0_7) ((ldat V c).after 2 t0_7) = _
  rw [lafter2]
  have e : lacc V c t0_7.val t0_7.isLt = lresult V c := funext fun y => lacc_last V c _ y
  rw [e]
  have hz' : (fun a => win0_2.index t0_7 a * main_v0.ty.shape.size a) = fun _ => 0 := funext fun a => by fin_cases a <;> decide
  exact (Memref.read_access_unit_zero (Elt Ideal) main_v0 hz' (fun a => by rw [congrFun hz' a]; simp) (lresult V c)).symm

end Final

/-- So the result array ends holding the label term taken by blocks. -/
theorem label_final (V : (c : Dev nD) → (b : Ref sig .tc) → Buf (Elt Ideal) ((c : Thread nD τ).loc b)) (c : Dev nD) :
    (ldat (F := Ideal) V c).arrAt 2 cfg0.N
      = fun _ => Cert.Spec.labelBlocks (fun i j => V c main_arg0 (ix2 i j)) (fun i j => V c main_arg1 (ix2 i j)) :=
  (ldat V c).arrAt_eq_of_cover 2 (lresult V c) (lflushed_eq V c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

end Cert.KernelIdeal.Run

end
-- ==== Proof.FeatPayload.lean ====
/-
  The feature kernel's stored value at one grid point, as mathematics.

  At the block of 128 rows `b` of one feature pair `(f, g)` the body forms, for each of the block's rows `i` and each
  of the 4096 rows `j`, the two clamped squared distances `max (|f_i|^2 + |f_j|^2 - 2 <f_i, f_j>) 0` and the same of
  `g`, takes the square roots, squares their difference, sums over `j` and then over the block's rows, and adds the
  result to the running sum in the `1 x 1` output block. Here each step is read at an index: a shape cast, a transpose
  and a broadcast read one element of their operand; a sum along one axis is the sum over that axis's coordinates; the
  product of the `128 x 256` block with the transposed `4096 x 256` array is, at `(i, j)`, the inner product of row
  `i` of the block and row `j` of the array. The theorem `feat_payload` states the stored value as the running sum
  plus the block's sum of `Cert.Spec.pairTerm`.
-/
import proofs.«109064_j34256659153337_1_alg».proof.Proof.Gen.KernelIdeal.Skeleton
import proofs.«109064_j34256659153337_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Run

open Cert.KernelIdeal Cert.KernelIdeal.Gen Idealize.ShloMosaic Idealize.ShloMosaic.ValueIdx

/-! ## Layout operations at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sums at an index -/

/-- A sum along the rows of a matrix, at row `i`: the sum over the columns. -/
theorem rowSum_apply {n m : ℕ} (v : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (i : Fin n) :
    multiReduction (F := Ideal) .add [1] ⟨1, ![n]⟩ v 0x00000000#32 h hφ hacc (ix1 i) = ∑ d : Fin m, v (ix2 i d) := by
  refine (Ideal.multiReduction_add_single v _ h hφ hacc (ix1 i)).trans ?_
  refine Finset.sum_congr rfl fun d _ => congrArg v ?_
  funext c
  match c with
  | ⟨0, _⟩ => rfl
  | ⟨1, _⟩ => rfl

/-- A sum down the columns of a matrix, at column `c`: the sum over the rows. -/
theorem colSum_apply {n m : ℕ} (v : FVec Ideal ⟨2, ![n, m]⟩ .f32)
    (h : (⟨2, ![n, m]⟩ : Shape).Reduces [0] ⟨1, ![m]⟩) (hφ : FKind.Formats .f32)
    (hacc : (0x00000000#32 : BitVec 32) = FKind.add.neutral .f32 hφ) (c : Fin m) :
    multiReduction (F := Ideal) .add [0] ⟨1, ![m]⟩ v 0x00000000#32 h hφ hacc (ix1 c) = ∑ r : Fin n, v (ix2 r c) := by
  refine (Ideal.multiReduction_add_single v _ h hφ hacc (ix1 c)).trans ?_
  refine Finset.sum_congr rfl fun r _ => congrArg v ?_
  funext a
  match a with
  | ⟨0, _⟩ => rfl
  | ⟨1, _⟩ => rfl

/-! ## The product at an index -/

theorem lhs_dot_0 (i : S128x4096.Idx) (q : dot_S128x256_S256x4096_S128x4096_1_0_0_1_n_n.contr.Idx) :
    (dot_S128x256_S256x4096_S128x4096_1_0_0_1_n_n.lhsIdx i q 0).val = (i 0).val := by
  unfold DotDims.lhsIdx
  rw [dif_neg (show ¬(0 : Fin S128x256.rank) ∈ dot_S128x256_S256x4096_S128x4096_1_0_0_1_n_n.lhsBatch by decide), dif_pos (show (0 : Fin S128x256.rank) ∈ dot_S128x256_S256x4096_S128x4096_1_0_0_1_n_n.lhsNonContracting by decide)]
  rfl
theorem lhs_dot_1 (i : S128x4096.Idx) (q : dot_S128x256_S256x4096_S128x4096_1_0_0_1_n_n.contr.Idx) :
    (dot_S128x256_S256x4096_S128x4096_1_0_0_1_n_n.lhsIdx i q 1).val = (q ⟨0, by decide⟩).val :=
  dot_S128x256_S256x4096_S128x4096_1_0_0_1_n_n.lhsIdx_val_of_single rfl i q
theorem rhs_dot_0 (i : S128x4096.Idx) (q : dot_S128x256_S256x4096_S128x4096_1_0_0_1_n_n.contr.Idx) :
    (dot_S128x256_S256x4096_S128x4096_1_0_0_1_n_n.rhsIdx i q 0).val = (q ⟨0, by decide⟩).val :=
  dot_S128x256_S256x4096_S128x4096_1_0_0_1_n_n.rhsIdx_val_of_single rfl i q
theorem rhs_dot_1 (i : S128x4096.Idx) (q : dot_S128x256_S256x4096_S128x4096_1_0_0_1_n_n.contr.Idx) :
    (dot_S128x256_S256x4096_S128x4096_1_0_0_1_n_n.rhsIdx i q 1).val = (i 1).val := by
  unfold DotDims.rhsIdx
  rw [dif_neg (show ¬(1 : Fin S256x4096.rank) ∈ dot_S128x256_S256x4096_S128x4096_1_0_0_1_n_n.rhsBatch by decide), dif_pos (show (1 : Fin S256x4096.rank) ∈ dot_S128x256_S256x4096_S128x4096_1_0_0_1_n_n.rhsNonContracting by decide)]
  rfl

/-- The product of a `128 x 256` block and a `256 x 4096` array onto zero, at `(r, j)`: the sum over the 256
    contracted coordinates of the products. -/
theorem matmul_zero_apply {φ₁ φ₂ : FTy} (lhs : FVec Ideal S128x256 φ₁) (rhs : FVec Ideal S256x4096 φ₂) (r : Fin 128) (j : Fin 4096) :
    matmul dot_S128x256_S256x4096_S128x4096_1_0_0_1_n_n none lhs rhs (constant S128x4096 .f32 0x00000000#32) (ix2 r j)
      = ∑ k : Fin 256, lhs (ix2 r k) * rhs (ix2 k j) := by
  simp only [matmul]
  rw [Ideal.matmul_constant_zero_apply, ← Equiv.sum_comp (contrEquiv1 dot_S128x256_S256x4096_S128x4096_1_0_0_1_n_n 256 rfl rfl).symm]
  refine Finset.sum_congr rfl fun k _ => ?_
  have hk := contrEquiv1_symm_val dot_S128x256_S256x4096_S128x4096_1_0_0_1_n_n 256 rfl rfl k
  have el : dot_S128x256_S256x4096_S128x4096_1_0_0_1_n_n.lhsIdx (ix2 r j) ((contrEquiv1 dot_S128x256_S256x4096_S128x4096_1_0_0_1_n_n 256 rfl rfl).symm k) = ix2 r k := funext fun a => Fin.ext (by
    match a with
    | ⟨0, _⟩ => exact lhs_dot_0 _ _
    | ⟨1, _⟩ => exact (lhs_dot_1 _ _).trans hk)
  have er : dot_S128x256_S256x4096_S128x4096_1_0_0_1_n_n.rhsIdx (ix2 r j) ((contrEquiv1 dot_S128x256_S256x4096_S128x4096_1_0_0_1_n_n 256 rfl rfl).symm k) = ix2 k j := funext fun a => Fin.ext (by
    match a with
    | ⟨0, _⟩ => exact (rhs_dot_0 _ _).trans hk
    | ⟨1, _⟩ => exact rhs_dot_1 _ _)
  rw [el, er]

/-! ## The sums and transposes of this kernel, at its shapes -/

theorem rowSum_S128x256 (v : FVec Ideal S128x256 .f32) (r : Fin 128) :
    multiReduction (F := Ideal) .add [1] S128 v 0x00000000#32 reduces_S128x256_S128 (.inl rfl) rfl (ix1 r)
      = ∑ d : Fin 256, v (ix2 r d) :=
  rowSum_apply v _ _ _ r

theorem rowSum_S4096x256 (v : FVec Ideal S4096x256 .f32) (i : Fin 4096) :
    multiReduction (F := Ideal) .add [1] S4096 v 0x00000000#32 reduces_S4096x256_S4096 (.inl rfl) rfl (ix1 i)
      = ∑ d : Fin 256, v (ix2 i d) :=
  rowSum_apply v _ _ _ i

theorem rowSum_S128x4096 (v : FVec Ideal S128x4096 .f32) (r : Fin 128) :
    multiReduction (F := Ideal) .add [1] S128 v 0x00000000#32 reduces_S128x4096_S128 (.inl rfl) rfl (ix1 r)
      = ∑ j : Fin 4096, v (ix2 r j) :=
  rowSum_apply v _ _ _ r

theorem colSum_S128x1 (v : FVec Ideal S128x1 .f32) (u : Fin 1) :
    multiReduction (F := Ideal) .add [0] S1 v 0x00000000#32 reduces_S128x1_S1 (.inl rfl) rfl (ix1 u)
      = ∑ r : Fin 128, v (ix2 r u) :=
  colSum_apply v _ _ _ u

theorem transpose_S4096x1_apply (v : FVec Ideal S4096x1 .f32) (u : Fin 1) (j : Fin 4096) :
    transpose S1x4096 [1, 0] v transposes_S4096x1_p1_0_S1x4096 (ix2 u j) = v (ix2 j u) :=
  transpose_ix2_apply v _ u j

theorem transpose_S4096x256_apply {φ : FTy} (v : FVec Ideal S4096x256 φ) (k : Fin 256) (j : Fin 4096) :
    transpose S256x4096 [1, 0] v transposes_S4096x256_p1_0_S256x4096 (ix2 k j) = v (ix2 j k) :=
  transpose_ix2_apply v _ k j

/-! ## The three terms of one side's squared distance, at an index -/

/-- The full array's squared norms, laid along the columns: at `(p, j)` the squared norm of row `j`. -/
theorem sqnFull_apply (y : FVec Ideal S4096x256 .f32) (p : Fin 128) (j : Fin 4096) :
    broadcastTo S128x4096
        (transpose S1x4096 [1, 0]
          (shapeCast S4096x1
            (multiReduction (F := Ideal) .add [1] S4096 (mulf y y) 0x00000000#32 reduces_S4096x256_S4096 (.inl rfl) rfl)
            shapeCasts_S4096_S4096x1)
          transposes_S4096x1_p1_0_S1x4096)
        broadcasts_S1x4096_S128x4096 (ix2 p j)
      = ∑ d : Fin 256, y (ix2 j d) * y (ix2 j d) := by
  rw [broadcastTo_1b_ab_apply, transpose_S4096x1_apply, shapeCast_a_a1_apply, rowSum_S4096x256]
  rfl

/-- The row block's squared norms, laid along the rows: at `(p, j)` the squared norm of the block's row `p`. -/
theorem sqnRows_apply (z : FVec Ideal S128x256 .f32) (p : Fin 128) (j : Fin 4096) :
    broadcastTo S128x4096
        (shapeCast S128x1
          (multiReduction (F := Ideal) .add [1] S128 (mulf z z) 0x00000000#32 reduces_S128x256_S128 (.inl rfl) rfl)
          shapeCasts_S128_S128x1)
        broadcasts_S128x1_S128x4096 (ix2 p j)
      = ∑ d : Fin 256, z (ix2 p d) * z (ix2 p d) := by
  rw [broadcastTo_a1_ab_apply, shapeCast_a_a1_apply, rowSum_S128x256]
  rfl

/-- The product of the row block with the transposed full array, at `(p, j)`: the inner product of the block's
    row `p` and the array's row `j`. -/
theorem cross_apply (y : FVec Ideal S4096x256 .f32) (z : FVec Ideal S128x256 .f32) (p : Fin 128) (j : Fin 4096) :
    matmul dot_S128x256_S256x4096_S128x4096_1_0_0_1_n_n none (truncf .bf16 z bitsLt_bf16_f32)
        (transpose S256x4096 [1, 0] (truncf .bf16 y bitsLt_bf16_f32) transposes_S4096x256_p1_0_S256x4096)
        (constant S128x4096 .f32 0x00000000#32) (ix2 p j)
      = ∑ k : Fin 256, z (ix2 p k) * y (ix2 j k) := by
  rw [matmul_zero_apply]
  refine Finset.sum_congr rfl fun k _ => ?_
  rw [transpose_S4096x256_apply]
  rfl

/-! ## One side's squared-distance term at an index -/

theorem pay8_apply (f : Fin 4096 → Fin 256 → EReal) (ρ : Fin 128 → Fin 4096)
    (x : Vec Ideal S1x4096x256 .f32) (xr : Vec Ideal S1x128x256 .f32)
    (hx : ∀ (i : Fin 4096) (d : Fin 256), x (ix3 (0 : Fin 1) i d) = f i d)
    (hxr : ∀ (r : Fin 128) (d : Fin 256), xr (ix3 (0 : Fin 1) r d) = f (ρ r) d)
    (r : Fin 128) (j : Fin 4096) :
    k1_pay8 (F := Ideal) x xr (ix2 r j)
      = (Cert.Spec.sqNorm f (ρ r) + Cert.Spec.sqNorm f j) - Cert.Spec.two * Cert.Spec.inner f (ρ r) j := by
  unfold k1_pay8
  simp only [subf_apply, addf_apply, mulf_apply, broadcast_apply]
  rw [sqnRows_apply, sqnFull_apply, cross_apply]
  simp only [shapeCast_1ab_ab_apply, hx, hxr]
  rfl

/-! ## The other side's three terms, as the kernel carries them -/

theorem pay5_apply (g : Fin 4096 → Fin 256 → EReal) (x : Vec Ideal S1x4096x256 .f32)
    (hx : ∀ (i : Fin 4096) (d : Fin 256), x (ix3 (0 : Fin 1) i d) = g i d) (p : Fin 128) (j : Fin 4096) :
    broadcastTo S128x4096 (k1_pay5 (F := Ideal) x) broadcasts_S1x4096_S128x4096 (ix2 p j) = Cert.Spec.sqNorm g j := by
  unfold k1_pay5 k1_pay3
  rw [sqnFull_apply]
  simp only [shapeCast_1ab_ab_apply, hx]
  rfl

theorem pay6_apply (g : Fin 4096 → Fin 256 → EReal) (ρ : Fin 128 → Fin 4096) (xr : Vec Ideal S1x128x256 .f32)
    (hxr : ∀ (r : Fin 128) (d : Fin 256), xr (ix3 (0 : Fin 1) r d) = g (ρ r) d) (p : Fin 128) (j : Fin 4096) :
    broadcastTo S128x4096 (k1_pay6 (F := Ideal) xr) broadcasts_S128x1_S128x4096 (ix2 p j) = Cert.Spec.sqNorm g (ρ p) := by
  unfold k1_pay6 k1_pay4
  rw [sqnRows_apply]
  simp only [shapeCast_1ab_ab_apply, hxr]
  rfl

theorem pay7_apply (g : Fin 4096 → Fin 256 → EReal) (ρ : Fin 128 → Fin 4096)
    (x : Vec Ideal S1x4096x256 .f32) (xr : Vec Ideal S1x128x256 .f32)
    (hx : ∀ (i : Fin 4096) (d : Fin 256), x (ix3 (0 : Fin 1) i d) = g i d)
    (hxr : ∀ (r : Fin 128) (d : Fin 256), xr (ix3 (0 : Fin 1) r d) = g (ρ r) d) (p : Fin 128) (j : Fin 4096) :
    k1_pay7 (F := Ideal) x xr (ix2 p j) = Cert.Spec.inner g (ρ p) j := by
  unfold k1_pay7 k1_pay3 k1_pay4
  rw [cross_apply]
  simp only [shapeCast_1ab_ab_apply, hx, hxr]
  rfl

/-! ## The closing sum -/

/-- A square root at an index is the element's. -/
theorem sqrt_apply {s : Shape} {φ : FTy} (a : FVec Ideal s φ) (i : s.Idx) : sqrt a i = Ideal.sqrt (a i) := rfl

/-- The lane sum, then the sublane sum, of a `128 x 4096` block, in the `1 x 1` result: the sum over the block. -/
theorem total_apply (w : FVec Ideal S128x4096 .f32) (u u' : Fin 1) :
    shapeCast S1x1
        (multiReduction (F := Ideal) .add [0] S1
          (shapeCast S128x1
            (multiReduction (F := Ideal) .add [1] S128 w 0x00000000#32 reduces_S128x4096_S128 (.inl rfl) rfl)
            shapeCasts_S128_S128x1)
          0x00000000#32 reduces_S128x1_S1 (.inl rfl) rfl)
        shapeCasts_S1_S1x1 (ix2 u u')
      = ∑ r : Fin 128, ∑ j : Fin 4096, w (ix2 r j) := by
  rw [shapeCast_a_1a_apply, colSum_S128x1]
  refine Finset.sum_congr rfl fun r _ => ?_
  rw [shapeCast_a_a1_apply, rowSum_S128x4096]

/-! ## The payload -/

theorem feat_payload (f g : Fin 4096 → Fin 256 → EReal) (b : Fin 32)
    (x0 x1 : Vec Ideal S1x4096x256 .f32) (x0r x1r : Vec Ideal S1x128x256 .f32) (xo : Vec Ideal S1x1 .f32)
    (hx0 : ∀ (i : Fin 4096) (d : Fin 256), x0 (ix3 (0 : Fin 1) i d) = f i d)
    (hx1 : ∀ (i : Fin 4096) (d : Fin 256), x1 (ix3 (0 : Fin 1) i d) = g i d)
    (hx0r : ∀ (r : Fin 128) (d : Fin 256), x0r (ix3 (0 : Fin 1) r d) = f (Cert.Spec.rowOf (n := 32) (b := 128) b r) d)
    (hx1r : ∀ (r : Fin 128) (d : Fin 256), x1r (ix3 (0 : Fin 1) r d) = g (Cert.Spec.rowOf (n := 32) (b := 128) b r) d) :
    k1_pay2 (F := Ideal) (k1_pay5 x1) (k1_pay6 x1r) (k1_pay7 x1 x1r) (k1_pay8 x0 x0r) xo
      = fun _ => xo (ix2 (0 : Fin 1) (0 : Fin 1))
          + ∑ r : Fin 128, ∑ j : Fin 4096, Cert.Spec.pairTerm f g (Cert.Spec.rowOf (n := 32) (b := 128) b r) j := by
  funext i
  obtain ⟨p, q, rfl⟩ : ∃ p q, i = ix2 p q := ⟨i 0, i 1, eq_ix2 i⟩
  obtain rfl : p = 0 := Subsingleton.elim _ _
  obtain rfl : q = 0 := Subsingleton.elim _ _
  unfold k1_pay2
  simp only [addf_apply]
  rw [total_apply, shapeCast_self]
  refine congrArg (xo (ix2 (0 : Fin 1) (0 : Fin 1)) + ·) ?_
  refine Finset.sum_congr rfl fun r _ => Finset.sum_congr rfl fun j _ => ?_
  simp only [mulf_apply, subf_apply, sqrt_apply, maximumf_apply, broadcast_apply, addf_apply]
  rw [pay8_apply f _ x0 x0r hx0 hx0r, pay5_apply g x1 hx1, pay6_apply g _ x1r hx1r, pay7_apply g _ x1 x1r hx1 hx1r]
  rfl

end Cert.KernelIdeal.Run

end
-- ==== Proof.FeatValue.lean ====
/-
  The value of the feature kernel's result. At each of the 3 x 32 grid points the body adds, to the one element of
  its resident 1 x 1 output block, the sum over the point's 128 rows and all 4096 columns of the squared difference
  of the two pairwise distances (the first point adds to a zero it has just stored). The input windows' blocks at
  point `t` are feature `t / 32` of the two stacked arrays, and the rows loaded there are rows `128 (t % 32) + r`;
  so after point `n` the block holds the sum of the points' sums up to `n` (by induction on `n`), after the last
  point the total over features and row blocks, and the one write-back, at the last point, writes the whole
  1 x 1 result array.
-/
import proofs.«109064_j34256659153337_1_alg».proof.Proof.FeatRegion
import proofs.«109064_j34256659153337_1_alg».proof.Proof.FeatPayload
import proofs.«109064_j34256659153337_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section
variable {F : FTy → Type} [FloatOps F]

theorem fhz2 : (![0, 0] : Fin 2 → Nat) = fun _ => 0 := funext fun a => match a with | ⟨0, _⟩ => rfl | ⟨1, _⟩ => rfl
theorem fhz3 : (![0, 0, 0] : Fin 3 → Nat) = fun _ => 0 := funext fun a => match a with | ⟨0, _⟩ => rfl | ⟨1, _⟩ => rfl | ⟨2, _⟩ => rfl

/-- The 128 rows of a whole 4096 x 256 block that the body loads at the point's row offset. -/
abbrev fslice (i : grid1.Coords) (x : Vec F S1x4096x256 .f32) : Vec F S1x128x256 .f32 :=
  View.ld x (Rect.unit (s := S1x4096x256) (k1_off1 i) S1x128x256.size (k1_off1_inb i))

/-- A later point leaves, over the running contents, the payload of its one covering store. -/
theorem foutLater_eq (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : ¬featFirst i)
    (x0 x1 : Vec F S1x4096x256 .f32) (xo : Vec F S1x1 .f32) :
    foutLater c i a0 h0 a1 h1 a2 h2 hc x0 x1 xo
      = k1_pay2 (k1_pay5 x1) (k1_pay6 (fslice i x1)) (k1_pay7 x1 (fslice i x1)) (k1_pay8 x0 (fslice i x0)) xo := by
  unfold foutLater
  rw [View.read_writes_eq_canon _ _ _ (fcoverLater c i a0 h0 a1 h1 a2 h2 hc x0 x1 xo)]
  unfold featRunLater
  dsimp only
  sl_unfold_words
  rw [View.canon_unit_zero fhz2]
  simp only [View.readAt_eq_ld, h0.read_unread, h1.read_unread, h2.read_unread, View.ld_unit_zero (S := S1x1) fhz2,
    View.ld_unit_zero (S := S1x4096x256) fhz3]
  rfl

/-- The first point stores the zero block, reads it back, and leaves the payload over it. -/
theorem foutFirst_eq (c : Dev nD) (i : grid1.Coords)
    (a0 : Memref sig .tc .vmem S1x4096x256 .f32) (h0 : a0.IsWhole) (a1 : Memref sig .tc .vmem S1x4096x256 .f32) (h1 : a1.IsWhole)
    (a2 : Memref sig .tc .vmem S1x1 .f32) (h2 : a2.IsWhole) (hc : featFirst i)
    (x0 x1 : Vec F S1x4096x256 .f32) :
    foutFirst c i a0 h0 a1 h1 a2 h2 hc x0 x1
      = k1_pay2 (k1_pay5 x1) (k1_pay6 (fslice i x1)) (k1_pay7 x1 (fslice i x1)) (k1_pay8 x0 (fslice i x0)) k1_pay1 := by
  unfold foutFirst
  rw [View.read_writes_eq_canon _ _ _ (fcoverFirst c i a0 h0 a1 h1 a2 h2 hc x0 x1)]
  unfold featRunFirst
  dsimp only
  sl_unfold_words
  rw [View.canon_cons_unit_zero (S := S1x1) fhz2, View.readCov_unit_zero (S := S1x1) _ fhz2]
  simp only [View.readAt_eq_ld, h0.read_unread, h1.read_unread, View.ld_unit_zero (S := S1x4096x256) fhz3]
  rfl
end

section
variable (V : (c : Dev nD) → (b : Ref sig .tc) → Buf (Elt Ideal) ((c : Thread nD τ).loc b))

/-- The block index of each input window at point `t`: the feature `t / 32`, the whole array of it. -/
theorem findex0 : ∀ t : Fin cfg1.N, win1_0.index t 0 = t.val / 32 ∧ win1_0.index t 1 = 0 ∧ win1_0.index t 2 = 0 :=
  (by decide +kernel : ∀ t : Fin grid1.N, win1_0.index t 0 = t.val / 32 ∧ win1_0.index t 1 = 0 ∧ win1_0.index t 2 = 0)
theorem findex1 : ∀ t : Fin cfg1.N, win1_1.index t 0 = t.val / 32 ∧ win1_1.index t 1 = 0 ∧ win1_1.index t 2 = 0 :=
  (by decide +kernel : ∀ t : Fin grid1.N, win1_1.index t 0 = t.val / 32 ∧ win1_1.index t 1 = 0 ∧ win1_1.index t 2 = 0)
/-- The row-block coordinate of point `t` is `t % 32`. -/
theorem fcoord1 : ∀ t : Fin cfg1.N, ((grid1.coords t) 1).val = t.val % 32 :=
  (by decide +kernel : ∀ t : Fin grid1.N, ((grid1.coords t) 1).val = t.val % 32)

theorem flt96 (t : Fin cfg1.N) : t.val < 96 := lt_of_lt_of_eq t.isLt (show cfg1.N = 96 from N_1)

/-- The first input window's block at point `t` is feature `t / 32` of the stacked prediction array. -/
theorem fblk0_apply (c : Dev nD) (t : Fin cfg1.N) (k : Fin 3) (hk : k.val = t.val / 32) (i : Fin 4096) (d : Fin 256) :
    (fblk V c 0 t : Vec Ideal S1x4096x256 .f32) (ix3 (0 : Fin 1) i d) = V c main_v6 (ix3 k i d) := by
  unfold fblk
  rw [View.read_apply]
  show V c main_v6 _ = V c main_v6 _
  congr 1
  funext a
  apply Fin.ext
  match a with
  | ⟨0, _⟩ => show win1_0.index t 0 * 1 + 1 * 0 = k.val; rw [(findex0 t).1, hk]; omega
  | ⟨1, _⟩ => show win1_0.index t 1 * 4096 + 1 * i.val = i.val; rw [(findex0 t).2.1]; omega
  | ⟨2, _⟩ => show win1_0.index t 2 * 256 + 1 * d.val = d.val; rw [(findex0 t).2.2]; omega

/-- The second input window's block at point `t` is feature `t / 32` of the stacked target array. -/
theorem fblk1_apply (c : Dev nD) (t : Fin cfg1.N) (k : Fin 3) (hk : k.val = t.val / 32) (i : Fin 4096) (d : Fin 256) :
    (fblk V c 1 t : Vec Ideal S1x4096x256 .f32) (ix3 (0 : Fin 1) i d) = V c main_v10 (ix3 k i d) := by
  unfold fblk
  rw [View.read_apply]
  show V c main_v10 _ = V c main_v10 _
  congr 1
  funext a
  apply Fin.ext
  match a with
  | ⟨0, _⟩ => show win1_1.index t 0 * 1 + 1 * 0 = k.val; rw [(findex1 t).1, hk]; omega
  | ⟨1, _⟩ => show win1_1.index t 1 * 4096 + 1 * i.val = i.val; rw [(findex1 t).2.1]; omega
  | ⟨2, _⟩ => show win1_1.index t 2 * 256 + 1 * d.val = d.val; rw [(findex1 t).2.2]; omega

/-- The 128 rows loaded at point `t` are rows `128 (t % 32) + r` of the block. -/
theorem fslice_apply (t : Fin cfg1.N) (b : Fin 32) (hb : b.val = t.val % 32) (x : Vec Ideal S1x4096x256 .f32) (r : Fin 128) (d : Fin 256) :
    fslice (grid1.coords t) x (ix3 (0 : Fin 1) r d) = x (ix3 (0 : Fin 1) (Cert.Spec.rowOf (n := 32) (b := 128) b r) d) := by
  show x _ = x _
  congr 1
  funext a
  apply Fin.ext
  have ho := k1_off1_eq (grid1.coords t)
  match a with
  | ⟨0, _⟩ => show k1_off1 (grid1.coords t) 0 + 1 * 0 = 0; rw [ho]; rfl
  | ⟨1, _⟩ => show k1_off1 (grid1.coords t) 1 + 1 * r.val = 128 * b.val + r.val; rw [ho, hb, ← fcoord1 t]; show 128 * _ + 1 * r.val = _; omega
  | ⟨2, _⟩ => show k1_off1 (grid1.coords t) 2 + 1 * d.val = d.val; rw [ho]; show 0 + 1 * d.val = d.val; omega
end

section
variable (V : (c : Dev nD) → (b : Ref sig .tc) → Buf (Elt Ideal) ((c : Thread nD τ).loc b))

/-- The stacked prediction and target features, by (feature, row, column). -/
abbrev fpf (c : Dev nD) : Fin 3 → Fin 4096 → Fin 256 → EReal := fun k i d => V c main_v6 (ix3 k i d)
abbrev ftf (c : Dev nD) : Fin 3 → Fin 4096 → Fin 256 → EReal := fun k i d => V c main_v10 (ix3 k i d)

/-- The sum one grid point adds: feature `k`, row block `b`. -/
def fterm (c : Dev nD) (k : Fin 3) (b : Fin 32) : EReal :=
  ∑ r : Fin 128, ∑ j : Fin 4096, Cert.Spec.pairTerm (fpf V c k) (ftf V c k) (Cert.Spec.rowOf (n := 32) (b := 128) b r) j

/-- The same by the point's position `s = 32 k + b`. -/
def ftermN (c : Dev nD) (s : ℕ) : EReal :=
  if h : s < 96 then fterm V c ⟨s / 32, by omega⟩ ⟨s % 32, by omega⟩ else 0

/-- The body's payload at point `t`, over running contents `xo`: `xo` plus the point's sum. -/
theorem fpoint (c : Dev nD) (t : Fin cfg1.N) (xo : Vec Ideal S1x1 .f32) :
    k1_pay2 (F := Ideal) (k1_pay5 (fblk V c 1 t)) (k1_pay6 (fslice (grid1.coords t) (fblk V c 1 t)))
        (k1_pay7 (fblk V c 1 t) (fslice (grid1.coords t) (fblk V c 1 t)))
        (k1_pay8 (fblk V c 0 t) (fslice (grid1.coords t) (fblk V c 0 t))) xo
      = fun _ => xo (ix2 (0 : Fin 1) (0 : Fin 1)) + ftermN V c t.val := by
  have ht := flt96 t
  rw [ftermN, dif_pos ht]
  exact feat_payload (fpf V c ⟨t.val / 32, by omega⟩) (ftf V c ⟨t.val / 32, by omega⟩) ⟨t.val % 32, by omega⟩ _ _ _ _ xo
    (fun i d => fblk0_apply V c t _ rfl i d) (fun i d => fblk1_apply V c t _ rfl i d)
    (fun r d => (fslice_apply t _ rfl _ r d).trans (fblk0_apply V c t _ rfl _ d))
    (fun r d => (fslice_apply t _ rfl _ r d).trans (fblk1_apply V c t _ rfl _ d))

/-- The zero block the first point stores reads zero. -/
theorem fpay1_apply (y : S1x1.Idx) : k1_pay1 (F := Ideal) y = 0 := by
  show Ideal.ofBits .f32 0x00000000#32 = 0
  exact Ideal.ofBits_zero_f32

/-- What the output's staging buffer holds after point `n`: the sum of the points' sums up to `n`. -/
theorem facc_eq (c : Dev nD) : ∀ (n : ℕ) (h : n < cfg1.N), facc V c n h = fun _ => ∑ s ∈ Finset.range (n + 1), ftermN V c s
  | 0, h => by
    rw [facc_first V c ⟨0, h⟩ rfl, foutFirst_eq, fpoint]
    funext _
    rw [fpay1_apply, zero_add, Finset.sum_range_one]
  | n + 1, h => by
    have hN : cfg1.N = 96 := N_1
    have hB : ¬(⟨n + 1, h⟩ : Fin cfg1.N).val % 96 = 0 := by dsimp only; omega
    rw [facc_later V c ⟨n + 1, h⟩ hB, foutLater_eq, fpoint]
    funext _
    show facc V c n _ (ix2 (0 : Fin 1) (0 : Fin 1)) + ftermN V c (n + 1) = _
    rw [facc_eq c n, Finset.sum_range_succ _ (n + 1)]

/-- The 96 points' sums, feature by feature and row block by row block. -/
theorem fsum_all (c : Dev nD) : ∑ s ∈ Finset.range 96, ftermN V c s = Cert.Spec.featBlocks (fpf V c) (ftf V c) := by
  rw [Finset.sum_range, ← Equiv.sum_comp (finProdFinEquiv (m := 3) (n := 32)), Fintype.sum_prod_type]
  unfold Cert.Spec.featBlocks
  refine Finset.sum_congr rfl fun k _ => Finset.sum_congr rfl fun b _ => ?_
  have hk := k.isLt
  have hb := b.isLt
  have hs : ((finProdFinEquiv (m := 3) (n := 32)) (k, b)).val = b.val + 32 * k.val := rfl
  rw [ftermN, dif_pos (by rw [hs]; omega)]
  show fterm V c _ _ = fterm V c k b
  congr 1
  · exact Fin.ext (by show _ / 32 = k.val; rw [hs]; omega)
  · exact Fin.ext (by show _ % 32 = b.val; rw [hs]; omega)
end

section
variable (V : (c : Dev nD) → (b : Ref sig .tc) → Buf (Elt Ideal) ((c : Thread nD τ).loc b))

/-- The last point. -/
def ft95 : Fin cfg1.N := ⟨95, by rw [show cfg1.N = 96 from N_1]; decide⟩

/-- The one write-back, at the last point, writes the total: the 1 x 1 block holds it at its one element. -/
theorem fflushed_eq (c : Dev nD) (t : Fin cfg1.N) (hf : (cfg1.win 2).flush t = true) :
    (fdat V c).flushed 2 t
      = ((cfg1.win 2).blk t).view.read (Elt Ideal) (fun _ => Cert.Spec.featBlocks (fpf V c) (ftf V c)) := by
  have hN : cfg1.N = 96 := N_1
  have h95 : t.val = 95 := by have := (flush1_2 t).mp hf; have := t.isLt; omega
  obtain rfl : t = ft95 := Fin.ext h95
  show (cfg1.win 2).cut (grid1.coords ft95) ((fdat V c).after 2 ft95) = _
  rw [fafter2, facc_eq]
  funext y
  rw [View.read_apply]
  show ∑ s ∈ Finset.range (95 + 1), ftermN V c s = Cert.Spec.featBlocks (fpf V c) (ftf V c)
  exact fsum_all V c

/-- So the result array ends holding the total of the three feature terms, taken block by block. -/
theorem feat_final (c : Dev nD) :
    (fdat (F := Ideal) V c).arrAt 2 cfg1.N
      = fun _ => Cert.Spec.featBlocks (fun k i d => V c main_v6 (ix3 k i d)) (fun k i d => V c main_v10 (ix3 k i d)) :=
  (fdat V c).arrAt_eq_of_cover 2 (fun _ => Cert.Spec.featBlocks (fpf V c) (ftf V c)) (fflushed_eq V c) fun i =>
    ⟨ft95, (flush1_2 ft95).mpr rfl, by
      show i ∈ ((View.whole main_v11).slice (win1_2.rect ft95)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index ft95 0 * win1_2.size 0 ≤ (i 0 : Nat) ∧ (i 0 : Nat) < win1_2.index ft95 0 * win1_2.size 0 + win1_2.xsize (grid1.coords ft95) 0
        rw [show win1_2.index ft95 0 * win1_2.size 0 = 0 from by decide +kernel, show win1_2.xsize (grid1.coords ft95) 0 = 1 from by decide +kernel]; omega
      | ⟨1, _⟩ =>
        show win1_2.index ft95 1 * win1_2.size 1 ≤ (i 1 : Nat) ∧ (i 1 : Nat) < win1_2.index ft95 1 * win1_2.size 1 + win1_2.xsize (grid1.coords ft95) 1
        rw [show win1_2.index ft95 1 * win1_2.size 1 = 0 from by decide +kernel, show win1_2.xsize (grid1.coords ft95) 1 = 1 from by decide +kernel]; omega⟩
end

end Cert.KernelIdeal.Run

end
-- ==== Proof.KernelValue.lean ====
/-
  The kernel program's result, read off its run. The closing host operations give the result as
  0.2 * (label sum / 4096000) + 0.8 * (feature sum / 50331648); the label sum is what the first region leaves
  in its one-entry array, carried unchanged through the second region; the feature sum is what the second
  region leaves, computed from the two 3 x 4096 x 256 stacks, and a stack read at (k, i, d) is the k-th of its
  three 4096 x 256 arrays at (i, d), each as launched.
-/
import proofs.«109064_j34256659153337_1_alg».proof.Proof.MainRun
import proofs.«109064_j34256659153337_1_alg».proof.Proof.LabelValue
import proofs.«109064_j34256659153337_1_alg».proof.Proof.FeatValue
import proofs.«109064_j34256659153337_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Result

/-! ## The stacked feature arrays -/

/-- Three arrays, each given a leading unit axis, stacked along it. -/
def stack3 {α : Type} (x y z : S4096x256.Idx → α) : S3x4096x256.Idx → α :=
  concatenate S3x4096x256 0
    [⟨S1x4096x256, broadcastInDim S1x4096x256 ![1, 2] bcast_S4096x256_S1x4096x256_1_2 x⟩,
     ⟨S1x4096x256, broadcastInDim S1x4096x256 ![1, 2] bcast_S4096x256_S1x4096x256_1_2 y⟩,
     ⟨S1x4096x256, broadcastInDim S1x4096x256 ![1, 2] bcast_S4096x256_S1x4096x256_1_2 z⟩]
    concatenates_S1x4096x256_S1x4096x256_S1x4096x256_S3x4096x256_d0

/-- Three pieces with a leading unit axis, stacked along it. -/
def cat3 {α : Type} (x y z : S1x4096x256.Idx → α) : S3x4096x256.Idx → α :=
  concatenate S3x4096x256 0 [⟨S1x4096x256, x⟩, ⟨S1x4096x256, y⟩, ⟨S1x4096x256, z⟩]
    concatenates_S1x4096x256_S1x4096x256_S1x4096x256_S3x4096x256_d0

/-- An array given a leading unit axis, read at (0, i, d), is the array at (i, d). -/
theorem lead_apply {α : Type} (x : S4096x256.Idx → α) (i : Fin 4096) (d : Fin 256) :
    broadcastInDim S1x4096x256 ![1, 2] bcast_S4096x256_S1x4096x256_1_2 x (ix3 (0 : Fin 1) i d) = x (ix2 i d) :=
  broadcastInDim_apply _ _ x _ (ix2 i d) fun a => by
    match a with
    | ⟨0, _⟩ => rfl
    | ⟨1, _⟩ => rfl

/-- The stack read at (k, i, d) is the k-th array at (i, d). -/
theorem stack3_apply {α : Type} (x y z : S4096x256.Idx → α) (k : Fin 3) (i : Fin 4096) (d : Fin 256) :
    stack3 x y z (ix3 k i d) = (![x, y, z] : Fin 3 → S4096x256.Idx → α) k (ix2 i d) := by
  have h := concatenate_ofFn_unit_apply (t := S3x4096x256) (s₁ := S1x4096x256) (0 : Fin 3) (N := 3)
    (![broadcastInDim S1x4096x256 ![1, 2] bcast_S4096x256_S1x4096x256_1_2 x,
       broadcastInDim S1x4096x256 ![1, 2] bcast_S4096x256_S1x4096x256_1_2 y,
       broadcastInDim S1x4096x256 ![1, 2] bcast_S4096x256_S1x4096x256_1_2 z] : Fin 3 → S1x4096x256.Idx → α)
    concatenates_S1x4096x256_S1x4096x256_S1x4096x256_S3x4096x256_d0 rfl rfl (ix3 k i d) k rfl (ix3 (0 : Fin 1) i d)
    (fun b hb => by
      match b with
      | ⟨0, _⟩ => exact absurd rfl hb
      | ⟨1, _⟩ => rfl
      | ⟨2, _⟩ => rfl)
  refine Eq.trans h ?_
  match k with
  | ⟨0, _⟩ => exact lead_apply x i d
  | ⟨1, _⟩ => exact lead_apply y i d
  | ⟨2, _⟩ => exact lead_apply z i d

/-! ## The host stretches, at any float values -/

section Generic
variable {F : FTy → Type} [FloatOps F]
variable (m : (ℓ : Loc nD τ sig) → Buf (Elt F) ℓ) (ρ : Dev nD → PrngReg)

/-- The first stack at the second region's entry: the three first-side feature arrays as the first region left them. -/
theorem bnd2_v6 (c : Dev nD) : bnd2 m ρ c (Proc.devRef .tc main_v6)
    = stack3 (bnd1 m ρ c (Proc.devRef .tc main_arg2)) (bnd1 m ρ c (Proc.devRef .tc main_arg3)) (bnd1 m ρ c (Proc.devRef .tc main_arg4)) := by
  show StableHlo.after hostOps1 _ (Proc.devRef .tc main_v6) = _
  after_results
  show cat3 _ _ _ = cat3 _ _ _
  congr 1

/-- The second stack at the second region's entry: the three second-side feature arrays. -/
theorem bnd2_v10 (c : Dev nD) : bnd2 m ρ c (Proc.devRef .tc main_v10)
    = stack3 (bnd1 m ρ c (Proc.devRef .tc main_arg5)) (bnd1 m ρ c (Proc.devRef .tc main_arg6)) (bnd1 m ρ c (Proc.devRef .tc main_arg7)) := by
  show StableHlo.after hostOps1 _ (Proc.devRef .tc main_v10) = _
  after_results
  show cat3 _ _ _ = cat3 _ _ _
  congr 1

end Generic

/-! ## The values over the extended reals -/

section AtIdeal
variable (m : (ℓ : Loc nD τ sig) → Buf (Elt Ideal) ℓ) (ρ : Dev nD → PrngReg)

/-- The labels as launched. -/
abbrev labP (c : Dev nD) : Fin 4096 → Fin 1000 → EReal := fun i j => m ((c.tc : Thread nD τ).loc main_arg0) (ix2 i j)
abbrev labT (c : Dev nD) : Fin 4096 → Fin 1000 → EReal := fun i j => m ((c.tc : Thread nD τ).loc main_arg1) (ix2 i j)
/-- The features as launched, one side and the other. -/
abbrev featP (c : Dev nD) : Fin 3 → Fin 4096 → Fin 256 → EReal :=
  ![fun i d => m ((c.tc : Thread nD τ).loc main_arg2) (ix2 i d), fun i d => m ((c.tc : Thread nD τ).loc main_arg3) (ix2 i d), fun i d => m ((c.tc : Thread nD τ).loc main_arg4) (ix2 i d)]
abbrev featT (c : Dev nD) : Fin 3 → Fin 4096 → Fin 256 → EReal :=
  ![fun i d => m ((c.tc : Thread nD τ).loc main_arg5) (ix2 i d), fun i d => m ((c.tc : Thread nD τ).loc main_arg6) (ix2 i d), fun i d => m ((c.tc : Thread nD τ).loc main_arg7) (ix2 i d)]

/-- The first region leaves the label sum in its one-entry result array. -/
theorem bnd1_v0 (c : Dev nD) : bnd1 m ρ c (Proc.devRef .tc main_v0) = fun _ => Cert.Spec.labelBlocks (labP m c) (labT m c) :=
  (bnd1_arr m ρ c 2).trans (label_final (at0 m ρ) c)

/-- The label mean. -/
theorem bnd2_v2 (c : Dev nD) : bnd2 m ρ c (Proc.devRef .tc main_v2)
    = fun _ => Ideal.div (Cert.Spec.labelBlocks (labP m c) (labT m c)) Cert.Spec.nLabel := by
  show StableHlo.after hostOps1 _ (Proc.devRef .tc main_v2) = _
  after_results
  rw [bnd1_v0]
  rfl

/-- The second region does not touch it. -/
theorem bnd3_v2 (c : Dev nD) : bnd3 m ρ c (Proc.devRef .tc main_v2)
    = fun _ => Ideal.div (Cert.Spec.labelBlocks (labP m c) (labT m c)) Cert.Spec.nLabel :=
  (bnd3_of_ne m ρ c main_v2 (by decide)).trans (bnd2_v2 m ρ c)

/-- The first stack at the second region's entry, read at (k, i, d): feature k of the first side as launched. -/
theorem at2_v6 (c : Dev nD) (k : Fin 3) (i : Fin 4096) (d : Fin 256) :
    at2 m ρ c main_v6 (ix3 k i d) = featP m c k i d := by
  show bnd2 m ρ c (Proc.devRef .tc main_v6) (ix3 k i d) = _
  rw [bnd2_v6, stack3_apply, bnd1_of_ne m ρ c main_arg2 (by decide), bnd1_of_ne m ρ c main_arg3 (by decide),
    bnd1_of_ne m ρ c main_arg4 (by decide)]
  match k with
  | ⟨0, _⟩ => rfl
  | ⟨1, _⟩ => rfl
  | ⟨2, _⟩ => rfl

/-- The second stack likewise. -/
theorem at2_v10 (c : Dev nD) (k : Fin 3) (i : Fin 4096) (d : Fin 256) :
    at2 m ρ c main_v10 (ix3 k i d) = featT m c k i d := by
  show bnd2 m ρ c (Proc.devRef .tc main_v10) (ix3 k i d) = _
  rw [bnd2_v10, stack3_apply, bnd1_of_ne m ρ c main_arg5 (by decide), bnd1_of_ne m ρ c main_arg6 (by decide),
    bnd1_of_ne m ρ c main_arg7 (by decide)]
  match k with
  | ⟨0, _⟩ => rfl
  | ⟨1, _⟩ => rfl
  | ⟨2, _⟩ => rfl

/-- The second region leaves the feature sum in its one-entry result array. -/
theorem bnd3_v11 (c : Dev nD) : bnd3 m ρ c (Proc.devRef .tc main_v11) = fun _ => Cert.Spec.featBlocks (featP m c) (featT m c) := by
  refine (bnd3_arr m ρ c 2).trans ((feat_final (at2 m ρ) c).trans ?_)
  rw [show (fun k i d => at2 m ρ c main_v6 (ix3 k i d)) = featP m c from funext fun k => funext fun i => funext fun d => at2_v6 m ρ c k i d,
    show (fun k i d => at2 m ρ c main_v10 (ix3 k i d)) = featT m c from funext fun k => funext fun i => funext fun d => at2_v10 m ρ c k i d]

end AtIdeal

end Result

section Final
variable (m : (ℓ : Loc nD τ sig) → Buf (Elt Ideal) ℓ) (ρ : Dev nD → PrngReg)

/-- The program's result: the weighted sum of the label mean and the feature mean. -/
theorem kernel_result (c : Dev nD) :
    bnd4 (F := Ideal) m ρ c (Proc.devRef .tc main_v16)
      = fun _ => Cert.Spec.kernelResult
          (fun i j => m ((c.tc : Thread nD τ).loc main_arg0) (ix2 i j))
          (fun i j => m ((c.tc : Thread nD τ).loc main_arg1) (ix2 i j))
          ![fun i d => m ((c.tc : Thread nD τ).loc main_arg2) (ix2 i d), fun i d => m ((c.tc : Thread nD τ).loc main_arg3) (ix2 i d), fun i d => m ((c.tc : Thread nD τ).loc main_arg4) (ix2 i d)]
          ![fun i d => m ((c.tc : Thread nD τ).loc main_arg5) (ix2 i d), fun i d => m ((c.tc : Thread nD τ).loc main_arg6) (ix2 i d), fun i d => m ((c.tc : Thread nD τ).loc main_arg7) (ix2 i d)] := by
  show StableHlo.after hostOps2 _ (Proc.devRef .tc main_v16) = _
  after_results
  rw [Result.bnd3_v2, Result.bnd3_v11]
  rfl

end Final

end Cert.KernelIdeal.Run

end
-- ==== Proof.RefValue.lean ====
/-
  The reference's value: its run read back one operation at a time.
-/
import proofs.«109064_j34256659153337_1_alg».proof.Proof.Gen.ReferenceIdeal.Run
import proofs.«109064_j34256659153337_1_alg».proof.Proof.Gen.ReferenceIdeal.Read
import proofs.«109064_j34256659153337_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx
open scoped BigOperators

/-! ## One scalar fact: the guarded square root of a clamped value is its square root -/

/-- For `s ≥ 0`: where `s > 0` both selections pick `s`; otherwise `s = 0`, whose square root is `0`. -/
theorem where_sqrt (s : EReal) (hs : (0 : EReal) ≤ s) :
    Scalar.select (FloatOps.cmpf (F := Ideal) (φ := .f32) .ogt s (FloatOps.ofBits .f32 0x00000000#32))
        (FloatOps.hostUnary (F := Ideal) (φ := .f32) .sqrt
          (Scalar.select (FloatOps.cmpf (F := Ideal) (φ := .f32) .ogt s (FloatOps.ofBits .f32 0x00000000#32)) s
            (FloatOps.ofBits .f32 0x3F800000#32)))
        (FloatOps.ofBits .f32 0x00000000#32)
      = Ideal.sqrt s := by
  rw [Ideal.cmpf_def, Ideal.hostUnary_sqrt_def, Ideal.ofBits_def, Ideal.ofBits_zero_f32]
  unfold Ideal.cmp
  by_cases h : (0 : EReal) < s
  · have hb : BitVec.ofBool (decide ((0 : EReal) < s)) = 1#1 := by rw [decide_eq_true h]; rfl
    simp only [hb, select_one]
  · have h0 : s = 0 := le_antisymm (not_lt.mp h) hs
    have hb : BitVec.ofBool (decide ((0 : EReal) < s)) = 0#1 := by rw [decide_eq_false h]; rfl
    simp only [hb, select_zero]
    rw [h0, ← EReal.coe_zero, Ideal.sqrt_coe, if_neg (lt_irrefl _), Real.sqrt_zero]

/-! ## The distance matrix of one array, read at an index -/

section Dist

variable (x : (⟨S4096x256, .f32⟩ : BufTy).Contents (Elt Ideal))

/-- The array as a function of its two coordinates. -/
abbrev rows : Fin 4096 → Fin 256 → EReal := fun a d => x (ix2 a d)

/-- The row sum of squares at row `i` is the row's squared norm. -/
theorem v5_at (i : Fin 4096) : Read.val_main_v5 (F := Ideal) x (ix1 i) = Cert.Spec.sqNorm (rows x) i := by
  rw [Read.val_main_v5_apply, Read.val_main_cst_1_apply, Ideal.ofBits_def, Ideal.ofBits_zero_f32, zero_add]
  unfold Cert.Spec.sqNorm
  refine Finset.sum_congr rfl fun k _ => ?_
  rw [Read.val_main_v4_apply, Ideal.mulf_def]
  have e : Read.idx_main_v5 (ix1 i) k = ix2 i k :=
    funext fun a => Fin.ext (by match a with | ⟨0, _⟩ => rfl | ⟨1, _⟩ => rfl)
  rw [e]

/-- Broadcast along the columns: row `i`'s squared norm. -/
theorem v8_at (i j : Fin 4096) : Read.val_main_v8 (F := Ideal) x (ix2 i j) = Cert.Spec.sqNorm (rows x) i := by
  rw [Read.val_main_v8_apply, Read.val_main_v6_apply]
  have e : Read.idx_main_v6 (Read.idx_main_v8 (ix2 i j)) = ix1 i :=
    funext fun a => Fin.ext (by match a with | ⟨0, _⟩ => rfl)
  rw [e, v5_at]

/-- Broadcast along the rows: row `j`'s squared norm. -/
theorem v9_at (i j : Fin 4096) : Read.val_main_v9 (F := Ideal) x (ix2 i j) = Cert.Spec.sqNorm (rows x) j := by
  rw [Read.val_main_v9_apply, Read.val_main_v7_apply]
  have e : Read.idx_main_v7 (Read.idx_main_v9 (ix2 i j)) = ix1 j :=
    funext fun a => Fin.ext (by match a with | ⟨0, _⟩ => rfl)
  rw [e, v5_at]

/-- The product with the transpose at `(i, j)` is the inner product of rows `i` and `j`. -/
theorem v12_at (i j : Fin 4096) : Read.val_main_v12 (F := Ideal) x (ix2 i j) = Cert.Spec.inner (rows x) i j := by
  rw [Read.val_main_v12_apply]
  unfold Cert.Spec.inner
  refine Finset.sum_congr rfl fun k _ => ?_
  rw [Read.val_main_v11_apply]
  have el : Read.lidx_main_v12 (ix2 i j) k = ix2 i k :=
    funext fun a => Fin.ext (by match a with | ⟨0, _⟩ => rfl | ⟨1, _⟩ => rfl)
  have er : Read.idx_main_v11 (Read.ridx_main_v12 (ix2 i j) k) = ix2 j k :=
    funext fun a => Fin.ext (by match a with | ⟨0, _⟩ => rfl | ⟨1, _⟩ => rfl)
  rw [el, er]

/-- The clamped squared distance. -/
theorem v17_at (i j : Fin 4096) : Read.val_main_v17 (F := Ideal) x (ix2 i j) = Cert.Spec.sqDist (rows x) i j := by
  rw [Read.val_main_v17_apply, Read.val_main_v15_apply, Read.val_main_v10_apply, Read.val_main_v14_apply,
    Read.val_main_v13_apply, Read.val_main_cst_2_apply, Read.val_main_v16_apply, Read.val_main_cst_3_apply,
    v8_at, v9_at, v12_at]
  rfl

/-- The clamped squared distance is not negative. -/
theorem sqDist_nonneg (f : Fin 4096 → Fin 256 → EReal) (i j : Fin 4096) : (0 : EReal) ≤ Cert.Spec.sqDist f i j := by
  unfold Cert.Spec.sqDist
  have h : Cert.Spec.zero = 0 := Ideal.ofBits_zero_f32
  rw [h]
  exact le_max_right _ _

/-- The distance: the guarded square root of the clamped squared distance. -/
theorem v22_at (i j : Fin 4096) : Read.val_main_v22 (F := Ideal) x (ix2 i j) = Cert.Spec.dist (rows x) i j := by
  rw [Read.val_main_v22_apply, Read.val_main_v19_apply, Read.val_main_v21_apply, Read.val_main_v20_apply,
    Read.val_main_v19_apply, Read.val_main_v18_apply, Read.val_main_cst_4_apply, Read.val_main_call0_v1_apply,
    Read.val_main_call0_v0_apply, Read.val_main_cst_5_apply, Read.val_main_call1_v1_apply,
    Read.val_main_call1_v0_apply, Read.val_main_cst_6_apply, v17_at]
  exact where_sqrt _ (sqDist_nonneg _ i j)

end Dist

/-! ## The other five distance matrices are the same function of their array -/

theorem v41_eq : @Read.val_main_v41 Ideal _ = @Read.val_main_v22 Ideal _ := rfl
theorem v65_eq : @Read.val_main_v65 Ideal _ = @Read.val_main_v22 Ideal _ := rfl
theorem v84_eq : @Read.val_main_v84 Ideal _ = @Read.val_main_v22 Ideal _ := rfl
theorem v108_eq : @Read.val_main_v108 Ideal _ = @Read.val_main_v22 Ideal _ := rfl
theorem v127_eq : @Read.val_main_v127 Ideal _ = @Read.val_main_v22 Ideal _ := rfl

/-! ## One feature pair's term and the label term -/

/-- A pair's mean squared difference of distances: the pair's feature total over `4096^2`. -/
theorem v45_at (x2 x5 : (⟨S4096x256, .f32⟩ : BufTy).Contents (Elt Ideal)) (i : S_.Idx) :
    Read.val_main_v45 (F := Ideal) x2 x5 i
      = Ideal.div (Cert.Spec.featTotal (rows x2) (rows x5)) Cert.Spec.nFeatOne := by
  rw [Read.val_main_v45_apply, Read.val_main_v44_apply, Read.val_main_cst_13_apply, Read.val_main_cst_14_apply,
    Ideal.hostDivf_def, Ideal.ofBits_def, Ideal.ofBits_def, Ideal.ofBits_zero_f32, zero_add, sum_idx2]
  unfold Cert.Spec.featTotal
  refine congrArg (fun s => Ideal.div s _) (Finset.sum_congr rfl fun a _ => Finset.sum_congr rfl fun b _ => ?_)
  rw [Read.val_main_v43_apply, Read.val_main_v42_apply, v41_eq, v22_at, v22_at]
  rfl

/-- The second pair's: the same function of its two arrays. -/
theorem v88_eq : @Read.val_main_v88 Ideal _ = @Read.val_main_v45 Ideal _ := rfl
/-- The third pair's likewise. -/
theorem v131_eq : @Read.val_main_v131 Ideal _ = @Read.val_main_v45 Ideal _ := rfl

/-- The label's mean squared difference: the label total over `4096 * 1000`. -/
theorem v3_at (x0 x1 : (⟨S4096x1000, .f32⟩ : BufTy).Contents (Elt Ideal)) (i : S_.Idx) :
    Read.val_main_v3 (F := Ideal) x0 x1 i
      = Ideal.div (Cert.Spec.labelTotal (fun a b => x0 (ix2 a b)) (fun a b => x1 (ix2 a b))) Cert.Spec.nLabel := by
  rw [Read.val_main_v3_apply, Read.val_main_v2_apply, Read.val_main_cst_apply, Read.val_main_cst_0_apply,
    Ideal.hostDivf_def, Ideal.ofBits_def, Ideal.ofBits_def, Ideal.ofBits_zero_f32, zero_add, sum_idx2]
  unfold Cert.Spec.labelTotal
  refine congrArg (fun s => Ideal.div s _) (Finset.sum_congr rfl fun a _ => Finset.sum_congr rfl fun b _ => ?_)
  rw [Read.val_main_v1_apply, Read.val_main_v0_apply]
  rfl

/-! ## The result -/

/-- The reference's result over any eight arrays. -/
theorem v136_at (x0 x1 : (⟨S4096x1000, .f32⟩ : BufTy).Contents (Elt Ideal))
    (x2 x3 x4 x5 x6 x7 : (⟨S4096x256, .f32⟩ : BufTy).Contents (Elt Ideal)) (i : S_.Idx) :
    Read.val_main_v136 (F := Ideal) x0 x1 x2 x3 x4 x5 x6 x7 i
      = Cert.Spec.referenceResult (fun a b => x0 (ix2 a b)) (fun a b => x1 (ix2 a b))
          ![rows x2, rows x3, rows x4] ![rows x5, rows x6, rows x7] := by
  rw [Read.val_main_v136_apply, Read.val_main_v133_apply, Read.val_main_v135_apply, Read.val_main_v134_apply,
    Read.val_main_v132_apply, Read.val_main_v89_apply, Read.val_main_v46_apply, Read.val_main_cst_44_apply,
    Read.val_main_cst_45_apply, Read.val_main_cst_46_apply, Read.val_main_cst_15_apply,
    v131_eq, v88_eq, v45_at, v45_at, v45_at, v3_at]
  rfl

/-- The reference's result is the reference's mathematics of the arguments' launch contents. -/
theorem ref_result_eq (m : (ℓ : Loc nD τ sig) → Buf (Elt Ideal) ℓ) (c : Dev nD) :
    Cert.ReferenceIdeal.Value.res_out0 (F := Ideal) m c
      = fun _ => Cert.Spec.referenceResult
          (fun i j => m ((c.tc : Thread nD τ).loc main_arg0) (ix2 i j))
          (fun i j => m ((c.tc : Thread nD τ).loc main_arg1) (ix2 i j))
          ![fun i d => m ((c.tc : Thread nD τ).loc main_arg2) (ix2 i d), fun i d => m ((c.tc : Thread nD τ).loc main_arg3) (ix2 i d), fun i d => m ((c.tc : Thread nD τ).loc main_arg4) (ix2 i d)]
          ![fun i d => m ((c.tc : Thread nD τ).loc main_arg5) (ix2 i d), fun i d => m ((c.tc : Thread nD τ).loc main_arg6) (ix2 i d), fun i d => m ((c.tc : Thread nD τ).loc main_arg7) (ix2 i d)] := by
  funext i
  exact (congrFun (Read.val_main_v136_eq m c) i).trans (v136_at _ _ _ _ _ _ _ _ i)

end Cert.ReferenceIdeal.RefValue

end
-- ==== Proof.Algebra.lean ====
/-
  The kernel's result equals the reference's, over the extended reals, for all inputs.

  * A sum over all rows equals the sum over blocks of rows of the sums within each block, since
    `(t, r) ↦ b * t + r` is a bijection `Fin n × Fin b ≃ Fin (n * b)`; so the blocked label and
    feature sums are the whole sums.
  * Each feature term is a sum of squares, hence nonnegative (a square is nonnegative at the
    infinities too), and multiplication distributes over sums of nonnegative extended reals; so
    `S₀ / 4096² + S₁ / 4096² + S₂ / 4096² = (S₀ + S₁ + S₂) / 4096²`.
  * Division by a nonzero real is multiplication by its reciprocal, and
    `(1 / 4096²) * (1 / 3) = 1 / (3 * 4096²)`; the weights only move by associativity.
-/
import proofs.«109064_j34256659153337_1_alg».proof.Proof.Spec
import Mathlib.Data.EReal.Operations
import Mathlib.Data.Fintype.BigOperators
import Mathlib.Logic.Equiv.Fin.Basic
import Mathlib.Algebra.BigOperators.Fin

/-! # The kernel's blocked sums and single division equal the reference's whole sums and two divisions -/

noncomputable section

namespace Cert.Algebra

open Idealize.ShloMosaic Cert.Spec

/-! ## Re-indexing a sum over rows by blocks of rows -/

/-- Summing over `n` blocks of `b` rows is summing over all `n * b` rows: `(t, r) ↦ b * t + r` is a bijection. -/
theorem sum_rowOf {n b : ℕ} (f : Fin (n * b) → EReal) :
    ∑ t : Fin n, ∑ r : Fin b, f (rowOf t r) = ∑ i : Fin (n * b), f i := by
  rw [← Fintype.sum_prod_type' (fun t r => f (rowOf t r))]
  refine Fintype.sum_equiv finProdFinEquiv _ _ (fun x => ?_)
  congr 1
  apply Fin.ext
  simp only [rowOf, finProdFinEquiv_apply_val]
  exact Nat.add_comm _ _

theorem labelBlocks_eq (P T : Fin 4096 → Fin 1000 → EReal) : labelBlocks P T = labelTotal P T :=
  sum_rowOf (n := 8) (b := 512) (fun i => ∑ j : Fin 1000, sqDiff P T i j)

theorem featBlock_eq (p t : Fin 4096 → Fin 256 → EReal) :
    ∑ b : Fin 32, ∑ r : Fin 128, ∑ j : Fin 4096, pairTerm p t (rowOf (n := 32) (b := 128) b r) j
      = featTotal p t :=
  sum_rowOf (n := 32) (b := 128) (fun i => ∑ j : Fin 4096, pairTerm p t i j)

theorem featBlocks_eq (pf tf : Fin 3 → Fin 4096 → Fin 256 → EReal) :
    featBlocks pf tf
      = featTotal (pf 0) (tf 0) + featTotal (pf 1) (tf 1) + featTotal (pf 2) (tf 2) := by
  unfold featBlocks
  rw [Fin.sum_univ_three, featBlock_eq, featBlock_eq, featBlock_eq]

/-! ## Nonnegativity of the feature terms -/

/-- A square is nonnegative at every extended real, the infinities included. -/
theorem sq_nonneg_ereal (y : EReal) : 0 ≤ y * y := by
  rcases le_total 0 y with h | h
  · exact EReal.mul_nonneg h h
  · exact EReal.mul_nonneg_iff.mpr (Or.inr ⟨h, h⟩)

theorem featTotal_nonneg (p t : Fin 4096 → Fin 256 → EReal) : 0 ≤ featTotal p t :=
  Finset.sum_nonneg (fun _ _ => Finset.sum_nonneg (fun _ _ => sq_nonneg_ereal _))

/-! ## The divisors, as reals -/

theorem zero_eq : (zero : EReal) = 0 := by
  simp [Ideal.ofBits, Ideal.ieee]

theorem nFeatAll_eq : (nFeatAll : EReal) = ((50331648 : ℝ) : EReal) := by
  simp [Ideal.ofBits, Ideal.ieee, -EReal.coe_mul]; norm_num

theorem nFeatOne_eq : (nFeatOne : EReal) = ((16777216 : ℝ) : EReal) := by
  simp [Ideal.ofBits, Ideal.ieee, -EReal.coe_mul]; norm_num

theorem three_eq : (three : EReal) = ((3 : ℝ) : EReal) := by
  simp [Ideal.ofBits, Ideal.ieee, -EReal.coe_mul]; norm_num

/-! ## The feature part -/

/-- Dividing each of three nonnegative terms by `4096^2`, adding them to zero and dividing the
    weighted sum by `3` is dividing the sum by `3 * 4096^2` and weighting it. -/
theorem feat_part (w s0 s1 s2 : EReal) (h0 : 0 ≤ s0) (h1 : 0 ≤ s1) (h2 : 0 ≤ s2) :
    w * Ideal.div (s0 + s1 + s2) nFeatAll
      = Ideal.div (w * (((zero + Ideal.div s0 nFeatOne) + Ideal.div s1 nFeatOne)
          + Ideal.div s2 nFeatOne)) three := by
  rw [zero_eq, nFeatAll_eq, nFeatOne_eq, three_eq,
    Ideal.div_coe (by norm_num), Ideal.div_coe (by norm_num), Ideal.div_coe (by norm_num),
    Ideal.div_coe (by norm_num), Ideal.div_coe (by norm_num), zero_add,
    ← EReal.right_distrib_of_nonneg h0 h1, ← EReal.right_distrib_of_nonneg (add_nonneg h0 h1) h2,
    mul_assoc w, mul_assoc (s0 + s1 + s2), ← EReal.coe_mul]
  congr 3
  norm_num

/-! ## The two results -/

theorem kernel_eq_reference (P T : Fin 4096 → Fin 1000 → EReal) (pf tf : Fin 3 → Fin 4096 → Fin 256 → EReal) :
    Cert.Spec.kernelResult P T pf tf = Cert.Spec.referenceResult P T pf tf := by
  unfold kernelResult referenceResult
  rw [labelBlocks_eq, featBlocks_eq,
    feat_part wFeat _ _ _ (featTotal_nonneg _ _) (featTotal_nonneg _ _) (featTotal_nonneg _ _)]

end Cert.Algebra

end
-- ==== Proof.lean ====
/-
  The kernel computes  0.2 * (L / 4096000) + 0.8 * (S / (3 * 4096^2))  and the reference
  0.2 * (L / 4096000) + (0.8 * (((0 + S_0 / 4096^2) + S_1 / 4096^2) + S_2 / 4096^2)) / 3,  where L is the sum over
  all entries of the squared difference of the two 4096 x 1000 label arrays and S = S_0 + S_1 + S_2, S_k the sum over
  all index pairs (i, j) of the squared difference of the pairwise distances of the k-th pair of 4096 x 256 feature
  arrays, a distance being the square root of  max (|f_i|^2 + |f_j|^2 - 2 <f_i, f_j>) 0.

  The kernel takes L in 8 blocks of 512 rows and S in 3 x 32 blocks of 128 rows, each in a pallas_call that
  accumulates into a 1 x 1 output block resident over its grid and written back after the last point; over the
  extended reals a sum does not depend on how it is blocked, each S_k is a sum of squares and so nonnegative, and
  multiplication by a nonnegative real distributes over a sum of nonnegative terms: the two results are equal for
  every input (Algebra.lean). The reference's  where (sq > 0) (sqrt (where (sq > 0) sq 1)) 0  is  sqrt sq  because
  sq is a maximum with 0 and the square root of 0 is 0 (RefValue.lean).

  The frames of the two kernel programs come from one run of @main, region by region (MainRun.lean and its
  word-level copy): each region's body is run once for each way its one conditional goes, and what the resident
  output block holds after a grid point is defined by recursion on the point. The same run, read at the extended
  reals, names the result (KernelValue.lean over LabelValue.lean and FeatValue.lean). The reference's frame and value
  are its generated run. The idealization rewrote nothing, so preserves is trivial.
-/
import proofs.«109064_j34256659153337_1_alg».proof.Defs
import proofs.«109064_j34256659153337_1_alg».proof.Proof.Gen.Kernel
import proofs.«109064_j34256659153337_1_alg».proof.Proof.Gen.KernelIdeal
import proofs.«109064_j34256659153337_1_alg».proof.Proof.Gen.ReferenceIdeal
import proofs.«109064_j34256659153337_1_alg».proof.Proof.Gen.Pre_finite_inputs
import proofs.«109064_j34256659153337_1_alg».proof.Proof.MainRun
import proofs.«109064_j34256659153337_1_alg».proof.Proof.Bits.MainRun
import proofs.«109064_j34256659153337_1_alg».proof.Proof.KernelValue
import proofs.«109064_j34256659153337_1_alg».proof.Proof.RefValue
import proofs.«109064_j34256659153337_1_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end, from memories agreeing on the arguments, with the same number. -/
theorem algebraic : Cert.algebraic_KernelIdeal_ReferenceIdeal := by
  intro m ρ m' ρ' _ hagree
  refine ⟨fun c => fun _ => Cert.Spec.kernelResult
      (fun i j => m ((c.tc : Thread Cert.KernelIdeal.nD Cert.KernelIdeal.τ).loc Cert.KernelIdeal.main_arg0) (ix2 i j))
      (fun i j => m ((c.tc : Thread Cert.KernelIdeal.nD Cert.KernelIdeal.τ).loc Cert.KernelIdeal.main_arg1) (ix2 i j))
      ![fun i d => m ((c.tc : Thread Cert.KernelIdeal.nD Cert.KernelIdeal.τ).loc Cert.KernelIdeal.main_arg2) (ix2 i d), fun i d => m ((c.tc : Thread Cert.KernelIdeal.nD Cert.KernelIdeal.τ).loc Cert.KernelIdeal.main_arg3) (ix2 i d), fun i d => m ((c.tc : Thread Cert.KernelIdeal.nD Cert.KernelIdeal.τ).loc Cert.KernelIdeal.main_arg4) (ix2 i d)]
      ![fun i d => m ((c.tc : Thread Cert.KernelIdeal.nD Cert.KernelIdeal.τ).loc Cert.KernelIdeal.main_arg5) (ix2 i d), fun i d => m ((c.tc : Thread Cert.KernelIdeal.nD Cert.KernelIdeal.τ).loc Cert.KernelIdeal.main_arg6) (ix2 i d), fun i d => m ((c.tc : Thread Cert.KernelIdeal.nD Cert.KernelIdeal.τ).loc Cert.KernelIdeal.main_arg7) (ix2 i d)], ?_, ?_⟩
  · exact (θ_run Cert.KernelIdeal.defs _ _).mono (fun _ h c =>
      ⟨(h c _ (Cert.KernelIdeal.Run.mem_uc Cert.KernelIdeal.main_v16 (by decide))).trans (Cert.KernelIdeal.Run.kernel_result m ρ c),
        (h c _ (Cert.KernelIdeal.Run.mem_uc Cert.KernelIdeal.main_arg0 (by decide))).trans (Cert.KernelIdeal.Run.bnd4_main_arg0 m ρ c),
        (h c _ (Cert.KernelIdeal.Run.mem_uc Cert.KernelIdeal.main_arg1 (by decide))).trans (Cert.KernelIdeal.Run.bnd4_main_arg1 m ρ c),
        (h c _ (Cert.KernelIdeal.Run.mem_uc Cert.KernelIdeal.main_arg2 (by decide))).trans (Cert.KernelIdeal.Run.bnd4_main_arg2 m ρ c),
        (h c _ (Cert.KernelIdeal.Run.mem_uc Cert.KernelIdeal.main_arg3 (by decide))).trans (Cert.KernelIdeal.Run.bnd4_main_arg3 m ρ c),
        (h c _ (Cert.KernelIdeal.Run.mem_uc Cert.KernelIdeal.main_arg4 (by decide))).trans (Cert.KernelIdeal.Run.bnd4_main_arg4 m ρ c),
        (h c _ (Cert.KernelIdeal.Run.mem_uc Cert.KernelIdeal.main_arg5 (by decide))).trans (Cert.KernelIdeal.Run.bnd4_main_arg5 m ρ c),
        (h c _ (Cert.KernelIdeal.Run.mem_uc Cert.KernelIdeal.main_arg6 (by decide))).trans (Cert.KernelIdeal.Run.bnd4_main_arg6 m ρ c),
        (h c _ (Cert.KernelIdeal.Run.mem_uc Cert.KernelIdeal.main_arg7 (by decide))).trans (Cert.KernelIdeal.Run.bnd4_main_arg7 m ρ c)⟩)
      (Cert.KernelIdeal.Run.run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.ref_result_eq m' c).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    funext _
    exact (Cert.Algebra.kernel_eq_reference _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
